-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S7x7 : Shape := ⟨2, ![7, 7]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_

variable [Facts]

def fn_part2 {F : FTy → Type} [FloatOps F] (main_arg7 : FVec F S7 .f32) (main_v33 : IVec S_ 1) : IVec S_ 1 :=
  let main_v34 : FVec F S7 .f32 := Host.absf main_arg7
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg4 : FVec F S16x7 .f32) (main_arg5 : FVec F S7 .f32) (main_arg6 : FVec F S7x7 .f32) (main_arg7 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg4
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S7x7 .f32 := Host.absf main_arg6
  let main_cst_10 : FVec F S_ .f32 := constant S_ .f32 0x7F800000#32
  let main_v30 : FVec F S7x7 .f32 := broadcastInDim S7x7 ![] bcast_S_S7x7 main_cst_10
  let main_v31 : IVec S7x7 1 := cmpf .olt main_v29 main_v30
  let main_c_11 : IVec S_ 1 := constantI S_ 1 1#1
  let main_v32 : IVec S_ 1 := (fun x v => Host.reduce IntOp.andi x v reducesTo_S7x7_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S2x10000x10000 .f32) (main_arg2 : FVec F S128x16 .f32) (main_arg3 : FVec F S16 .f32) (main_arg4 : FVec F S16x7 .f32) (main_arg5 : FVec F S7 .f32) (main_arg6 : FVec F S7x7 .f32) (main_arg7 : FVec F S7 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S7x7 : Shape := ⟨2, ![7, 7]⟩
abbrev S_ : Shape := ⟨0, ![]⟩
abbrev S176x16 : Shape := ⟨2, ![176, 16]⟩
abbrev S1 : Shape := ⟨1, ![1]⟩
abbrev S2 : Shape := ⟨1, ![2]⟩
abbrev S10000x7 : Shape := ⟨2, ![10000, 7]⟩
abbrev S1x400x10000 : Shape := ⟨3, ![1, 400, 10000]⟩
abbrev S10000x16 : Shape := ⟨2, ![10000, 16]⟩
abbrev S400x10000 : Shape := ⟨2, ![400, 10000]⟩
abbrev S400x16 : Shape := ⟨2, ![400, 16]⟩
abbrev S1x16 : Shape := ⟨2, ![1, 16]⟩
abbrev S400x7 : Shape := ⟨2, ![400, 7]⟩
abbrev S1x7 : Shape := ⟨2, ![1, 7]⟩
abbrev S400 : Shape := ⟨1, ![400]⟩
abbrev S400x1 : Shape := ⟨2, ![400, 1]⟩

abbrev nBuf : Space → Nat
  | .hbm => 41
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S7x7, .f32⟩
  | .hbm, ⟨7, _⟩ => ⟨S7, .f32⟩
  | .hbm, ⟨8, _⟩ => ⟨S_, .f32⟩
  | .hbm, ⟨9, _⟩ => ⟨S176x16, .f32⟩
  | .hbm, ⟨10, _⟩ => ⟨S_, .i32⟩
  | .hbm, ⟨11, _⟩ => ⟨S1, .i32⟩
  | .hbm, ⟨12, _⟩ => ⟨S176x16, .f32⟩
  | .hbm, ⟨13, _⟩ => ⟨S_, .i32⟩
  | .hbm, ⟨14, _⟩ => ⟨S1, .i32⟩
  | .hbm, ⟨15, _⟩ => ⟨S176x16, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S176x16, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S176x16, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S176x16, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S176x16, .f32⟩
  | .hbm, ⟨40, _⟩ => ⟨S10000x7, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S176x16, .f32⟩
  | .local _ .vmem, ⟨4, _⟩ => ⟨S10000x7, .f32⟩
  | .local _ .vmem, ⟨5, _⟩ => ⟨S10000x16, .f32⟩
  | .local _ .vmem, ⟨6, _⟩ => ⟨S10000x7, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_7 : Ref sig .tc := ⟨.hbm, 34, rfl⟩
abbrev main_v17 : Ref sig .tc := ⟨.hbm, 35, rfl⟩
abbrev main_c_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_1 : BitVec 32 := 25#32
  let v4 : BitVec 1 := Scalar.cmpi .slt arg0 c25_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v23 : BitVec 32 := Scalar.muli v0 c400_i32
  let v24 : Index := Scalar.indexCast v23
  let c0_13 : Index := 0#32
  ![v24.toNat, 0]
def k0_cond3 (i : grid0.Coords) : BitVec 1 :=
  let arg0 : BitVec 32 := BitVec.ofNat 32 (i 0).val
  let c25_i32_3 : BitVec 32 := 25#32
  let v7 : BitVec 1 := Scalar.cmpi .sge arg0 c25_i32_3
  let v8 : BitVec 32 := Scalar.extui v7
  let c0_i32_4 : BitVec 32 := 0#32
  let v9 : BitVec 1 := Scalar.cmpi .ne v8 c0_i32_4
  v9

def k0_off2 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v35 : BitVec 32 := Scalar.muli v0 c400_i32
  let v36 : Index := Scalar.indexCast v35
  let c0_15 : Index := 0#32
  ![v36.toNat, 0]
def cc0_transform_0 (i : grid0.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S176x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S176x16 : S_.BroadcastsInDim S176x16 (![] : Fin 0 → Fin S176x16.rank)
  bcast_S_S1 : S_.BroadcastsInDim S1 (![] : Fin 0 → Fin S1.rank)
  concatenates_S1_S1_S2_d0 : Shape.Concatenates [S1, S1] S2 0
  inb_S10000x128_S10000x128_0_0 : ∀ a, (![0, 0] : Fin 2 → Nat) a + S10000x128.size a ≤ S10000x128.size a
  h_S10000x128 : 0 < S10000x128.numel
  inb_S176x16_S128x16_0_0 : ∀ a, (![0, 0] : Fin 2 → Nat) a + S128x16.size a ≤ S176x16.size a
  h_S128x16 : 0 < S128x16.numel
  shapeCasts_S128x16_S128x16 : S128x16.ShapeCasts S128x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S176x16_S1x16_128_0 : ∀ a, (![128, 0] : Fin 2 → Nat) a + S1x16.size a ≤ S176x16.size a
  h_S1x16 : 0 < S1x16.numel
  shapeCasts_S1x16_S1x16 : S1x16.ShapeCasts S1x16
  broadcasts_S1x16_S400x16 : S1x16.Broadcasts S400x16
  inb_S176x16_S16x7_136_0 : ∀ a, (![136, 0] : Fin 2 → Nat) a + S16x7.size a ≤ S176x16.size a
  h_S16x7 : 0 < S16x7.numel
  shapeCasts_S16x7_S16x7 : S16x7.ShapeCasts S16x7
  h_S400x7 : 0 < S400x7.numel
  shapeCasts_S400x7_S400x7 : S400x7.ShapeCasts S400x7
  inb_S10000x7_S10000x7_0_0 : ∀ a, (![0, 0] : Fin 2 → Nat) a + S10000x7.size a ≤ S10000x7.size a
  h_S10000x7 : 0 < S10000x7.numel
  inb_S176x16_S1x7_152_0 : ∀ a, (![152, 0] : Fin 2 → Nat) a + S1x7.size a ≤ S176x16.size a
  h_S1x7 : 0 < S1x7.numel
  shapeCasts_S1x7_S1x7 : S1x7.ShapeCasts S1x7
  broadcasts_S1x7_S400x7 : S1x7.Broadcasts S400x7
  inb_S176x16_S7x7_160_0 : ∀ a, (![160, 0] : Fin 2 → Nat) a + S7x7.size a ≤ S176x16.size a
  h_S7x7 : 0 < S7x7.numel
  shapeCasts_S7x7_S7x7 : S7x7.ShapeCasts S7x7
  inb_S176x16_S1x7_168_0 : ∀ a, (![168, 0] : Fin 2 → Nat) a + S1x7.size a ≤ S176x16.size a
  reduces_S400x7_S400 : S400x7.Reduces [1] S400
  shapeCasts_S400_S400x1 : S400.ShapeCasts S400x1
  broadcasts_S400x1_S400x7 : S400x1.Broadcasts S400x7
  scatter_S176x16_S1_S128x16_01_n_0_0_wf : ScatterDims.WF S176x16 S1 S128x16 [0, 1] [] [0] 0
  scatter_S176x16_S1_S16_0_0_0_0_wf : ScatterDims.WF S176x16 S1 S16 [0] [0] [0] 0
  scatter_S176x16_S2_S16x7_01_n_01_0_wf : ScatterDims.WF S176x16 S2 S16x7 [0, 1] [] [0, 1] 0
  scatter_S176x16_S2_S7_0_0_01_0_wf : ScatterDims.WF S176x16 S2 S7 [0] [0] [0, 1] 0
  scatter_S176x16_S2_S7x7_01_n_01_0_wf : ScatterDims.WF S176x16 S2 S7x7 [0, 1] [] [0, 1] 0
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x7_S400x7_1_0_0_1_n_n_wf : DotDims.WF S400x16 S16x7 S400x7 [1] [0] [0] [1] [] []
  dot_S400x10000_S10000x7_S400x7_1_0_0_1_n_n_wf : DotDims.WF S400x10000 S10000x7 S400x7 [1] [0] [0] [1] [] []
  dot_S400x7_S7x7_S400x7_1_0_0_1_n_n_wf : DotDims.WF S400x7 S7x7 S400x7 [1] [0] [0] [1] [] []
  hrank0 : 0 < grid0.rank
  k0_off1_inb : ∀ i : grid0.Coords, ∀ (k0_h2 : k0_cond2 i = 1#1), ∀ a, (k0_off1 i) a + S400x7.size a ≤ S10000x7.size a
  k0_off2_inb : ∀ i : grid0.Coords, ∀ (k0_h3 : k0_cond3 i = 1#1), ∀ a, (k0_off2 i) a + S400x7.size a ≤ S10000x7.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S176x16.size a ≤ S176x16.size a
  hwx0_2 : ∀ i : grid0.Coords, EltTy.bits .f32 = 32 ∨ (Rect.block (s := S176x16) S176x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x7.size a ≤ S10000x7.size a
  hwx0_3 : ∀ i : grid0.Coords, EltTy.bits .f32 = 32 ∨ (Rect.block (s := S10000x7) S10000x7.size (cc0_transform_3 i) (hinb0_3 i)).WholeWords (EltTy.packing .f32)

variable [Facts₀]

def scatter_S176x16_S1_S128x16_01_n_0_0 : ScatterDims S176x16 S1 S128x16 where
  updateWindowDims := [0, 1]
  insertedWindowDims := []
  scatterDimsToOperandDims := [0]
  indexVectorDim := 0
  wf := scatter_S176x16_S1_S128x16_01_n_0_0_wf
def scatter_S176x16_S1_S16_0_0_0_0 : ScatterDims S176x16 S1 S16 where
  updateWindowDims := [0]
  insertedWindowDims := [0]
  scatterDimsToOperandDims := [0]
  indexVectorDim := 0
  wf := scatter_S176x16_S1_S16_0_0_0_0_wf
def scatter_S176x16_S2_S16x7_01_n_01_0 : ScatterDims S176x16 S2 S16x7 where
  updateWindowDims := [0, 1]
  insertedWindowDims := []
  scatterDimsToOperandDims := [0, 1]
  indexVectorDim := 0
  wf := scatter_S176x16_S2_S16x7_01_n_01_0_wf
def scatter_S176x16_S2_S7_0_0_01_0 : ScatterDims S176x16 S2 S7 where
  updateWindowDims := [0]
  insertedWindowDims := [0]
  scatterDimsToOperandDims := [0, 1]
  indexVectorDim := 0
  wf := scatter_S176x16_S2_S7_0_0_01_0_wf
def scatter_S176x16_S2_S7x7_01_n_01_0 : ScatterDims S176x16 S2 S7x7 where
  updateWindowDims := [0, 1]
  insertedWindowDims := []
  scatterDimsToOperandDims := [0, 1]
  indexVectorDim := 0
  wf := scatter_S176x16_S2_S7x7_01_n_01_0_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x7_S400x7_1_0_0_1_n_n : DotDims S400x16 S16x7 S400x7 where
  lhsContracting := [1]
  rhsContracting := [0]
  lhsNonContracting := [0]
  rhsNonContracting := [1]
  lhsBatch := []
  rhsBatch := []
  wf := dot_S400x16_S16x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf
def dot_S400x7_S7x7_S400x7_1_0_0_1_n_n : DotDims S400x7 S7x7 S400x7 where
  lhsContracting := [1]
  rhsContracting := [0]
  lhsNonContracting := [0]
  rhsNonContracting := [1]
  lhsBatch := []
  rhsBatch := []
  wf := dot_S400x7_S7x7_S400x7_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S176x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S10000x7.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S7x7 : Shape := ⟨2, ![7, 7]⟩
abbrev S1x10000x10000 : Shape := ⟨3, ![1, 10000, 10000]⟩
abbrev S10000x10000 : Shape := ⟨2, ![10000, 10000]⟩
abbrev S10000x16 : Shape := ⟨2, ![10000, 16]⟩
abbrev S1x16 : Shape := ⟨2, ![1, 16]⟩
abbrev S_ : Shape := ⟨0, ![]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S7x7, .f32⟩
  | .hbm, ⟨7, _⟩ => ⟨S7, .f32⟩
  | .hbm, ⟨8, _⟩ => ⟨S1x10000x10000, .f32⟩
  | .hbm, ⟨9, _⟩ => ⟨S10000x10000, .f32⟩
  | .hbm, ⟨10, _⟩ => ⟨S10000x16, .f32⟩
  | .hbm, ⟨11, _⟩ => ⟨S10000x16, .f32⟩
  | .hbm, ⟨12, _⟩ => ⟨S1x16, .f32⟩
  | .hbm, ⟨13, _⟩ => ⟨S10000x16, .f32⟩
  | .hbm, ⟨14, _⟩ => ⟨S10000x16, .f32⟩
  | .hbm, ⟨15, _⟩ => ⟨S_, .f32⟩
  | .hbm, ⟨16, _⟩ => ⟨S10000x16, .f32⟩
  | .hbm, ⟨17, _⟩ => ⟨S10000x16, .f32⟩
  | .hbm, ⟨18, _⟩ => ⟨S1x10000x10000, .f32⟩
  | .hbm, ⟨19, _⟩ => ⟨S10000x10000, .f32⟩
  | .hbm, ⟨20, _⟩ => ⟨S10000x7, .f32⟩
  | .hbm, ⟨21, _⟩ => ⟨S10000x7, .f32⟩
  | .hbm, ⟨22, _⟩ => ⟨S1x7, .f32⟩
  | .hbm, ⟨23, _⟩ => ⟨S10000x7, .f32⟩
  | .hbm, ⟨24, _⟩ => ⟨S10000x7, .f32⟩
  | .hbm, ⟨25, _⟩ => ⟨S10000x7, .f32⟩
  | .hbm, ⟨26, _⟩ => ⟨S1x7, .f32⟩
  | .hbm, ⟨27, _⟩ => ⟨S10000x7, .f32⟩
  | .hbm, ⟨28, _⟩ => ⟨S10000x7, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x7, .f32⟩
  | .hbm, ⟨36, _⟩ => ⟨S10000x7, .f32⟩
  | .hbm, ⟨37, _⟩ => ⟨S10000x7, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x7, .f32⟩
  | .hbm, ⟨43, _⟩ => ⟨S10000x7, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v19 : Ref sig .tc := ⟨.hbm, 43, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  slices_S2x10000x10000_S1x10000x10000_1_0_0 : S2x10000x10000.Slices ![1, 0, 0] S1x10000x10000
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x7_S10000x7_1_0_0_1_n_n_wf : DotDims.WF S10000x16 S16x7 S10000x7 [1] [0] [0] [1] [] []
  dot_S10000x10000_S10000x7_S10000x7_1_0_0_1_n_n_wf : DotDims.WF S10000x10000 S10000x7 S10000x7 [1] [0] [0] [1] [] []
  dot_S10000x7_S7x7_S10000x7_1_0_0_1_n_n_wf : DotDims.WF S10000x7 S7x7 S10000x7 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf
def dot_S10000x7_S7x7_S10000x7_1_0_0_1_n_n : DotDims S10000x7 S7x7 S10000x7 where
  lhsContracting := [1]
  rhsContracting := [0]
  lhsNonContracting := [0]
  rhsNonContracting := [1]
  lhsBatch := []
  rhsBatch := []
  wf := dot_S10000x7_S7x7_S10000x7_1_0_0_1_n_n_wf

class Facts : Prop extends Facts₀ where

variable [Facts]
-- ==== Proof.Bits.Shared.lean ====
/-
  What the three control cases of the two-layer graph-convolution kernel share.

  The grid has 50 points. Point 0 computes the first support `x · W1` into the first scratch; points 0 … 24 each turn one
  block of 400 rows of `adj[0]` into 400 rows of the second support (second scratch); points 25 … 49 each turn one block of
  400 rows of `adj[1]` into 400 rows of the log-softmax output. The three `scf.if` conditions depend on the grid coordinate
  only; here they are in closed form, with the row offsets of the two 400-row stores, the staging and scratch memrefs as the
  pipeline passes them, and the one function that says what a 400-row store leaves in a 10000-row buffer.
-/
import proofs.«145415_g2834678415609_cont_sun_c4_672_24_alg».proof.Proof.Gen.Kernel.Frame
import proofs.«145415_g2834678415609_cont_sun_c4_672_24_alg».proof.Proof.Gen.Kernel.Skeleton
import Idealize.ShloMosaic.Lib.WritesUnit
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, over the grid -/

/-- "This is the first point": the condition of the branch that computes `x · W1`. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "The point is in the first half": the condition of the branch that writes 400 rows of the second support. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- "The point is in the second half": the condition of the branch that writes 400 rows of the output. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-! ## Where the two 400-row stores land -/

/-- The second support's store at point `t` starts at row `(t mod 25) · 400`, column 0. -/
theorem off1_eq : ∀ t : Fin cfg0.N, k0_off1 (grid0.coords t) = ![(t.val % 25) * 400, 0] :=
  (by decide +kernel : ∀ t : Fin grid0.N, k0_off1 (grid0.coords t) = ![(t.val % 25) * 400, 0])

/-- The output's store at point `t` starts at row `(t mod 25) · 400`, column 0. -/
theorem off2_eq : ∀ t : Fin cfg0.N, k0_off2 (grid0.coords t) = ![(t.val % 25) * 400, 0] :=
  (by decide +kernel : ∀ t : Fin grid0.N, k0_off2 (grid0.coords t) = ![(t.val % 25) * 400, 0])

/-! ## Idle points -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

abbrev ms0_0 (t : Fin cfg0.N) : Memref sig .tc .vmem S1x400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S176x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x7 .f32 := win0_3.stage (cfg0.slots t 3)
abbrev hs0_3 (t : Fin cfg0.N) : (ms0_3 t).IsWhole := hstage0_3 ((cfg0.slots t 3).cast nbuf0_3)
/-- The two scratch operands: the first support `[10000, 16]` and the second support `[10000, 7]`. -/
abbrev scM0_0 : Memref sig .tc .vmem S10000x16 .f32 := Memref.whole cc0_scratch0
abbrev scM0_1 : Memref sig .tc .vmem S10000x7 .f32 := Memref.whole cc0_scratch1

/-- The region's own invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Zero offsets, however spelt -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

/-! ## A 400-row store into a 10000-row buffer -/

/-- The buffer `Y` with its rows `[o, o + 400)` replaced by the 400 rows of `P`: row `o + a` becomes row `a` of `P`. -/
def rowsUpd (o : ℕ) (Y : Vec F S10000x7 .f32) (P : Vec F S400x7 .f32) : Vec F S10000x7 .f32 := fun y =>
  if h : o ≤ (y (0 : Fin 2)).val ∧ (y (0 : Fin 2)).val < o + 400 then
    P (Rect.unitLocal (s := S10000x7) (off := ![o, 0]) (size := S400x7.size) y (Rect.unit_rows_mem y rfl rfl h))
  else Y y

/-- Reading back a store of 400 whole rows at row `o` into a whole 10000-row buffer that read `Y`: `rowsUpd o Y P`. -/
theorem read_rows_store (arg : Memref sig .tc .vmem S10000x7 .f32) (harg : arg.IsWhole) (Y : Vec F S10000x7 .f32)
    (off : Fin 2 → ℕ) (inb : ∀ a, off a + S400x7.size a ≤ S10000x7.size a) (P : Vec F S400x7 .f32) (o : ℕ) (ho : off = ![o, 0]) :
    arg.view.read (Elt F) (arg.view.writes (Elt F) (harg.unread Y) [⟨Rect.unit (s := S10000x7) off S400x7.size inb, P⟩])
      = rowsUpd o Y P := by
  funext y
  rw [View.read_writes_cons_rows (d := ![10000, 7]) (W := 400) arg.view _ inb P [] y ho rfl rfl]
  unfold rowsUpd
  simp only [View.writes_nil, harg.read_unread]

/-- A row of `rowsUpd o Y P` inside `[o, o + 400)` is the row of `P`; -/
theorem rowsUpd_of_mem (o : ℕ) (Y : Vec F S10000x7 .f32) (P : Vec F S400x7 .f32) (y : S10000x7.Idx) (x : S400x7.Idx)
    (h0 : (y (0 : Fin 2)).val = o + (x (0 : Fin 2)).val) (h1 : (y (1 : Fin 2)).val = (x (1 : Fin 2)).val) :
    rowsUpd o Y P y = P x := by
  unfold rowsUpd
  have hx0 : (x (0 : Fin 2)).val < 400 := (x (0 : Fin 2)).isLt
  rw [dif_pos ⟨by omega, by omega⟩]
  congr 1
  funext a
  match a with
  | ⟨0, _⟩ => exact Fin.ext (by rw [Rect.unitLocal_val]; show (y (0 : Fin 2)).val - o = (x (0 : Fin 2)).val; omega)
  | ⟨1, _⟩ => exact Fin.ext (by rw [Rect.unitLocal_val]; show (y (1 : Fin 2)).val - 0 = (x (1 : Fin 2)).val; omega)

/-- a row outside keeps what the buffer held. -/
theorem rowsUpd_of_not_mem (o : ℕ) (Y : Vec F S10000x7 .f32) (P : Vec F S400x7 .f32) (y : S10000x7.Idx)
    (h : (y (0 : Fin 2)).val < o ∨ o + 400 ≤ (y (0 : Fin 2)).val) : rowsUpd o Y P y = Y y := by
  unfold rowsUpd
  rw [dif_neg (by omega)]

/-- Reading back a store of the whole first scratch, newest in the list: its payload. -/
theorem read_whole_store (arg : Memref sig .tc .vmem S10000x16 .f32) (f : arg.view.ty.Contents (Elt F))
    (inb : ∀ a, (![0, 0] : Fin 2 → ℕ) a + S10000x16.size a ≤ S10000x16.size a) (P : Vec F S10000x16 .f32)
    (L : List (View.Piece (Elt F) S10000x16 .f32)) :
    arg.view.read (Elt F) (arg.view.writes (Elt F) f (⟨Rect.unit (s := S10000x16) ![0, 0] S10000x16.size inb, P⟩ :: L)) = P := by
  funext y
  exact View.read_writes_cons_unit_of_mem arg.view f inb P L y y rfl (fun a => by
    match a with
    | ⟨0, _⟩ => exact (Nat.zero_add _).symm
    | ⟨1, _⟩ => exact (Nat.zero_add _).symm)

/-! ## The kernel's three values, as functions of what the buffers hold

`pk` is the packed weights array `[176, 16]`: rows 0 … 127 hold `W1`, row 128 `b1`, rows 136 … 151 (columns 0 … 6) `W2`,
row 152 `b2`, rows 160 … 166 `WL`, row 168 `bL`. -/

/-- The rows of the packed array the body loads. -/
abbrev pkW1 (pk : Vec F S176x16 .f32) : Vec F S128x16 .f32 := View.ld pk (Rect.unit (s := S176x16) ![0, 0] S128x16.size inb_S176x16_S128x16_0_0)
abbrev pkB1 (pk : Vec F S176x16 .f32) : Vec F S1x16 .f32 := View.ld pk (Rect.unit (s := S176x16) ![128, 0] S1x16.size inb_S176x16_S1x16_128_0)
abbrev pkW2 (pk : Vec F S176x16 .f32) : Vec F S16x7 .f32 := View.ld pk (Rect.unit (s := S176x16) ![136, 0] S16x7.size inb_S176x16_S16x7_136_0)
abbrev pkB2 (pk : Vec F S176x16 .f32) : Vec F S1x7 .f32 := View.ld pk (Rect.unit (s := S176x16) ![152, 0] S1x7.size inb_S176x16_S1x7_152_0)
abbrev pkWL (pk : Vec F S176x16 .f32) : Vec F S7x7 .f32 := View.ld pk (Rect.unit (s := S176x16) ![160, 0] S7x7.size inb_S176x16_S7x7_160_0)
abbrev pkBL (pk : Vec F S176x16 .f32) : Vec F S1x7 .f32 := View.ld pk (Rect.unit (s := S176x16) ![168, 0] S1x7.size inb_S176x16_S1x7_168_0)

/-- The first support `x · W1`, all 10000 rows. -/
def sup1 (x : Vec F S10000x128 .f32) (pk : Vec F S176x16 .f32) : Vec F S10000x16 .f32 := k0_pay1 x (pkW1 pk)

/-- 400 rows of the second support: `relu (a · s1 + b1) · W2` for the block `a` of 400 rows of `adj[0]`. -/
def sup2blk (a : Vec F S1x400x10000 .f32) (s1 : Vec F S10000x16 .f32) (pk : Vec F S176x16 .f32) : Vec F S400x7 .f32 :=
  k0_pay2 a s1 (pkB1 pk) (pkW2 pk)

/-- 400 rows of the output: the row-wise log-softmax of `(a · s2 + b2) · WL + bL` for the block `a` of 400 rows of `adj[1]`. -/
def outblk (a : Vec F S1x400x10000 .f32) (s2 : Vec F S10000x7 .f32) (pk : Vec F S176x16 .f32) : Vec F S400x7 .f32 :=
  k0_pay3 a s2 (pkB2 pk) (pkWL pk) (pkBL pk)

end Cert.Kernel.Gen

end
-- ==== Proof.Bits.Vals.lean ====
/-
  The kernel's whole-array values, assembled from what one grid point computes (at any float instance).

  `ablk t` is the block of 400 rows of `adj` that point `t` is handed (points 0 … 24 walk `adj[0]`, points 25 … 49 walk `adj[1]`),
  `x` the node features, `pk` the packed weights. Row `r` of the second support is row `r mod 400` of what point `r / 400`
  writes; row `r` of the output is row `r mod 400` of what point `25 + r / 400` writes.
-/
import proofs.«145415_g2834678415609_cont_sun_c4_672_24_alg».proof.Proof.Bits.Shared
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The block of a row and the row inside the block, as the indices the definitions below need. -/
abbrev blkOf (y : S10000x7.Idx) : Fin 50 := ⟨(y (0 : Fin 2)).val / 400, by have := idx2_lt0 y; omega⟩
abbrev blkOf' (y : S10000x7.Idx) : Fin 50 := ⟨25 + (y (0 : Fin 2)).val / 400, by have := idx2_lt0 y; omega⟩
abbrev inBlk (y : S10000x7.Idx) : S400x7.Idx := ix2 ⟨(y (0 : Fin 2)).val % 400, Nat.mod_lt _ (by decide)⟩ ⟨(y (1 : Fin 2)).val, idx2_lt1 y⟩

/-- The second support, all 10000 rows. -/
def sup2Of (ablk : Fin 50 → Vec F S1x400x10000 .f32) (x : Vec F S10000x128 .f32) (pk : Vec F S176x16 .f32) : Vec F S10000x7 .f32 :=
  fun y => sup2blk (ablk (blkOf y)) (sup1 x pk) pk (inBlk y)

/-- The output, all 10000 rows. -/
def outOf (ablk : Fin 50 → Vec F S1x400x10000 .f32) (x : Vec F S10000x128 .f32) (pk : Vec F S176x16 .f32) : Vec F S10000x7 .f32 :=
  fun y => outblk (ablk (blkOf' y)) (sup2Of ablk x pk) pk (inBlk y)

end Cert.Kernel.Gen

end
-- ==== Proof.Bits.Blocks.lean ====
/-
  What each input window's block holds at a grid point, read off the arrays as the region finds them.

  The node features and the packed weights are staged whole (one block, index 0, at every point), so their block IS the array.
  The adjacency's block at point `t` is plane `t / 25`, rows `(t mod 25) · 400 … + 400`, every column.
-/
import proofs.«145415_g2834678415609_cont_sun_c4_672_24_alg».proof.Proof.Bits.Shared
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The adjacency's block index at point `t`: plane `t / 25`, row block `t mod 25`, column block 0. -/
theorem idx0 : ∀ t : Fin cfg0.N, win0_0.index t (0 : Fin 3) = t.val / 25 ∧ win0_0.index t (1 : Fin 3) = t.val % 25
    ∧ win0_0.index t (2 : Fin 3) = 0 :=
  (by decide +kernel : ∀ t : Fin grid0.N, _)

/-- The node features' block index is (0, 0) at every point. -/
theorem idx1 : ∀ t : Fin cfg0.N, win0_1.index t (0 : Fin 2) = 0 ∧ win0_1.index t (1 : Fin 2) = 0 :=
  (by decide +kernel : ∀ t : Fin grid0.N, _)

/-- The packed weights' block index is (0, 0) at every point. -/
theorem idx2 : ∀ t : Fin cfg0.N, win0_2.index t (0 : Fin 2) = 0 ∧ win0_2.index t (1 : Fin 2) = 0 :=
  (by decide +kernel : ∀ t : Fin grid0.N, _)

/-- The node features' block at any point is the whole array. -/
theorem iblk1_eq (c : Dev nD) (t : Fin cfg0.N) : (iblk m c 1 t : Vec F S10000x128 .f32) = (V m c main_arg0 : Vec F S10000x128 .f32) := by
  obtain ⟨e0, e1⟩ := idx1 t
  funext y
  unfold iblk
  show V m c main_arg0 (((cfg0.win 1).blk t).view.emb y) = V m c main_arg0 y
  congr 1
  funext a
  apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The packed weights' block at any point is the whole array. -/
theorem iblk2_eq (c : Dev nD) (t : Fin cfg0.N) : (iblk m c 2 t : Vec F S176x16 .f32) = (V m c main_v20 : Vec F S176x16 .f32) := by
  obtain ⟨e0, e1⟩ := idx2 t
  funext y
  unfold iblk
  show V m c main_v20 (((cfg0.win 2).blk t).view.emb y) = V m c main_v20 y
  congr 1
  funext a
  apply Fin.ext
  match a with
  | ⟨0, _⟩ => show win0_2.index t (0 : Fin 2) * 176 + 1 * (y 0).val = (y 0).val; omega
  | ⟨1, _⟩ => show win0_2.index t (1 : Fin 2) * 16 + 1 * (y 1).val = (y 1).val; omega

/-- The adjacency's block at point `t`, entry `(0, a, b)`: plane `t / 25`, row `(t mod 25) · 400 + a`, column `b` of the array. -/
theorem iblk0_apply (c : Dev nD) (t : Fin cfg0.N) (y : S1x400x10000.Idx) :
    (iblk m c 0 t : Vec F S1x400x10000 .f32) y
      = (V m c main_arg1 : Vec F S2x10000x10000 .f32)
          (ix3 ⟨t.val / 25, by have h : t.val < 50 := lt_of_lt_of_eq t.isLt N_0; omega⟩
            ⟨(t.val % 25) * 400 + (y 1).val, by have h : (y 1).val < 400 := (y 1).isLt; omega⟩
            ⟨(y 2).val, (y 2).isLt⟩) := by
  obtain ⟨e0, e1, e2⟩ := idx0 t
  unfold iblk
  show V m c main_arg1 (((cfg0.win 0).blk t).view.emb y) = V m c main_arg1 _
  congr 1
  funext a
  apply Fin.ext
  have h0 : (y 0).val < 1 := (y 0).isLt
  match a with
  | ⟨0, _⟩ => show win0_0.index t (0 : Fin 3) * 1 + 1 * (y 0).val = t.val / 25; omega
  | ⟨1, _⟩ => show win0_0.index t (1 : Fin 3) * 400 + 1 * (y 1).val = (t.val % 25) * 400 + (y 1).val; omega
  | ⟨2, _⟩ => show win0_0.index t (2 : Fin 3) * 10000 + 1 * (y 2).val = (y 2).val; omega

end Cert.Kernel.Gen

end
-- ==== Proof.Bits.Data.lean ====
/-
  The pipeline's proof data for the graph-convolution kernel (at any float instance).

  Between grid points the kernel carries two scratch buffers and, in the output's staging buffer, the rows it has already
  produced. After point `n − 1` (`n ≥ 1`):
    · the first scratch holds the whole first support `S1 = x · W1`;
    · the second scratch holds the second support `S2` on its first `min n 25 · 400` rows (anything below);
  and point `t` leaves the output's staging buffer as it found it when `t < 25`, and with rows `(t − 25) · 400 …` replaced by
  this point's 400 log-softmax rows when `t ≥ 25`. The inputs' staging buffers hold their blocks throughout.
-/
import proofs.«145415_g2834678415609_cont_sun_c4_672_24_alg».proof.Proof.Bits.Vals
import proofs.«145415_g2834678415609_cont_sun_c4_672_24_alg».proof.Proof.Bits.Blocks

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The values -/

/-- The adjacency block of each of the 50 points. -/
abbrev ablkOf (c : Dev nD) : Fin 50 → Vec F S1x400x10000 .f32 := fun t => iblk m c 0 (Fin.cast N_0.symm t)
/-- The node features and the packed weights, as the region finds them. -/
abbrev xarr (c : Dev nD) : Vec F S10000x128 .f32 := V m c main_arg0
abbrev pkarr (c : Dev nD) : Vec F S176x16 .f32 := V m c main_v20

/-- The first support, the second support, the output: whole arrays. -/
def S1 (c : Dev nD) : Vec F S10000x16 .f32 := sup1 (xarr m c) (pkarr m c)
def S2 (c : Dev nD) : Vec F S10000x7 .f32 := sup2Of (ablkOf m c) (xarr m c) (pkarr m c)
def OUT (c : Dev nD) : Vec F S10000x7 .f32 := outOf (ablkOf m c) (xarr m c) (pkarr m c)

/-- Row `y` of the second support is row `y mod 400` of what the point of its block computes. -/
theorem S2_apply (c : Dev nD) (t : Fin cfg0.N) (y : S10000x7.Idx) (ht : (y (0 : Fin 2)).val / 400 = t.val) :
    S2 m c y = sup2blk (iblk m c 0 t) (S1 m c) (pkarr m c) (inBlk y) := by
  unfold S2 sup2Of S1
  have e : Fin.cast N_0.symm (blkOf y) = t := Fin.ext ht
  show sup2blk (iblk m c 0 (Fin.cast N_0.symm (blkOf y))) _ _ _ = _
  rw [e]

/-- Row `y` of the output is row `y mod 400` of what the point `25 + y / 400` computes. -/
theorem OUT_apply (c : Dev nD) (t : Fin cfg0.N) (y : S10000x7.Idx) (ht : 25 + (y (0 : Fin 2)).val / 400 = t.val) :
    OUT m c y = outblk (iblk m c 0 t) (S2 m c) (pkarr m c) (inBlk y) := by
  unfold OUT outOf S2
  have e : Fin.cast N_0.symm (blkOf' y) = t := Fin.ext ht
  show outblk (iblk m c 0 (Fin.cast N_0.symm (blkOf' y))) _ _ _ = _
  rw [e]

/-! ## The invariant between points -/

/-- Before point `n`: at the region's entry the scratch buffers hold anything; afterwards the first scratch holds `S1` and the
    second scratch agrees with `S2` on the rows the points so far have written. -/
def PhiS (c : Dev nD) : (n : ℕ) → n ≤ cfg0.N → sProp 𝕄
  | 0, _ => Pipeline.ΦA spec0 c
  | n + 1, _ => iprop(iprop(owns (c : Thread nD τ) scM0_0 fullShare (S1 m c)
      ∗ (∃ d : Vec F S10000x7 .f32, ⌜∀ y : S10000x7.Idx, (y (0 : Fin 2)).val < min (n + 1) 25 * 400 → d y = S2 m c y⌝ ∗ owns (c : Thread nD τ) scM0_1 fullShare d))
      ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (S1 m c)
      ∗ (∃ d : Vec F S10000x7 .f32, ⌜∀ y : S10000x7.Idx, (y (0 : Fin 2)).val < min n 25 * 400 → d y = S2 m c y⌝ ∗ owns (c : Thread nD τ) scM0_1 fullShare d))
      ∗ (∃ r, prngReg c r)) := by
  cases n with
  | zero => exact absurd rfl hz
  | succ n => rfl

/-! ## What a point does to the output's staging buffer -/

/-- Point `t` hands the output's staging buffer back as found in the first half, and with its 400 rows written in the second. -/
def OutStep (c : Dev nD) (t : Fin cfg0.N) (Y X : Vec F S10000x7 .f32) : Prop :=
  if t.val < 25 then X = Y else X = rowsUpd ((t.val % 25) * 400) Y (outblk (iblk m c 0 t) (S2 m c) (pkarr m c))

/-! ## The data -/

/-- Exact data for the three inputs (each staging buffer holds its block); the output's entry is a placeholder that the
    relation below replaces. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := PhiS m c t.val (Nat.le_of_lt_succ t.isLt)
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (OutStep m c)

/-- The relational data the launch is given. -/
def rdat (c : Dev nD) : RDat τ (Elt F) Unit ℕ (UR sig nD τ) ℕ cfg0 c := (dat0 m c).toR.override (ovr m c)

theorem A_eq (c : Dev nD) (w : Fin cfg0.W) : (rdat m c).A w = V m c (Pipeline.arrRef spec0 w) := by
  dsimp only [rdat, dat0, Dat.toR, RDat.override]

theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]

/-- What the body finds in an input's staging buffer: its block. -/
theorem finds0_0 (c : Dev nD) (t : Fin cfg0.N) (Y) (h : (rdat m c).Finds 0 t Y) : Y = iblk m c 0 t := by
  obtain ⟨d, hd⟩ := (dat0 m c).toR_finds 0 t Y (((dat0 m c).toR.override_finds (ovr := ovr m c) (w := 0) rfl t Y).mp h)
  rw [hd]; exact before0_0_of m (dat0 m c) (by dsimp only [dat0]) (after0_0 m c) t d
theorem finds0_1 (c : Dev nD) (t : Fin cfg0.N) (Y) (h : (rdat m c).Finds 1 t Y) : Y = iblk m c 1 t := by
  obtain ⟨d, hd⟩ := (dat0 m c).toR_finds 1 t Y (((dat0 m c).toR.override_finds (ovr := ovr m c) (w := 1) rfl t Y).mp h)
  rw [hd]; exact before0_1_of m (dat0 m c) (by dsimp only [dat0]) (after0_1 m c) t d
theorem finds0_2 (c : Dev nD) (t : Fin cfg0.N) (Y) (h : (rdat m c).Finds 2 t Y) : Y = iblk m c 2 t := by
  obtain ⟨d, hd⟩ := (dat0 m c).toR_finds 2 t Y (((dat0 m c).toR.override_finds (ovr := ovr m c) (w := 2) rfl t Y).mp h)
  rw [hd]; exact before0_2_of m (dat0 m c) (by dsimp only [dat0]) (after0_2 m c) t d

/-- What the relation asks of an input's staging buffer after the body: its block again. -/
theorem after_in0 (c : Dev nD) (t : Fin cfg0.N) (Y) : (rdat m c).after 0 t Y (iblk m c 0 t) := by
  rw [show (rdat m c).after 0 = (dat0 m c).toR.after 0 from (dat0 m c).toR.override_after_of_eq_none (ovr := ovr m c) (w := 0) rfl]
  show (dat0 m c).Leaves 0 t _
  rw [Dat.Leaves.live_iff _ (.inl (liveAt0_0 t))]
  exact (after0_0 m c t).symm
theorem after_in1 (c : Dev nD) (t : Fin cfg0.N) (Y) : (rdat m c).after 1 t Y (iblk m c 1 t) := by
  rw [show (rdat m c).after 1 = (dat0 m c).toR.after 1 from (dat0 m c).toR.override_after_of_eq_none (ovr := ovr m c) (w := 1) rfl]
  show (dat0 m c).Leaves 1 t _
  rw [Dat.Leaves.live_iff _ (.inl (liveAt0_1 t))]
  exact (after0_1 m c t).symm
theorem after_in2 (c : Dev nD) (t : Fin cfg0.N) (Y) : (rdat m c).after 2 t Y (iblk m c 2 t) := by
  rw [show (rdat m c).after 2 = (dat0 m c).toR.after 2 from (dat0 m c).toR.override_after_of_eq_none (ovr := ovr m c) (w := 2) rfl]
  show (dat0 m c).Leaves 2 t _
  rw [Dat.Leaves.live_iff _ (.inl (liveAt0_2 t))]
  exact (after0_2 m c t).symm

/-- The output window's relation is `OutStep`. -/
theorem after_out (c : Dev nD) : (rdat m c).after 3 = OutStep m c :=
  (dat0 m c).toR.override_after_of_eq_some (ovr := ovr m c) (w := 3) rfl

end Cert.Kernel.Gen

end
-- ==== Proof.Bits.RunA.lean ====
/-
  The body at the first point (g = 0): the first scratch is overwritten whole with the first support `x · W1`, and then, as at
  every point of the first half, 400 rows of the second scratch are written from this point's block of `adj[0]` and that support.
-/
import proofs.«145415_g2834678415609_cont_sun_c4_672_24_alg».proof.Proof.Bits.Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point, with the second support's store at row `o`: the first scratch, whatever it held, now holds
    `sup1 x1 x2`; rows `[o, o + 400)` of the second scratch hold `sup2blk x0 (sup1 x1 x2) x2`; the rest is as found. -/
theorem runA (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S176x16 .f32) (harg3 : arg3.IsWhole) (arg4 : Memref sig .tc .vmem S10000x7 .f32) (harg4 : arg4.IsWhole) (arg5 : Memref sig .tc .vmem S10000x16 .f32) (harg5 : arg5.IsWhole) (arg6 : Memref sig .tc .vmem S10000x7 .f32) (harg6 : arg6.IsWhole) (hc0 : cond0_0 i) (hc1 : cond0_1 i) (hc2 : ¬cond0_2 i) (o : ℕ) (ho : k0_off1 i = ![o, 0])
    (x0 : Vec F S1x400x10000 .f32) (x1 : Vec F S10000x128 .f32) (x2 : Vec F S176x16 .f32) (y3 : Vec F S10000x7 .f32) (y5 : Vec F S10000x16 .f32) (y6 : Vec F S10000x7 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare y6
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare (sup1 x1 x2) ∗ owns (c : Thread nD τ) arg6 fullShare (rowsUpd o y6 (sup2blk x0 (sup1 x1 x2) x2))) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    sl_unfold_words
    rw [read_whole_store]
    unfold sup1
    simp only [View.readAt_eq_ld, Memref.IsWhole.read_unread, View.ld_unit_zero (S := S10000x128) hz2]
  iexists _; isplitr; swap; · iexact HS1
  ipureintro
  rw [read_rows_store arg6 harg6 y6 _ _ _ o ho]
  sl_unfold_words
  unfold sup2blk sup1
  simp only [View.readCov_unit_zero (S := S10000x16) _ hz2, View.readAt_eq_ld, Memref.IsWhole.read_unread, View.ld_unit_zero (S := S1x400x10000) hz3, View.ld_unit_zero (S := S10000x128) hz2]

end Cert.Kernel.Gen

end
-- ==== Proof.Bits.RunB.lean ====
/-
  The body at a point of the first half after the first (0 < g < 25): nothing is written but 400 rows of the second scratch,
  which become `relu (a · s1 + b1) · W2` for this point's block `a` of `adj[0]` and the first support `s1` the first scratch holds.
-/
import proofs.«145415_g2834678415609_cont_sun_c4_672_24_alg».proof.Proof.Bits.Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the second branch is taken, with the second support's store at row `o`: every buffer is handed back
    as it was found, but the second scratch, whose rows `[o, o + 400)` now hold `sup2blk x0 y5 x2`. -/
theorem runB (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S176x16 .f32) (harg3 : arg3.IsWhole) (arg4 : Memref sig .tc .vmem S10000x7 .f32) (harg4 : arg4.IsWhole) (arg5 : Memref sig .tc .vmem S10000x16 .f32) (harg5 : arg5.IsWhole) (arg6 : Memref sig .tc .vmem S10000x7 .f32) (harg6 : arg6.IsWhole) (hc0 : ¬cond0_0 i) (hc1 : cond0_1 i) (hc2 : ¬cond0_2 i) (o : ℕ) (ho : k0_off1 i = ![o, 0])
    (x0 : Vec F S1x400x10000 .f32) (x1 : Vec F S10000x128 .f32) (x2 : Vec F S176x16 .f32) (y3 : Vec F S10000x7 .f32) (y5 : Vec F S10000x16 .f32) (y6 : Vec F S10000x7 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare y6
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare (rowsUpd o y6 (sup2blk x0 y5 x2))) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; · ipureintro; exact harg5.read_unread _
    iexact HS0
  iexists _; isplitr; swap; · iexact HS1
  ipureintro
  rw [read_rows_store arg6 harg6 y6 _ _ _ o ho]
  unfold sup2blk
  simp only [View.readAt_eq_ld, Memref.IsWhole.read_unread, View.ld_unit_zero (S := S1x400x10000) hz3, View.ld_unit_zero (S := S10000x16) hz2]

end Cert.Kernel.Gen

end
-- ==== Proof.Bits.RunC.lean ====
/-
  The body at a point of the second half (25 ≤ g): nothing is written but 400 rows of the output's staging buffer, which
  become the log-softmax rows computed from this point's block of `adj[1]`, the whole second support and the packed weights.
-/
import proofs.«145415_g2834678415609_cont_sun_c4_672_24_alg».proof.Proof.Bits.Shared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the third branch is taken, with the output's store at row `o`: every buffer is handed back as it
    was found, but the output's staging buffer, whose rows `[o, o + 400)` now hold `outblk x0 y6 x2`. -/
theorem runC (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S176x16 .f32) (harg3 : arg3.IsWhole) (arg4 : Memref sig .tc .vmem S10000x7 .f32) (harg4 : arg4.IsWhole) (arg5 : Memref sig .tc .vmem S10000x16 .f32) (harg5 : arg5.IsWhole) (arg6 : Memref sig .tc .vmem S10000x7 .f32) (harg6 : arg6.IsWhole) (hc0 : ¬cond0_0 i) (hc1 : ¬cond0_1 i) (hc2 : cond0_2 i) (o : ℕ) (ho : k0_off2 i = ![o, 0])
    (x0 : Vec F S1x400x10000 .f32) (x1 : Vec F S10000x128 .f32) (x2 : Vec F S176x16 .f32) (y3 : Vec F S10000x7 .f32) (y5 : Vec F S10000x16 .f32) (y6 : Vec F S10000x7 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare y6
        ∗ (iprop(owns (c : Thread nD τ) arg1 fullShare x0 ∗ owns (c : Thread nD τ) arg2 fullShare x1 ∗ owns (c : Thread nD τ) arg3 fullShare x2 ∗ owns (c : Thread nD τ) arg4 fullShare (rowsUpd o y3 (outblk x0 y6 x2)) ∗ owns (c : Thread nD τ) arg5 fullShare y5 ∗ owns (c : Thread nD τ) arg6 fullShare y6) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [read_rows_store arg4 harg4 y3 _ _ _ o ho]
    unfold outblk
    simp only [View.readAt_eq_ld, Memref.IsWhole.read_unread, View.ld_unit_zero (S := S1x400x10000) hz3, View.ld_unit_zero (S := S10000x7) hz2]
  isplitl [HS0]
  · iexists _; isplitr; · ipureintro; exact harg5.read_unread _
    iexact HS0
  iexists _; isplitr; · ipureintro; exact harg6.read_unread _
  iexact HS1

end Cert.Kernel.Gen

end
-- ==== Proof.Bits.Oblig.lean ====
/-
  The body obligation of the graph-convolution kernel: at each grid point the body, handed the inputs' blocks, the invariant and
  the output's staging buffer at any contents, re-establishes the invariant for the next point and leaves the output's staging
  buffer in the step relation to what it was handed.
-/
import proofs.«145415_g2834678415609_cont_sun_c4_672_24_alg».proof.Proof.Bits.Data
import proofs.«145415_g2834678415609_cont_sun_c4_672_24_alg».proof.Proof.Bits.RunA
import proofs.«145415_g2834678415609_cont_sun_c4_672_24_alg».proof.Proof.Bits.RunB
import proofs.«145415_g2834678415609_cont_sun_c4_672_24_alg».proof.Proof.Bits.RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## Rows of the second support -/

/-- If a buffer agrees with `S2` below row `t · 400` (`t < 25`), then with point `t`'s 400 rows written at row `t · 400` it agrees
    with `S2` below row `(t + 1) · 400`. -/
theorem sup2_rows (c : Dev nD) (t : Fin cfg0.N) (ht : t.val < 25) (d : Vec F S10000x7 .f32)
    (hd : ∀ y : S10000x7.Idx, (y (0 : Fin 2)).val < t.val * 400 → d y = S2 m c y) (y : S10000x7.Idx)
    (hy : (y (0 : Fin 2)).val < (t.val + 1) * 400) :
    rowsUpd (t.val % 25 * 400) d (sup2blk (iblk m c 0 t) (S1 m c) (pkarr m c)) y = S2 m c y := by
  by_cases hlt : (y (0 : Fin 2)).val < t.val * 400
  · rw [rowsUpd_of_not_mem _ _ _ y (by omega)]; exact hd y hlt
  · rw [S2_apply m c t y (by omega)]
    exact rowsUpd_of_mem _ _ _ y (inBlk y) (by show (y (0 : Fin 2)).val = t.val % 25 * 400 + (y (0 : Fin 2)).val % 400; omega) rfl

/-! ## The body at a point -/

/-- What the body is called with at point `t`: the invariant, nothing owed, the inputs' staging buffers at their blocks, the
    output's at `Y3`. -/
def bodyPre (c : Dev nD) (t : Fin cfg0.N) (Y3 : Vec F S10000x7 .f32) : sProp 𝕄 :=
  iprop(PhiS m c t.val (Nat.le_of_lt t.isLt) ∗ (dat0 m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare Y3)

/-- What it returns. -/
def bodyPost (c : Dev nD) (t : Fin cfg0.N) (Y3 : Vec F S10000x7 .f32) : sProp 𝕄 :=
  iprop(PhiS m c (t.val + 1) t.isLt ∗ (dat0 m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ (∃ X : Vec F S10000x7 .f32, ⌜OutStep m c t Y3 X⌝ ∗ owns (c : Thread nD τ) (ms0_3 t) fullShare X))

theorem PhiS_succ (c : Dev nD) (n : ℕ) (hn : n < cfg0.N) :
    PhiS m c (n + 1) hn = iprop(iprop(owns (c : Thread nD τ) scM0_0 fullShare (S1 m c)
      ∗ (∃ d : Vec F S10000x7 .f32, ⌜∀ y : S10000x7.Idx, (y (0 : Fin 2)).val < min (n + 1) 25 * 400 → d y = S2 m c y⌝ ∗ owns (c : Thread nD τ) scM0_1 fullShare d))
      ∗ (∃ r, prngReg c r)) := rfl

set_option maxHeartbeats 4000000 in
/-- The body at any point: the closed forms of the branch conditions say which case the point is in. -/
theorem sound_body (c : Dev nD) (t : Fin cfg0.N) (Y3 : Vec F S10000x7 .f32) :
    bodyPre m c t Y3 ⊢ wp frame (wpE (defs₀ (F := F)) Variants.none c none) Set.univ (bodyAt0 t) (fun _ => bodyPost m c t Y3) := by
  unfold bodyPre bodyPost bodyAt0
  rw [PhiS_succ]
  rw [iblk1_eq m c t, iblk2_eq m c t]
  have hN : t.val < 50 := lt_of_lt_of_eq t.isLt N_0
  by_cases h1 : t.val < 25
  · have hmin : min (t.val + 1) 25 = t.val + 1 := Nat.min_eq_left (by omega)
    rw [hmin]
    by_cases hz : t.val = 0
    · -- the first point: both scratch buffers at anything
      rw [PhiS_zero m c _ _ hz, PhiA0_eq]
      iintro ⟨⟨⟨⟨%d5, HS0⟩, ⟨%d6, HS1⟩⟩, Hg⟩, Ho, H0, H1, H2, H3⟩
      iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr (by omega)) ((hcond0_1 t).mpr h1) (fun h => absurd ((hcond0_2 t).mp h) (by omega)) (t.val % 25 * 400) (off1_eq t) (iblk m c 0 t) (xarr m c) (pkarr m c) Y3 d5 d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitr; swap; · iexact HS1
          ipureintro
          exact fun y hy => sup2_rows m c t h1 d6 (fun y' hy' => absurd hy' (by omega)) y hy
        iexact Hg
      isplitl [Ho]; · iexact Ho
      isplitl [H0]; · iexact H0
      isplitl [H1]; · iexact H1
      isplitl [H2]; · iexact H2
      iexists Y3; isplitr; · ipureintro; unfold OutStep; rw [if_pos h1]
      iexact H3
    · -- a later point of the first half
      rw [PhiS_pos m c _ _ hz]
      have hmin' : min t.val 25 = t.val := Nat.min_eq_left (by omega)
      rw [hmin']
      iintro ⟨⟨⟨HS0, ⟨%d6, %hd6, HS1⟩⟩, Hg⟩, Ho, H0, H1, H2, H3⟩
      iapply (runB c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz (by have := (hcond0_0 t).mp h; omega)) ((hcond0_1 t).mpr h1) (fun h => absurd ((hcond0_2 t).mp h) (by omega)) (t.val % 25 * 400) (off1_eq t) (iblk m c 0 t) (xarr m c) (pkarr m c) Y3 (S1 m c) d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitr; swap; · iexact HS1
          ipureintro
          exact fun y hy => sup2_rows m c t h1 d6 hd6 y hy
        iexact Hg
      isplitl [Ho]; · iexact Ho
      isplitl [H0]; · iexact H0
      isplitl [H1]; · iexact H1
      isplitl [H2]; · iexact H2
      iexists Y3; isplitr; · ipureintro; unfold OutStep; rw [if_pos h1]
      iexact H3
  · -- the second half: the second scratch holds all of the second support
    have hz : t.val ≠ 0 := by omega
    have hmin : min (t.val + 1) 25 = 25 := Nat.min_eq_right (by omega)
    have hmin' : min t.val 25 = 25 := Nat.min_eq_right (by omega)
    rw [hmin, PhiS_pos m c _ _ hz, hmin']
    iintro ⟨⟨⟨HS0, ⟨%d6, %hd6, HS1⟩⟩, Hg⟩, Ho, H0, H1, H2, H3⟩
    have hd : d6 = S2 m c := funext fun y => hd6 y (by have := idx2_lt0 y; omega)
    subst hd
    iapply (runC c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz (by have := (hcond0_0 t).mp h; omega)) (fun h => h1 ((hcond0_1 t).mp h)) ((hcond0_2 t).mpr (by omega)) (t.val % 25 * 400) (off2_eq t) (iblk m c 0 t) (xarr m c) (pkarr m c) Y3 (S1 m c) (S2 m c) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexists _; isplitr; swap; · iexact HS1
        ipureintro
        exact fun y _ => rfl
      iexact Hg
    isplitl [Ho]; · iexact Ho
    isplitl [H0]; · iexact H0
    isplitl [H1]; · iexact H1
    isplitl [H2]; · iexact H2
    iexists _; isplitr; swap; · iexact H3
    ipureintro; unfold OutStep; rw [if_neg h1]

/-! ## The library's obligation -/

/-- The relational body obligation, at every point. -/
theorem body_obligation (c : Dev nD) : (rdat m c).BodyObligation (defs₀ (F := F)) Variants.none () Set.univ := fun t Y hY => by
  have h0 := finds0_0 m c t (Y 0) (hY 0)
  have h1 := finds0_1 m c t (Y 1) (hY 1)
  have h2 := finds0_2 m c t (Y 2) (hY 2)
  rw [bigSep_W0, bigSep_W0, h0, h1, h2]
  refine (show _ ⊢ _ from sound_body m c t (Y 3)).trans (wp_mono _ _ _ fun _ => ?_)
  rw [show (rdat m c).Φ t.succ = PhiS m c (t.val + 1) t.isLt from rfl,
    show (rdat m c).owesAt () t.succ = (dat0 m c).owesAt () t.castSucc from rfl]
  unfold bodyPost
  iintro ⟨HΦ, Ho, H0, H1, H2, ⟨%X, %hX, H3⟩⟩
  isplitl [HΦ]; · iexact HΦ
  isplitl [Ho]; · iexact Ho
  isplitl [H0]; · iexists _; isplitr; · ipureintro; exact after_in0 m c t _
                  iexact H0
  isplitl [H1]; · iexists _; isplitr; · ipureintro; exact after_in1 m c t _
                  iexact H1
  isplitl [H2]; · iexists _; isplitr; · ipureintro; exact after_in2 m c t _
                  iexact H2
  iexists X; isplitr; · ipureintro; rw [after_out]; exact hX
  iexact H3

/-- What the launch hands the region is the invariant before the first point. -/
theorem hin (c : Dev nD) : Pipeline.ΦA spec0 c ⊢ (rdat m c).Φ 0 := by
  show _ ⊢ PhiS m c 0 (Nat.zero_le _)
  rw [PhiS_zero m c 0 _ rfl]
  try exact Idealize.SL.BI.Entails.refl _

/-- After the last point the invariant gives the region's own back: the scratch buffers' contents are forgotten. -/
theorem hout (c : Dev nD) : (rdat m c).Φ (Fin.last cfg0.N) ⊢ Pipeline.ΦA spec0 c := by
  show PhiS m c (Fin.last cfg0.N).val (Nat.le_of_lt_succ (Fin.last cfg0.N).isLt) ⊢ _
  rw [PhiS_pos m c _ _ (by rw [Fin.val_last]; have : cfg0.N = 50 := N_0; omega), PhiA0_eq]
  iintro ⟨⟨HS0, ⟨%d, -, HS1⟩⟩, Hg⟩
  isplitl [HS0 HS1]
  · isplitl [HS0]
    · iexists _; iexact HS0
    iexists _; iexact HS1
  iexact Hg

end Cert.Kernel.Gen

end
-- ==== Proof.Bits.Launch.lean ====
/-
  The launch of the graph-convolution kernel and what its output array holds afterwards (at any float instance).

  The output's staging buffer is written back once, after the last point. By then every one of its 25 row blocks has been
  written by its own point of the second half, so what is written back is the whole output `OUT`.
-/
import proofs.«145415_g2834678415609_cont_sun_c4_672_24_alg».proof.Proof.Bits.Oblig

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The run -/

set_option backward.isDefEq.respectTransparency.types false in
/-- Every weakly fair execution of @main terminates; afterwards every windowed array holds contents the proof data allows
    and every other unscoped buffer what it held at the region's entry. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-! ## The output's staging buffer, point by point -/

/-- The output window is never fetched, and its block index is (0, 0) at every point. -/
theorem fetch0_3 : ∀ t : Fin cfg0.N, (cfg0.win 3).fetch t = false :=
  (by decide +kernel : ∀ t : Fin grid0.N, win0_3.fetch t = false)
theorem idx3 : ∀ t : Fin cfg0.N, win0_3.index t (0 : Fin 2) = 0 ∧ win0_3.index t (1 : Fin 2) = 0 :=
  (by decide +kernel : ∀ t : Fin grid0.N, _)

/-- One step: if what the body found at point `n` holds the output's rows below `(n − 25) · 400`, what it leaves holds them
    below `(n + 1 − 25) · 400`. -/
theorem step_out (c : Dev nD) (n : ℕ) (hn : n < cfg0.N) (Y X : Vec F S10000x7 .f32)
    (hY : ∀ y : S10000x7.Idx, (y (0 : Fin 2)).val < (n - 25) * 400 → Y y = OUT m c y)
    (hstep : OutStep m c ⟨n, hn⟩ Y X) (y : S10000x7.Idx) (hy : (y (0 : Fin 2)).val < (n + 1 - 25) * 400) :
    X y = OUT m c y := by
  have hN : n < 50 := lt_of_lt_of_eq hn N_0
  unfold OutStep at hstep
  by_cases h25 : n < 25
  · exact absurd hy (by omega)
  · rw [if_neg h25] at hstep
    subst hstep
    by_cases hlt : (y (0 : Fin 2)).val < (n - 25) * 400
    · rw [rowsUpd_of_not_mem _ _ _ y (by show (y (0 : Fin 2)).val < n % 25 * 400 ∨ _; omega)]; exact hY y hlt
    · rw [OUT_apply m c ⟨n, hn⟩ y (by show 25 + (y (0 : Fin 2)).val / 400 = n; omega)]
      exact rowsUpd_of_mem _ _ _ y (inBlk y) (by show (y (0 : Fin 2)).val = n % 25 * 400 + (y (0 : Fin 2)).val % 400; omega) rfl

/-- What the body may find in the output's staging buffer at point `n` holds the output's rows below `(n − 25) · 400`. -/
theorem finds_out (c : Dev nD) : ∀ (n : ℕ) (hn : n < cfg0.N) (Y : Vec F S10000x7 .f32), (rdat m c).Finds 3 ⟨n, hn⟩ Y →
    ∀ y : S10000x7.Idx, (y (0 : Fin 2)).val < (n - 25) * 400 → Y y = OUT m c y
  | 0, _, _, _, _, hy => absurd hy (by omega)
  | n + 1, hn, Y, hF, y, hy => by
    have hN : n + 1 < 50 := lt_of_lt_of_eq hn N_0
    rcases ((rdat m c).finds_of_pos (fetch0_3 ⟨n + 1, hn⟩) (Nat.succ_ne_zero n) Y).mp hF with hfl | ⟨Y', hF', hstep⟩
    · exact absurd ((flush0_3 _).mp hfl) (by show ¬ (n + 1 - 1) % 50 = 49; omega)
    · rw [after_out] at hstep
      exact step_out m c n (Nat.lt_of_succ_lt hn) Y' Y (finds_out c n _ Y' hF') hstep y hy

/-! ## The output array after the run -/

/-- The output window's one block is the whole array: reading any contents of the array through it gives them back. -/
theorem read_blk3 (c : Dev nD) (t : Fin cfg0.N) (B : Buf (Elt F) ((c.tc : Thread nD τ).loc main_v21)) :
    (((cfg0.win 3).blk t).view.read (Elt F) B : Vec F S10000x7 .f32) = (B : Vec F S10000x7 .f32) := by
  obtain ⟨e0, e1⟩ := idx3 t
  funext y
  show B (((cfg0.win 3).blk t).view.emb y) = B y
  congr 1
  funext a
  apply Fin.ext
  match a with
  | ⟨0, _⟩ => show win0_3.index t (0 : Fin 2) * 10000 + 1 * (y 0).val = (y 0).val; omega
  | ⟨1, _⟩ => show win0_3.index t (1 : Fin 2) * 7 + 1 * (y 1).val = (y 1).val; omega

/-- After the run the output array holds `OUT`. -/
theorem out_of_post (c : Dev nD) (r : PUnit × MemSt nD τ sig (Elt F))
    (h : Pipeline.RDat.FramePost (cfgs 0) (fun c => rdat m c) (V m) r) :
    (r.2.mem ((c.tc : Thread nD τ).loc main_v21) : Vec F S10000x7 .f32) = OUT m c := by
  have h3 := (h c).1 3
  have hlast : (49 : ℕ) < cfg0.N := by rw [show cfg0.N = 50 from N_0]; omega
  have hN : (cfgs 0).N = (⟨49, hlast⟩ : Fin cfg0.N).val + 1 := N_0
  rw [hN, (rdat m c).ArrAt_succ 3 ⟨49, hlast⟩, if_pos ((flush0_3 ⟨49, hlast⟩).mpr rfl)] at h3
  obtain ⟨G₀, X, -, ⟨Y, hY, hstep⟩, hF⟩ := h3
  rw [after_out] at hstep
  have hX : (X : Vec F S10000x7 .f32) = OUT m c := funext fun y =>
    step_out m c 49 hlast Y X (finds_out m c 49 hlast Y hY) hstep y (by have := idx2_lt0 y; omega)
  have hr := congrArg (fun B => ((cfg0.win 3).blk ⟨49, hlast⟩).view.read (Elt F) B) hF
  simp only [View.read_write_univ] at hr
  rw [← hX]
  exact (read_blk3 c ⟨49, hlast⟩ _).symm.trans hr

/-! ## The frame -/

/-- The argument arrays end as launched. -/
theorem args_of_post (c : Dev nD) (r : PUnit × MemSt nD τ sig (Elt F))
    (h : Pipeline.RDat.FramePost (cfgs 0) (fun c => rdat m c) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 1 rfl).trans ((A_eq m c 1).trans (V_main_arg0 m c)),
    (Pipeline.RDat.FramePost.arr_in h c 0 rfl).trans ((A_eq m c 0).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_of_post m c r h) (run_main m ρ)

/-- The run with the output named: the output array ends at `OUT`, the arguments unchanged. -/
theorem run_out : θ_run defs (onTc (τ := τ) (main (F := F))) ⟨m, fun _ => 0, ρ⟩ (fun r => ∀ c : Dev nD,
      (r.2.mem ((c.tc : Thread nD τ).loc main_v21) : Vec F S10000x7 .f32) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨out_of_post m c r h, args_of_post m c r h⟩) (run_main m ρ)

end Cert.Kernel.Gen

end
-- ==== Proof.Ideal.Shared.lean ====
/-
  What the three control cases of the two-layer graph-convolution kernel share.

  The grid has 50 points. Point 0 computes the first support `x · W1` into the first scratch; points 0 … 24 each turn one
  block of 400 rows of `adj[0]` into 400 rows of the second support (second scratch); points 25 … 49 each turn one block of
  400 rows of `adj[1]` into 400 rows of the log-softmax output. The three `scf.if` conditions depend on the grid coordinate
  only; here they are in closed form, with the row offsets of the two 400-row stores, the staging and scratch memrefs as the
  pipeline passes them, and the one function that says what a 400-row store leaves in a 10000-row buffer.
-/
import proofs.«145415_g2834678415609_cont_sun_c4_672_24_alg».proof.Proof.Gen.KernelIdeal.Frame
import proofs.«145415_g2834678415609_cont_sun_c4_672_24_alg».proof.Proof.Gen.KernelIdeal.Skeleton
import Idealize.ShloMosaic.Lib.WritesUnit
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, over the grid -/

/-- "This is the first point": the condition of the branch that computes `x · W1`. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "The point is in the first half": the condition of the branch that writes 400 rows of the second support. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)

/-- "The point is in the second half": the condition of the branch that writes 400 rows of the output. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-! ## Where the two 400-row stores land -/

/-- The second support's store at point `t` starts at row `(t mod 25) · 400`, column 0. -/
theorem off1_eq : ∀ t : Fin cfg0.N, k0_off1 (grid0.coords t) = ![(t.val % 25) * 400, 0] :=
  (by decide +kernel : ∀ t : Fin grid0.N, k0_off1 (grid0.coords t) = ![(t.val % 25) * 400, 0])

/-- The output's store at point `t` starts at row `(t mod 25) · 400`, column 0. -/
theorem off2_eq : ∀ t : Fin cfg0.N, k0_off2 (grid0.coords t) = ![(t.val % 25) * 400, 0] :=
  (by decide +kernel : ∀ t : Fin grid0.N, k0_off2 (grid0.coords t) = ![(t.val % 25) * 400, 0])

/-! ## Idle points -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

abbrev ms0_0 (t : Fin cfg0.N) : Memref sig .tc .vmem S1x400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S176x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x7 .f32 := win0_3.stage (cfg0.slots t 3)
abbrev hs0_3 (t : Fin cfg0.N) : (ms0_3 t).IsWhole := hstage0_3 ((cfg0.slots t 3).cast nbuf0_3)
/-- The two scratch operands: the first support `[10000, 16]` and the second support `[10000, 7]`. -/
abbrev scM0_0 : Memref sig .tc .vmem S10000x16 .f32 := Memref.whole cc0_scratch0
abbrev scM0_1 : Memref sig .tc .vmem S10000x7 .f32 := Memref.whole cc0_scratch1

/-- The region's own invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Zero offsets, however spelt -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

/-! ## A 400-row store into a 10000-row buffer -/

/-- The buffer `Y` with its rows `[o, o + 400)` replaced by the 400 rows of `P`: row `o + a` becomes row `a` of `P`. -/
def rowsUpd (o : ℕ) (Y : Vec F S10000x7 .f32) (P : Vec F S400x7 .f32) : Vec F S10000x7 .f32 := fun y =>
  if h : o ≤ (y (0 : Fin 2)).val ∧ (y (0 : Fin 2)).val < o + 400 then
    P (Rect.unitLocal (s := S10000x7) (off := ![o, 0]) (size := S400x7.size) y (Rect.unit_rows_mem y rfl rfl h))
  else Y y

/-- Reading back a store of 400 whole rows at row `o` into a whole 10000-row buffer that read `Y`: `rowsUpd o Y P`. -/
theorem read_rows_store (arg : Memref sig .tc .vmem S10000x7 .f32) (harg : arg.IsWhole) (Y : Vec F S10000x7 .f32)
    (off : Fin 2 → ℕ) (inb : ∀ a, off a + S400x7.size a ≤ S10000x7.size a) (P : Vec F S400x7 .f32) (o : ℕ) (ho : off = ![o, 0]) :
    arg.view.read (Elt F) (arg.view.writes (Elt F) (harg.unread Y) [⟨Rect.unit (s := S10000x7) off S400x7.size inb, P⟩])
      = rowsUpd o Y P := by
  funext y
  rw [View.read_writes_cons_rows (d := ![10000, 7]) (W := 400) arg.view _ inb P [] y ho rfl rfl]
  unfold rowsUpd
  simp only [View.writes_nil, harg.read_unread]

/-- A row of `rowsUpd o Y P` inside `[o, o + 400)` is the row of `P`; -/
theorem rowsUpd_of_mem (o : ℕ) (Y : Vec F S10000x7 .f32) (P : Vec F S400x7 .f32) (y : S10000x7.Idx) (x : S400x7.Idx)
    (h0 : (y (0 : Fin 2)).val = o + (x (0 : Fin 2)).val) (h1 : (y (1 : Fin 2)).val = (x (1 : Fin 2)).val) :
    rowsUpd o Y P y = P x := by
  unfold rowsUpd
  have hx0 : (x (0 : Fin 2)).val < 400 := (x (0 : Fin 2)).isLt
  rw [dif_pos ⟨by omega, by omega⟩]
  congr 1
  funext a
  match a with
  | ⟨0, _⟩ => exact Fin.ext (by rw [Rect.unitLocal_val]; show (y (0 : Fin 2)).val - o = (x (0 : Fin 2)).val; omega)
  | ⟨1, _⟩ => exact Fin.ext (by rw [Rect.unitLocal_val]; show (y (1 : Fin 2)).val - 0 = (x (1 : Fin 2)).val; omega)

/-- a row outside keeps what the buffer held. -/
theorem rowsUpd_of_not_mem (o : ℕ) (Y : Vec F S10000x7 .f32) (P : Vec F S400x7 .f32) (y : S10000x7.Idx)
    (h : (y (0 : Fin 2)).val < o ∨ o + 400 ≤ (y (0 : Fin 2)).val) : rowsUpd o Y P y = Y y := by
  unfold rowsUpd
  rw [dif_neg (by omega)]

/-- Reading back a store of the whole first scratch, newest in the list: its payload. -/
theorem read_whole_store (arg : Memref sig .tc .vmem S10000x16 .f32) (f : arg.view.ty.Contents (Elt F))
    (inb : ∀ a, (![0, 0] : Fin 2 → ℕ) a + S10000x16.size a ≤ S10000x16.size a) (P : Vec F S10000x16 .f32)
    (L : List (View.Piece (Elt F) S10000x16 .f32)) :
    arg.view.read (Elt F) (arg.view.writes (Elt F) f (⟨Rect.unit (s := S10000x16) ![0, 0] S10000x16.size inb, P⟩ :: L)) = P := by
  funext y
  exact View.read_writes_cons_unit_of_mem arg.view f inb P L y y rfl (fun a => by
    match a with
    | ⟨0, _⟩ => exact (Nat.zero_add _).symm
    | ⟨1, _⟩ => exact (Nat.zero_add _).symm)

/-! ## The kernel's three values, as functions of what the buffers hold

`pk` is the packed weights array `[176, 16]`: rows 0 … 127 hold `W1`, row 128 `b1`, rows 136 … 151 (columns 0 … 6) `W2`,
row 152 `b2`, rows 160 … 166 `WL`, row 168 `bL`. -/

/-- The rows of the packed array the body loads. -/
abbrev pkW1 (pk : Vec F S176x16 .f32) : Vec F S128x16 .f32 := View.ld pk (Rect.unit (s := S176x16) ![0, 0] S128x16.size inb_S176x16_S128x16_0_0)
abbrev pkB1 (pk : Vec F S176x16 .f32) : Vec F S1x16 .f32 := View.ld pk (Rect.unit (s := S176x16) ![128, 0] S1x16.size inb_S176x16_S1x16_128_0)
abbrev pkW2 (pk : Vec F S176x16 .f32) : Vec F S16x7 .f32 := View.ld pk (Rect.unit (s := S176x16) ![136, 0] S16x7.size inb_S176x16_S16x7_136_0)
abbrev pkB2 (pk : Vec F S176x16 .f32) : Vec F S1x7 .f32 := View.ld pk (Rect.unit (s := S176x16) ![152, 0] S1x7.size inb_S176x16_S1x7_152_0)
abbrev pkWL (pk : Vec F S176x16 .f32) : Vec F S7x7 .f32 := View.ld pk (Rect.unit (s := S176x16) ![160, 0] S7x7.size inb_S176x16_S7x7_160_0)
abbrev pkBL (pk : Vec F S176x16 .f32) : Vec F S1x7 .f32 := View.ld pk (Rect.unit (s := S176x16) ![168, 0] S1x7.size inb_S176x16_S1x7_168_0)

/-- The first support `x · W1`, all 10000 rows. -/
def sup1 (x : Vec F S10000x128 .f32) (pk : Vec F S176x16 .f32) : Vec F S10000x16 .f32 := k0_pay1 x (pkW1 pk)

/-- 400 rows of the second support: `relu (a · s1 + b1) · W2` for the block `a` of 400 rows of `adj[0]`. -/
def sup2blk (a : Vec F S1x400x10000 .f32) (s1 : Vec F S10000x16 .f32) (pk : Vec F S176x16 .f32) : Vec F S400x7 .f32 :=
  k0_pay2 a s1 (pkB1 pk) (pkW2 pk)

/-- 400 rows of the output: the row-wise log-softmax of `(a · s2 + b2) · WL + bL` for the block `a` of 400 rows of `adj[1]`. -/
def outblk (a : Vec F S1x400x10000 .f32) (s2 : Vec F S10000x7 .f32) (pk : Vec F S176x16 .f32) : Vec F S400x7 .f32 :=
  k0_pay3 a s2 (pkB2 pk) (pkWL pk) (pkBL pk)

end Cert.KernelIdeal.Gen

end
-- ==== Proof.Ideal.Vals.lean ====
/-
  The kernel's whole-array values, assembled from what one grid point computes (at any float instance).

  `ablk t` is the block of 400 rows of `adj` that point `t` is handed (points 0 … 24 walk `adj[0]`, points 25 … 49 walk `adj[1]`),
  `x` the node features, `pk` the packed weights. Row `r` of the second support is row `r mod 400` of what point `r / 400`
  writes; row `r` of the output is row `r mod 400` of what point `25 + r / 400` writes.
-/
import proofs.«145415_g2834678415609_cont_sun_c4_672_24_alg».proof.Proof.Ideal.Shared
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The block of a row and the row inside the block, as the indices the definitions below need. -/
abbrev blkOf (y : S10000x7.Idx) : Fin 50 := ⟨(y (0 : Fin 2)).val / 400, by have := idx2_lt0 y; omega⟩
abbrev blkOf' (y : S10000x7.Idx) : Fin 50 := ⟨25 + (y (0 : Fin 2)).val / 400, by have := idx2_lt0 y; omega⟩
abbrev inBlk (y : S10000x7.Idx) : S400x7.Idx := ix2 ⟨(y (0 : Fin 2)).val % 400, Nat.mod_lt _ (by decide)⟩ ⟨(y (1 : Fin 2)).val, idx2_lt1 y⟩

/-- The second support, all 10000 rows. -/
def sup2Of (ablk : Fin 50 → Vec F S1x400x10000 .f32) (x : Vec F S10000x128 .f32) (pk : Vec F S176x16 .f32) : Vec F S10000x7 .f32 :=
  fun y => sup2blk (ablk (blkOf y)) (sup1 x pk) pk (inBlk y)

/-- The output, all 10000 rows. -/
def outOf (ablk : Fin 50 → Vec F S1x400x10000 .f32) (x : Vec F S10000x128 .f32) (pk : Vec F S176x16 .f32) : Vec F S10000x7 .f32 :=
  fun y => outblk (ablk (blkOf' y)) (sup2Of ablk x pk) pk (inBlk y)

end Cert.KernelIdeal.Gen

end
-- ==== Proof.Ideal.Blocks.lean ====
/-
  What each input window's block holds at a grid point, read off the arrays as the region finds them.

  The node features and the packed weights are staged whole (one block, index 0, at every point), so their block IS the array.
  The adjacency's block at point `t` is plane `t / 25`, rows `(t mod 25) · 400 … + 400`, every column.
-/
import proofs.«145415_g2834678415609_cont_sun_c4_672_24_alg».proof.Proof.Ideal.Shared
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The adjacency's block index at point `t`: plane `t / 25`, row block `t mod 25`, column block 0. -/
theorem idx0 : ∀ t : Fin cfg0.N, win0_0.index t (0 : Fin 3) = t.val / 25 ∧ win0_0.index t (1 : Fin 3) = t.val % 25
    ∧ win0_0.index t (2 : Fin 3) = 0 :=
  (by decide +kernel : ∀ t : Fin grid0.N, _)

/-- The node features' block index is (0, 0) at every point. -/
theorem idx1 : ∀ t : Fin cfg0.N, win0_1.index t (0 : Fin 2) = 0 ∧ win0_1.index t (1 : Fin 2) = 0 :=
  (by decide +kernel : ∀ t : Fin grid0.N, _)

/-- The packed weights' block index is (0, 0) at every point. -/
theorem idx2 : ∀ t : Fin cfg0.N, win0_2.index t (0 : Fin 2) = 0 ∧ win0_2.index t (1 : Fin 2) = 0 :=
  (by decide +kernel : ∀ t : Fin grid0.N, _)

/-- The node features' block at any point is the whole array. -/
theorem iblk1_eq (c : Dev nD) (t : Fin cfg0.N) : (iblk m c 1 t : Vec F S10000x128 .f32) = (V m c main_arg0 : Vec F S10000x128 .f32) := by
  obtain ⟨e0, e1⟩ := idx1 t
  funext y
  unfold iblk
  show V m c main_arg0 (((cfg0.win 1).blk t).view.emb y) = V m c main_arg0 y
  congr 1
  funext a
  apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The packed weights' block at any point is the whole array. -/
theorem iblk2_eq (c : Dev nD) (t : Fin cfg0.N) : (iblk m c 2 t : Vec F S176x16 .f32) = (V m c main_v20 : Vec F S176x16 .f32) := by
  obtain ⟨e0, e1⟩ := idx2 t
  funext y
  unfold iblk
  show V m c main_v20 (((cfg0.win 2).blk t).view.emb y) = V m c main_v20 y
  congr 1
  funext a
  apply Fin.ext
  match a with
  | ⟨0, _⟩ => show win0_2.index t (0 : Fin 2) * 176 + 1 * (y 0).val = (y 0).val; omega
  | ⟨1, _⟩ => show win0_2.index t (1 : Fin 2) * 16 + 1 * (y 1).val = (y 1).val; omega

/-- The adjacency's block at point `t`, entry `(0, a, b)`: plane `t / 25`, row `(t mod 25) · 400 + a`, column `b` of the array. -/
theorem iblk0_apply (c : Dev nD) (t : Fin cfg0.N) (y : S1x400x10000.Idx) :
    (iblk m c 0 t : Vec F S1x400x10000 .f32) y
      = (V m c main_arg1 : Vec F S2x10000x10000 .f32)
          (ix3 ⟨t.val / 25, by have h : t.val < 50 := lt_of_lt_of_eq t.isLt N_0; omega⟩
            ⟨(t.val % 25) * 400 + (y 1).val, by have h : (y 1).val < 400 := (y 1).isLt; omega⟩
            ⟨(y 2).val, (y 2).isLt⟩) := by
  obtain ⟨e0, e1, e2⟩ := idx0 t
  unfold iblk
  show V m c main_arg1 (((cfg0.win 0).blk t).view.emb y) = V m c main_arg1 _
  congr 1
  funext a
  apply Fin.ext
  have h0 : (y 0).val < 1 := (y 0).isLt
  match a with
  | ⟨0, _⟩ => show win0_0.index t (0 : Fin 3) * 1 + 1 * (y 0).val = t.val / 25; omega
  | ⟨1, _⟩ => show win0_0.index t (1 : Fin 3) * 400 + 1 * (y 1).val = (t.val % 25) * 400 + (y 1).val; omega
  | ⟨2, _⟩ => show win0_0.index t (2 : Fin 3) * 10000 + 1 * (y 2).val = (y 2).val; omega

end Cert.KernelIdeal.Gen

end
-- ==== Proof.Ideal.Data.lean ====
/-
  The pipeline's proof data for the graph-convolution kernel (at any float instance).

  Between grid points the kernel carries two scratch buffers and, in the output's staging buffer, the rows it has already
  produced. After point `n − 1` (`n ≥ 1`):
    · the first scratch holds the whole first support `S1 = x · W1`;
    · the second scratch holds the second support `S2` on its first `min n 25 · 400` rows (anything below);
  and point `t` leaves the output's staging buffer as it found it when `t < 25`, and with rows `(t − 25) · 400 …` replaced by
  this point's 400 log-softmax rows when `t ≥ 25`. The inputs' staging buffers hold their blocks throughout.
-/
import proofs.«145415_g2834678415609_cont_sun_c4_672_24_alg».proof.Proof.Ideal.Vals
import proofs.«145415_g2834678415609_cont_sun_c4_672_24_alg».proof.Proof.Ideal.Blocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The values -/

/-- The adjacency block of each of the 50 points. -/
abbrev ablkOf (c : Dev nD) : Fin 50 → Vec F S1x400x10000 .f32 := fun t => iblk m c 0 (Fin.cast N_0.symm t)
/-- The node features and the packed weights, as the region finds them. -/
abbrev xarr (c : Dev nD) : Vec F S10000x128 .f32 := V m c main_arg0
abbrev pkarr (c : Dev nD) : Vec F S176x16 .f32 := V m c main_v20

/-- The first support, the second support, the output: whole arrays. -/
def S1 (c : Dev nD) : Vec F S10000x16 .f32 := sup1 (xarr m c) (pkarr m c)
def S2 (c : Dev nD) : Vec F S10000x7 .f32 := sup2Of (ablkOf m c) (xarr m c) (pkarr m c)
def OUT (c : Dev nD) : Vec F S10000x7 .f32 := outOf (ablkOf m c) (xarr m c) (pkarr m c)

/-- Row `y` of the second support is row `y mod 400` of what the point of its block computes. -/
theorem S2_apply (c : Dev nD) (t : Fin cfg0.N) (y : S10000x7.Idx) (ht : (y (0 : Fin 2)).val / 400 = t.val) :
    S2 m c y = sup2blk (iblk m c 0 t) (S1 m c) (pkarr m c) (inBlk y) := by
  unfold S2 sup2Of S1
  have e : Fin.cast N_0.symm (blkOf y) = t := Fin.ext ht
  show sup2blk (iblk m c 0 (Fin.cast N_0.symm (blkOf y))) _ _ _ = _
  rw [e]

/-- Row `y` of the output is row `y mod 400` of what the point `25 + y / 400` computes. -/
theorem OUT_apply (c : Dev nD) (t : Fin cfg0.N) (y : S10000x7.Idx) (ht : 25 + (y (0 : Fin 2)).val / 400 = t.val) :
    OUT m c y = outblk (iblk m c 0 t) (S2 m c) (pkarr m c) (inBlk y) := by
  unfold OUT outOf S2
  have e : Fin.cast N_0.symm (blkOf' y) = t := Fin.ext ht
  show outblk (iblk m c 0 (Fin.cast N_0.symm (blkOf' y))) _ _ _ = _
  rw [e]

/-! ## The invariant between points -/

/-- Before point `n`: at the region's entry the scratch buffers hold anything; afterwards the first scratch holds `S1` and the
    second scratch agrees with `S2` on the rows the points so far have written. -/
def PhiS (c : Dev nD) : (n : ℕ) → n ≤ cfg0.N → sProp 𝕄
  | 0, _ => Pipeline.ΦA spec0 c
  | n + 1, _ => iprop(iprop(owns (c : Thread nD τ) scM0_0 fullShare (S1 m c)
      ∗ (∃ d : Vec F S10000x7 .f32, ⌜∀ y : S10000x7.Idx, (y (0 : Fin 2)).val < min (n + 1) 25 * 400 → d y = S2 m c y⌝ ∗ owns (c : Thread nD τ) scM0_1 fullShare d))
      ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (S1 m c)
      ∗ (∃ d : Vec F S10000x7 .f32, ⌜∀ y : S10000x7.Idx, (y (0 : Fin 2)).val < min n 25 * 400 → d y = S2 m c y⌝ ∗ owns (c : Thread nD τ) scM0_1 fullShare d))
      ∗ (∃ r, prngReg c r)) := by
  cases n with
  | zero => exact absurd rfl hz
  | succ n => rfl

/-! ## What a point does to the output's staging buffer -/

/-- Point `t` hands the output's staging buffer back as found in the first half, and with its 400 rows written in the second. -/
def OutStep (c : Dev nD) (t : Fin cfg0.N) (Y X : Vec F S10000x7 .f32) : Prop :=
  if t.val < 25 then X = Y else X = rowsUpd ((t.val % 25) * 400) Y (outblk (iblk m c 0 t) (S2 m c) (pkarr m c))

/-! ## The data -/

/-- Exact data for the three inputs (each staging buffer holds its block); the output's entry is a placeholder that the
    relation below replaces. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := PhiS m c t.val (Nat.le_of_lt_succ t.isLt)
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (OutStep m c)

/-- The relational data the launch is given. -/
def rdat (c : Dev nD) : RDat τ (Elt F) Unit ℕ (UR sig nD τ) ℕ cfg0 c := (dat0 m c).toR.override (ovr m c)

theorem A_eq (c : Dev nD) (w : Fin cfg0.W) : (rdat m c).A w = V m c (Pipeline.arrRef spec0 w) := by
  dsimp only [rdat, dat0, Dat.toR, RDat.override]

theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]

/-- What the body finds in an input's staging buffer: its block. -/
theorem finds0_0 (c : Dev nD) (t : Fin cfg0.N) (Y) (h : (rdat m c).Finds 0 t Y) : Y = iblk m c 0 t := by
  obtain ⟨d, hd⟩ := (dat0 m c).toR_finds 0 t Y (((dat0 m c).toR.override_finds (ovr := ovr m c) (w := 0) rfl t Y).mp h)
  rw [hd]; exact before0_0_of m (dat0 m c) (by dsimp only [dat0]) (after0_0 m c) t d
theorem finds0_1 (c : Dev nD) (t : Fin cfg0.N) (Y) (h : (rdat m c).Finds 1 t Y) : Y = iblk m c 1 t := by
  obtain ⟨d, hd⟩ := (dat0 m c).toR_finds 1 t Y (((dat0 m c).toR.override_finds (ovr := ovr m c) (w := 1) rfl t Y).mp h)
  rw [hd]; exact before0_1_of m (dat0 m c) (by dsimp only [dat0]) (after0_1 m c) t d
theorem finds0_2 (c : Dev nD) (t : Fin cfg0.N) (Y) (h : (rdat m c).Finds 2 t Y) : Y = iblk m c 2 t := by
  obtain ⟨d, hd⟩ := (dat0 m c).toR_finds 2 t Y (((dat0 m c).toR.override_finds (ovr := ovr m c) (w := 2) rfl t Y).mp h)
  rw [hd]; exact before0_2_of m (dat0 m c) (by dsimp only [dat0]) (after0_2 m c) t d

/-- What the relation asks of an input's staging buffer after the body: its block again. -/
theorem after_in0 (c : Dev nD) (t : Fin cfg0.N) (Y) : (rdat m c).after 0 t Y (iblk m c 0 t) := by
  rw [show (rdat m c).after 0 = (dat0 m c).toR.after 0 from (dat0 m c).toR.override_after_of_eq_none (ovr := ovr m c) (w := 0) rfl]
  show (dat0 m c).Leaves 0 t _
  rw [Dat.Leaves.live_iff _ (.inl (liveAt0_0 t))]
  exact (after0_0 m c t).symm
theorem after_in1 (c : Dev nD) (t : Fin cfg0.N) (Y) : (rdat m c).after 1 t Y (iblk m c 1 t) := by
  rw [show (rdat m c).after 1 = (dat0 m c).toR.after 1 from (dat0 m c).toR.override_after_of_eq_none (ovr := ovr m c) (w := 1) rfl]
  show (dat0 m c).Leaves 1 t _
  rw [Dat.Leaves.live_iff _ (.inl (liveAt0_1 t))]
  exact (after0_1 m c t).symm
theorem after_in2 (c : Dev nD) (t : Fin cfg0.N) (Y) : (rdat m c).after 2 t Y (iblk m c 2 t) := by
  rw [show (rdat m c).after 2 = (dat0 m c).toR.after 2 from (dat0 m c).toR.override_after_of_eq_none (ovr := ovr m c) (w := 2) rfl]
  show (dat0 m c).Leaves 2 t _
  rw [Dat.Leaves.live_iff _ (.inl (liveAt0_2 t))]
  exact (after0_2 m c t).symm

/-- The output window's relation is `OutStep`. -/
theorem after_out (c : Dev nD) : (rdat m c).after 3 = OutStep m c :=
  (dat0 m c).toR.override_after_of_eq_some (ovr := ovr m c) (w := 3) rfl

end Cert.KernelIdeal.Gen

end
-- ==== Proof.Ideal.RunA.lean ====
/-
  The body at the first point (g = 0): the first scratch is overwritten whole with the first support `x · W1`, and then, as at
  every point of the first half, 400 rows of the second scratch are written from this point's block of `adj[0]` and that support.
-/
import proofs.«145415_g2834678415609_cont_sun_c4_672_24_alg».proof.Proof.Ideal.Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point, with the second support's store at row `o`: the first scratch, whatever it held, now holds
    `sup1 x1 x2`; rows `[o, o + 400)` of the second scratch hold `sup2blk x0 (sup1 x1 x2) x2`; the rest is as found. -/
theorem runA (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S176x16 .f32) (harg3 : arg3.IsWhole) (arg4 : Memref sig .tc .vmem S10000x7 .f32) (harg4 : arg4.IsWhole) (arg5 : Memref sig .tc .vmem S10000x16 .f32) (harg5 : arg5.IsWhole) (arg6 : Memref sig .tc .vmem S10000x7 .f32) (harg6 : arg6.IsWhole) (hc0 : cond0_0 i) (hc1 : cond0_1 i) (hc2 : ¬cond0_2 i) (o : ℕ) (ho : k0_off1 i = ![o, 0])
    (x0 : Vec F S1x400x10000 .f32) (x1 : Vec F S10000x128 .f32) (x2 : Vec F S176x16 .f32) (y3 : Vec F S10000x7 .f32) (y5 : Vec F S10000x16 .f32) (y6 : Vec F S10000x7 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare y6
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare (sup1 x1 x2) ∗ owns (c : Thread nD τ) arg6 fullShare (rowsUpd o y6 (sup2blk x0 (sup1 x1 x2) x2))) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; swap; · iexact HS0
    ipureintro
    sl_unfold_words
    rw [read_whole_store]
    unfold sup1
    simp only [View.readAt_eq_ld, Memref.IsWhole.read_unread, View.ld_unit_zero (S := S10000x128) hz2]
  iexists _; isplitr; swap; · iexact HS1
  ipureintro
  rw [read_rows_store arg6 harg6 y6 _ _ _ o ho]
  sl_unfold_words
  unfold sup2blk sup1
  simp only [View.readCov_unit_zero (S := S10000x16) _ hz2, View.readAt_eq_ld, Memref.IsWhole.read_unread, View.ld_unit_zero (S := S1x400x10000) hz3, View.ld_unit_zero (S := S10000x128) hz2]

end Cert.KernelIdeal.Gen

end
-- ==== Proof.Ideal.RunB.lean ====
/-
  The body at a point of the first half after the first (0 < g < 25): nothing is written but 400 rows of the second scratch,
  which become `relu (a · s1 + b1) · W2` for this point's block `a` of `adj[0]` and the first support `s1` the first scratch holds.
-/
import proofs.«145415_g2834678415609_cont_sun_c4_672_24_alg».proof.Proof.Ideal.Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the second branch is taken, with the second support's store at row `o`: every buffer is handed back
    as it was found, but the second scratch, whose rows `[o, o + 400)` now hold `sup2blk x0 y5 x2`. -/
theorem runB (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S176x16 .f32) (harg3 : arg3.IsWhole) (arg4 : Memref sig .tc .vmem S10000x7 .f32) (harg4 : arg4.IsWhole) (arg5 : Memref sig .tc .vmem S10000x16 .f32) (harg5 : arg5.IsWhole) (arg6 : Memref sig .tc .vmem S10000x7 .f32) (harg6 : arg6.IsWhole) (hc0 : ¬cond0_0 i) (hc1 : cond0_1 i) (hc2 : ¬cond0_2 i) (o : ℕ) (ho : k0_off1 i = ![o, 0])
    (x0 : Vec F S1x400x10000 .f32) (x1 : Vec F S10000x128 .f32) (x2 : Vec F S176x16 .f32) (y3 : Vec F S10000x7 .f32) (y5 : Vec F S10000x16 .f32) (y6 : Vec F S10000x7 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare y6
        ∗ (iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare (rowsUpd o y6 (sup2blk x0 y5 x2))) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr; · ipureintro; exact harg5.read_unread _
    iexact HS0
  iexists _; isplitr; swap; · iexact HS1
  ipureintro
  rw [read_rows_store arg6 harg6 y6 _ _ _ o ho]
  unfold sup2blk
  simp only [View.readAt_eq_ld, Memref.IsWhole.read_unread, View.ld_unit_zero (S := S1x400x10000) hz3, View.ld_unit_zero (S := S10000x16) hz2]

end Cert.KernelIdeal.Gen

end
-- ==== Proof.Ideal.RunC.lean ====
/-
  The body at a point of the second half (25 ≤ g): nothing is written but 400 rows of the output's staging buffer, which
  become the log-softmax rows computed from this point's block of `adj[1]`, the whole second support and the packed weights.
-/
import proofs.«145415_g2834678415609_cont_sun_c4_672_24_alg».proof.Proof.Ideal.Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where only the third branch is taken, with the output's store at row `o`: every buffer is handed back as it
    was found, but the output's staging buffer, whose rows `[o, o + 400)` now hold `outblk x0 y6 x2`. -/
theorem runC (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S176x16 .f32) (harg3 : arg3.IsWhole) (arg4 : Memref sig .tc .vmem S10000x7 .f32) (harg4 : arg4.IsWhole) (arg5 : Memref sig .tc .vmem S10000x16 .f32) (harg5 : arg5.IsWhole) (arg6 : Memref sig .tc .vmem S10000x7 .f32) (harg6 : arg6.IsWhole) (hc0 : ¬cond0_0 i) (hc1 : ¬cond0_1 i) (hc2 : cond0_2 i) (o : ℕ) (ho : k0_off2 i = ![o, 0])
    (x0 : Vec F S1x400x10000 .f32) (x1 : Vec F S10000x128 .f32) (x2 : Vec F S176x16 .f32) (y3 : Vec F S10000x7 .f32) (y5 : Vec F S10000x16 .f32) (y6 : Vec F S10000x7 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y5 ∗ owns (c : Thread nD τ) arg6 fullShare y6
        ∗ (iprop(owns (c : Thread nD τ) arg1 fullShare x0 ∗ owns (c : Thread nD τ) arg2 fullShare x1 ∗ owns (c : Thread nD τ) arg3 fullShare x2 ∗ owns (c : Thread nD τ) arg4 fullShare (rowsUpd o y3 (outblk x0 y6 x2)) ∗ owns (c : Thread nD τ) arg5 fullShare y5 ∗ owns (c : Thread nD τ) arg6 fullShare y6) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hfs0; obtain rfl := harg6.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [read_rows_store arg4 harg4 y3 _ _ _ o ho]
    unfold outblk
    simp only [View.readAt_eq_ld, Memref.IsWhole.read_unread, View.ld_unit_zero (S := S1x400x10000) hz3, View.ld_unit_zero (S := S10000x7) hz2]
  isplitl [HS0]
  · iexists _; isplitr; · ipureintro; exact harg5.read_unread _
    iexact HS0
  iexists _; isplitr; · ipureintro; exact harg6.read_unread _
  iexact HS1

end Cert.KernelIdeal.Gen

end
-- ==== Proof.Ideal.Oblig.lean ====
/-
  The body obligation of the graph-convolution kernel: at each grid point the body, handed the inputs' blocks, the invariant and
  the output's staging buffer at any contents, re-establishes the invariant for the next point and leaves the output's staging
  buffer in the step relation to what it was handed.
-/
import proofs.«145415_g2834678415609_cont_sun_c4_672_24_alg».proof.Proof.Ideal.Data
import proofs.«145415_g2834678415609_cont_sun_c4_672_24_alg».proof.Proof.Ideal.RunA
import proofs.«145415_g2834678415609_cont_sun_c4_672_24_alg».proof.Proof.Ideal.RunB
import proofs.«145415_g2834678415609_cont_sun_c4_672_24_alg».proof.Proof.Ideal.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## Rows of the second support -/

/-- If a buffer agrees with `S2` below row `t · 400` (`t < 25`), then with point `t`'s 400 rows written at row `t · 400` it agrees
    with `S2` below row `(t + 1) · 400`. -/
theorem sup2_rows (c : Dev nD) (t : Fin cfg0.N) (ht : t.val < 25) (d : Vec F S10000x7 .f32)
    (hd : ∀ y : S10000x7.Idx, (y (0 : Fin 2)).val < t.val * 400 → d y = S2 m c y) (y : S10000x7.Idx)
    (hy : (y (0 : Fin 2)).val < (t.val + 1) * 400) :
    rowsUpd (t.val % 25 * 400) d (sup2blk (iblk m c 0 t) (S1 m c) (pkarr m c)) y = S2 m c y := by
  by_cases hlt : (y (0 : Fin 2)).val < t.val * 400
  · rw [rowsUpd_of_not_mem _ _ _ y (by omega)]; exact hd y hlt
  · rw [S2_apply m c t y (by omega)]
    exact rowsUpd_of_mem _ _ _ y (inBlk y) (by show (y (0 : Fin 2)).val = t.val % 25 * 400 + (y (0 : Fin 2)).val % 400; omega) rfl

/-! ## The body at a point -/

/-- What the body is called with at point `t`: the invariant, nothing owed, the inputs' staging buffers at their blocks, the
    output's at `Y3`. -/
def bodyPre (c : Dev nD) (t : Fin cfg0.N) (Y3 : Vec F S10000x7 .f32) : sProp 𝕄 :=
  iprop(PhiS m c t.val (Nat.le_of_lt t.isLt) ∗ (dat0 m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare Y3)

/-- What it returns. -/
def bodyPost (c : Dev nD) (t : Fin cfg0.N) (Y3 : Vec F S10000x7 .f32) : sProp 𝕄 :=
  iprop(PhiS m c (t.val + 1) t.isLt ∗ (dat0 m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ (∃ X : Vec F S10000x7 .f32, ⌜OutStep m c t Y3 X⌝ ∗ owns (c : Thread nD τ) (ms0_3 t) fullShare X))

theorem PhiS_succ (c : Dev nD) (n : ℕ) (hn : n < cfg0.N) :
    PhiS m c (n + 1) hn = iprop(iprop(owns (c : Thread nD τ) scM0_0 fullShare (S1 m c)
      ∗ (∃ d : Vec F S10000x7 .f32, ⌜∀ y : S10000x7.Idx, (y (0 : Fin 2)).val < min (n + 1) 25 * 400 → d y = S2 m c y⌝ ∗ owns (c : Thread nD τ) scM0_1 fullShare d))
      ∗ (∃ r, prngReg c r)) := rfl

set_option maxHeartbeats 4000000 in
/-- The body at any point: the closed forms of the branch conditions say which case the point is in. -/
theorem sound_body (c : Dev nD) (t : Fin cfg0.N) (Y3 : Vec F S10000x7 .f32) :
    bodyPre m c t Y3 ⊢ wp frame (wpE (defs₀ (F := F)) Variants.none c none) Set.univ (bodyAt0 t) (fun _ => bodyPost m c t Y3) := by
  unfold bodyPre bodyPost bodyAt0
  rw [PhiS_succ]
  rw [iblk1_eq m c t, iblk2_eq m c t]
  have hN : t.val < 50 := lt_of_lt_of_eq t.isLt N_0
  by_cases h1 : t.val < 25
  · have hmin : min (t.val + 1) 25 = t.val + 1 := Nat.min_eq_left (by omega)
    rw [hmin]
    by_cases hz : t.val = 0
    · -- the first point: both scratch buffers at anything
      rw [PhiS_zero m c _ _ hz, PhiA0_eq]
      iintro ⟨⟨⟨⟨%d5, HS0⟩, ⟨%d6, HS1⟩⟩, Hg⟩, Ho, H0, H1, H2, H3⟩
      iapply (runA c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr (by omega)) ((hcond0_1 t).mpr h1) (fun h => absurd ((hcond0_2 t).mp h) (by omega)) (t.val % 25 * 400) (off1_eq t) (iblk m c 0 t) (xarr m c) (pkarr m c) Y3 d5 d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitr; swap; · iexact HS1
          ipureintro
          exact fun y hy => sup2_rows m c t h1 d6 (fun y' hy' => absurd hy' (by omega)) y hy
        iexact Hg
      isplitl [Ho]; · iexact Ho
      isplitl [H0]; · iexact H0
      isplitl [H1]; · iexact H1
      isplitl [H2]; · iexact H2
      iexists Y3; isplitr; · ipureintro; unfold OutStep; rw [if_pos h1]
      iexact H3
    · -- a later point of the first half
      rw [PhiS_pos m c _ _ hz]
      have hmin' : min t.val 25 = t.val := Nat.min_eq_left (by omega)
      rw [hmin']
      iintro ⟨⟨⟨HS0, ⟨%d6, %hd6, HS1⟩⟩, Hg⟩, Ho, H0, H1, H2, H3⟩
      iapply (runB c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz (by have := (hcond0_0 t).mp h; omega)) ((hcond0_1 t).mpr h1) (fun h => absurd ((hcond0_2 t).mp h) (by omega)) (t.val % 25 * 400) (off1_eq t) (iblk m c 0 t) (xarr m c) (pkarr m c) Y3 (S1 m c) d6 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitr; swap; · iexact HS1
          ipureintro
          exact fun y hy => sup2_rows m c t h1 d6 hd6 y hy
        iexact Hg
      isplitl [Ho]; · iexact Ho
      isplitl [H0]; · iexact H0
      isplitl [H1]; · iexact H1
      isplitl [H2]; · iexact H2
      iexists Y3; isplitr; · ipureintro; unfold OutStep; rw [if_pos h1]
      iexact H3
  · -- the second half: the second scratch holds all of the second support
    have hz : t.val ≠ 0 := by omega
    have hmin : min (t.val + 1) 25 = 25 := Nat.min_eq_right (by omega)
    have hmin' : min t.val 25 = 25 := Nat.min_eq_right (by omega)
    rw [hmin, PhiS_pos m c _ _ hz, hmin']
    iintro ⟨⟨⟨HS0, ⟨%d6, %hd6, HS1⟩⟩, Hg⟩, Ho, H0, H1, H2, H3⟩
    have hd : d6 = S2 m c := funext fun y => hd6 y (by have := idx2_lt0 y; omega)
    subst hd
    iapply (runC c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => hz (by have := (hcond0_0 t).mp h; omega)) (fun h => h1 ((hcond0_1 t).mp h)) ((hcond0_2 t).mpr (by omega)) (t.val % 25 * 400) (off2_eq t) (iblk m c 0 t) (xarr m c) (pkarr m c) Y3 (S1 m c) (S2 m c) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexists _; isplitr; swap; · iexact HS1
        ipureintro
        exact fun y _ => rfl
      iexact Hg
    isplitl [Ho]; · iexact Ho
    isplitl [H0]; · iexact H0
    isplitl [H1]; · iexact H1
    isplitl [H2]; · iexact H2
    iexists _; isplitr; swap; · iexact H3
    ipureintro; unfold OutStep; rw [if_neg h1]

/-! ## The library's obligation -/

/-- The relational body obligation, at every point. -/
theorem body_obligation (c : Dev nD) : (rdat m c).BodyObligation (defs₀ (F := F)) Variants.none () Set.univ := fun t Y hY => by
  have h0 := finds0_0 m c t (Y 0) (hY 0)
  have h1 := finds0_1 m c t (Y 1) (hY 1)
  have h2 := finds0_2 m c t (Y 2) (hY 2)
  rw [bigSep_W0, bigSep_W0, h0, h1, h2]
  refine (show _ ⊢ _ from sound_body m c t (Y 3)).trans (wp_mono _ _ _ fun _ => ?_)
  rw [show (rdat m c).Φ t.succ = PhiS m c (t.val + 1) t.isLt from rfl,
    show (rdat m c).owesAt () t.succ = (dat0 m c).owesAt () t.castSucc from rfl]
  unfold bodyPost
  iintro ⟨HΦ, Ho, H0, H1, H2, ⟨%X, %hX, H3⟩⟩
  isplitl [HΦ]; · iexact HΦ
  isplitl [Ho]; · iexact Ho
  isplitl [H0]; · iexists _; isplitr; · ipureintro; exact after_in0 m c t _
                  iexact H0
  isplitl [H1]; · iexists _; isplitr; · ipureintro; exact after_in1 m c t _
                  iexact H1
  isplitl [H2]; · iexists _; isplitr; · ipureintro; exact after_in2 m c t _
                  iexact H2
  iexists X; isplitr; · ipureintro; rw [after_out]; exact hX
  iexact H3

/-- What the launch hands the region is the invariant before the first point. -/
theorem hin (c : Dev nD) : Pipeline.ΦA spec0 c ⊢ (rdat m c).Φ 0 := by
  show _ ⊢ PhiS m c 0 (Nat.zero_le _)
  rw [PhiS_zero m c 0 _ rfl]
  try exact Idealize.SL.BI.Entails.refl _

/-- After the last point the invariant gives the region's own back: the scratch buffers' contents are forgotten. -/
theorem hout (c : Dev nD) : (rdat m c).Φ (Fin.last cfg0.N) ⊢ Pipeline.ΦA spec0 c := by
  show PhiS m c (Fin.last cfg0.N).val (Nat.le_of_lt_succ (Fin.last cfg0.N).isLt) ⊢ _
  rw [PhiS_pos m c _ _ (by rw [Fin.val_last]; have : cfg0.N = 50 := N_0; omega), PhiA0_eq]
  iintro ⟨⟨HS0, ⟨%d, -, HS1⟩⟩, Hg⟩
  isplitl [HS0 HS1]
  · isplitl [HS0]
    · iexists _; iexact HS0
    iexists _; iexact HS1
  iexact Hg

end Cert.KernelIdeal.Gen

end
-- ==== Proof.Ideal.Launch.lean ====
/-
  The launch of the graph-convolution kernel and what its output array holds afterwards (at any float instance).

  The output's staging buffer is written back once, after the last point. By then every one of its 25 row blocks has been
  written by its own point of the second half, so what is written back is the whole output `OUT`.
-/
import proofs.«145415_g2834678415609_cont_sun_c4_672_24_alg».proof.Proof.Ideal.Oblig

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (RDat)

variable (m : (ℓ : Loc nD τ sig) → Buf (Elt F) ℓ) (ρ : Dev nD → PrngReg)

/-! ## The run -/

set_option backward.isDefEq.respectTransparency.types false in
/-- Every weakly fair execution of @main terminates; afterwards every windowed array holds contents the proof data allows
    and every other unscoped buffer what it held at the region's entry. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-! ## The output's staging buffer, point by point -/

/-- The output window is never fetched, and its block index is (0, 0) at every point. -/
theorem fetch0_3 : ∀ t : Fin cfg0.N, (cfg0.win 3).fetch t = false :=
  (by decide +kernel : ∀ t : Fin grid0.N, win0_3.fetch t = false)
theorem idx3 : ∀ t : Fin cfg0.N, win0_3.index t (0 : Fin 2) = 0 ∧ win0_3.index t (1 : Fin 2) = 0 :=
  (by decide +kernel : ∀ t : Fin grid0.N, _)

/-- One step: if what the body found at point `n` holds the output's rows below `(n − 25) · 400`, what it leaves holds them
    below `(n + 1 − 25) · 400`. -/
theorem step_out (c : Dev nD) (n : ℕ) (hn : n < cfg0.N) (Y X : Vec F S10000x7 .f32)
    (hY : ∀ y : S10000x7.Idx, (y (0 : Fin 2)).val < (n - 25) * 400 → Y y = OUT m c y)
    (hstep : OutStep m c ⟨n, hn⟩ Y X) (y : S10000x7.Idx) (hy : (y (0 : Fin 2)).val < (n + 1 - 25) * 400) :
    X y = OUT m c y := by
  have hN : n < 50 := lt_of_lt_of_eq hn N_0
  unfold OutStep at hstep
  by_cases h25 : n < 25
  · exact absurd hy (by omega)
  · rw [if_neg h25] at hstep
    subst hstep
    by_cases hlt : (y (0 : Fin 2)).val < (n - 25) * 400
    · rw [rowsUpd_of_not_mem _ _ _ y (by show (y (0 : Fin 2)).val < n % 25 * 400 ∨ _; omega)]; exact hY y hlt
    · rw [OUT_apply m c ⟨n, hn⟩ y (by show 25 + (y (0 : Fin 2)).val / 400 = n; omega)]
      exact rowsUpd_of_mem _ _ _ y (inBlk y) (by show (y (0 : Fin 2)).val = n % 25 * 400 + (y (0 : Fin 2)).val % 400; omega) rfl

/-- What the body may find in the output's staging buffer at point `n` holds the output's rows below `(n − 25) · 400`. -/
theorem finds_out (c : Dev nD) : ∀ (n : ℕ) (hn : n < cfg0.N) (Y : Vec F S10000x7 .f32), (rdat m c).Finds 3 ⟨n, hn⟩ Y →
    ∀ y : S10000x7.Idx, (y (0 : Fin 2)).val < (n - 25) * 400 → Y y = OUT m c y
  | 0, _, _, _, _, hy => absurd hy (by omega)
  | n + 1, hn, Y, hF, y, hy => by
    have hN : n + 1 < 50 := lt_of_lt_of_eq hn N_0
    rcases ((rdat m c).finds_of_pos (fetch0_3 ⟨n + 1, hn⟩) (Nat.succ_ne_zero n) Y).mp hF with hfl | ⟨Y', hF', hstep⟩
    · exact absurd ((flush0_3 _).mp hfl) (by show ¬ (n + 1 - 1) % 50 = 49; omega)
    · rw [after_out] at hstep
      exact step_out m c n (Nat.lt_of_succ_lt hn) Y' Y (finds_out c n _ Y' hF') hstep y hy

/-! ## The output array after the run -/

/-- The output window's one block is the whole array: reading any contents of the array through it gives them back. -/
theorem read_blk3 (c : Dev nD) (t : Fin cfg0.N) (B : Buf (Elt F) ((c.tc : Thread nD τ).loc main_v21)) :
    (((cfg0.win 3).blk t).view.read (Elt F) B : Vec F S10000x7 .f32) = (B : Vec F S10000x7 .f32) := by
  obtain ⟨e0, e1⟩ := idx3 t
  funext y
  show B (((cfg0.win 3).blk t).view.emb y) = B y
  congr 1
  funext a
  apply Fin.ext
  match a with
  | ⟨0, _⟩ => show win0_3.index t (0 : Fin 2) * 10000 + 1 * (y 0).val = (y 0).val; omega
  | ⟨1, _⟩ => show win0_3.index t (1 : Fin 2) * 7 + 1 * (y 1).val = (y 1).val; omega

/-- After the run the output array holds `OUT`. -/
theorem out_of_post (c : Dev nD) (r : PUnit × MemSt nD τ sig (Elt F))
    (h : Pipeline.RDat.FramePost (cfgs 0) (fun c => rdat m c) (V m) r) :
    (r.2.mem ((c.tc : Thread nD τ).loc main_v21) : Vec F S10000x7 .f32) = OUT m c := by
  have h3 := (h c).1 3
  have hlast : (49 : ℕ) < cfg0.N := by rw [show cfg0.N = 50 from N_0]; omega
  have hN : (cfgs 0).N = (⟨49, hlast⟩ : Fin cfg0.N).val + 1 := N_0
  rw [hN, (rdat m c).ArrAt_succ 3 ⟨49, hlast⟩, if_pos ((flush0_3 ⟨49, hlast⟩).mpr rfl)] at h3
  obtain ⟨G₀, X, -, ⟨Y, hY, hstep⟩, hF⟩ := h3
  rw [after_out] at hstep
  have hX : (X : Vec F S10000x7 .f32) = OUT m c := funext fun y =>
    step_out m c 49 hlast Y X (finds_out m c 49 hlast Y hY) hstep y (by have := idx2_lt0 y; omega)
  have hr := congrArg (fun B => ((cfg0.win 3).blk ⟨49, hlast⟩).view.read (Elt F) B) hF
  simp only [View.read_write_univ] at hr
  rw [← hX]
  exact (read_blk3 c ⟨49, hlast⟩ _).symm.trans hr

/-! ## The frame -/

/-- The argument arrays end as launched. -/
theorem args_of_post (c : Dev nD) (r : PUnit × MemSt nD τ sig (Elt F))
    (h : Pipeline.RDat.FramePost (cfgs 0) (fun c => rdat m c) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 1 rfl).trans ((A_eq m c 1).trans (V_main_arg0 m c)),
    (Pipeline.RDat.FramePost.arr_in h c 0 rfl).trans ((A_eq m c 0).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_of_post m c r h) (run_main m ρ)

/-- The run with the output named: the output array ends at `OUT`, the arguments unchanged. -/
theorem run_out : θ_run defs (onTc (τ := τ) (main (F := F))) ⟨m, fun _ => 0, ρ⟩ (fun r => ∀ c : Dev nD,
      (r.2.mem ((c.tc : Thread nD τ).loc main_v21) : Vec F S10000x7 .f32) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨out_of_post m c r h, args_of_post m c r h⟩) (run_main m ρ)

end Cert.KernelIdeal.Gen

end
-- ==== Proof.Ideal.Packed.lean ====
/-
  The packed weights array `[176, 16]` the host builds before the call, read at the rows the kernel loads.

  It starts as zeros and receives, by six overwriting scatters at constant positions, `W1` at rows 0 … 127, `b1` at row 128,
  `W2` at rows 136 … 151 (columns 0 … 6), `b2` at row 152, `WL` at rows 160 … 166, `bL` at row 168. The six targets are disjoint,
  so each row the kernel loads holds the argument that was scattered there.
-/
import proofs.«145415_g2834678415609_cont_sun_c4_672_24_alg».proof.Proof.Gen.KernelIdeal.Frame
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## A fold of pointwise overwrites, read at one index -/

/-- A left fold of steps read at one index: when no step of the list changes the value there, the fold leaves it. -/
theorem foldl_read_miss {β ι α : Type} (step : (ι → α) → β → ι → α) (i : ι) :
    ∀ (l : List β), (∀ n ∈ l, ∀ r, step r n i = r i) → ∀ r, l.foldl step r i = r i
  | [], _, r => rfl
  | a :: l, h, r => by
    rw [List.foldl_cons, foldl_read_miss step i l (fun n hn => h n (List.mem_cons_of_mem _ hn)), h a (List.mem_cons_self ..)]

/-- A left fold of steps read at one index: when one member of the list sets the value there to `v` whatever was
    there, and every other member leaves it, the fold ends at `v`. -/
theorem foldl_read_hit {β ι α : Type} (step : (ι → α) → β → ι → α) (i : ι) (v : α) (n0 : β)
    (hhit : ∀ r, step r n0 i = v) :
    ∀ (l : List β), n0 ∈ l → (∀ n ∈ l, n ≠ n0 → ∀ r, step r n i = r i) → ∀ r, l.foldl step r i = v
  | [], h0, _, _ => absurd h0 (List.not_mem_nil)
  | a :: l, h0, hm, r => by
    rw [List.foldl_cons]
    by_cases hl : n0 ∈ l
    · exact foldl_read_hit step i v n0 hhit l hl (fun n hn => hm n (List.mem_cons_of_mem _ hn)) _
    · have ha : a = n0 := by
        rcases List.mem_cons.1 h0 with h | h
        · exact h.symm
        · exact absurd h hl
      subst ha
      rw [foldl_read_miss step i l (fun n hn r => hm n (List.mem_cons_of_mem _ hn) (fun e => hl (e ▸ hn)) r), hhit]

/-! ## An overwriting scatter, read at one index -/

/-- An overwriting scatter leaves an element no update lands on. -/
theorem scatter_set_miss {α : Type} {s si u : Shape} {w : Nat} (d : ScatterDims s si u) (x : s.Idx → α) (idx : IVec si w) (upd : u.Idx → α) (i : s.Idx)
    (h : ∀ j, d.resultIdx? j idx ≠ some i) : Host.scatter d (fun _ b => b) x idx upd i = x i := by
  unfold Host.scatter
  refine foldl_read_miss _ i _ (fun n _ r => ?_) x
  have h1 := h (u.rowMajor.symm n)
  generalize d.resultIdx? (u.rowMajor.symm n) idx = o at h1
  cases o with
  | none => rfl
  | some i0 =>
    have hne : i ≠ i0 := fun e => h1 (by rw [e])
    dsimp only
    rw [if_neg hne]

/-- An overwriting scatter holds, at an element exactly one update lands on, that update. -/
theorem scatter_set_hit {α : Type} {s si u : Shape} {w : Nat} (d : ScatterDims s si u) (x : s.Idx → α) (idx : IVec si w) (upd : u.Idx → α) (i : s.Idx)
    (j0 : u.Idx) (h0 : d.resultIdx? j0 idx = some i) (hu : ∀ j, d.resultIdx? j idx = some i → j = j0) :
    Host.scatter d (fun _ b => b) x idx upd i = upd j0 := by
  unfold Host.scatter
  refine foldl_read_hit _ i _ (u.rowMajor j0) (fun r => ?_) _ (List.mem_finRange _) (fun n _ hn r => ?_) x
  · simp only [Equiv.symm_apply_apply, h0, if_true]
  · have h1 : d.resultIdx? (u.rowMajor.symm n) idx ≠ some i := fun e => hn (by rw [← hu _ e, Equiv.apply_symm_apply])
    generalize d.resultIdx? (u.rowMajor.symm n) idx = o at h1
    cases o with
    | none => rfl
    | some i0 =>
      have hne : i ≠ i0 := fun e => h1 (by rw [e])
      dsimp only
      rw [if_neg hne]

/-- When every update index `j` lands inside the operand, at `t j`, and `t` is injective, the overwriting scatter holds
    update `j` at `t j` and the operand's element everywhere else. -/
theorem scatter_set_read {α : Type} {s si u : Shape} {w : Nat} (d : ScatterDims s si u) (x : s.Idx → α) (idx : IVec si w) (upd : u.Idx → α)
    (t : u.Idx → s.Idx) (ht : ∀ j, d.resultIdx? j idx = some (t j)) (hinj : Function.Injective t) :
    (∀ j0, Host.scatter d (fun _ b => b) x idx upd (t j0) = upd j0) ∧
      (∀ i, (∀ j, t j ≠ i) → Host.scatter d (fun _ b => b) x idx upd i = x i) :=
  ⟨fun j0 => scatter_set_hit d x idx upd (t j0) j0 (ht j0) (fun j e => hinj (Option.some.inj ((ht j).symm.trans e))),
   fun i hi => scatter_set_miss d x idx upd i (fun j e => hi j (Option.some.inj ((ht j).symm.trans e)))⟩

/-- The index an update lands on, from its coordinates: the window's start plus the window coordinate on every axis. -/
theorem resultIdx?_eq_some {s si u : Shape} {w : Nat} (d : ScatterDims s si u) (j : u.Idx) (idx : IVec si w) (t : s.Idx)
    (h : ∀ a, d.start j idx a + (d.window j a : ℤ) = ((t a).val : ℤ)) : d.resultIdx? j idx = some t := by
  unfold ScatterDims.resultIdx?
  rw [dif_pos (fun a => by rw [h a]; exact ⟨Int.natCast_nonneg _, by exact_mod_cast (t a).isLt⟩)]
  congr 1
  funext a
  apply Fin.ext
  simp only [h a, Int.toNat_natCast]

/-! ## The six scatters of the host chain -/

/-- The one-element index table holding `v`. -/
abbrev idxA (v : BitVec 32) : IVec S1 32 := broadcastInDim S1 ![] bcast_S_S1 (constantI S_ 32 v)
/-- The two-element index table `[v, 0]`. -/
abbrev idxB (v : BitVec 32) : IVec S2 32 := concatenate S2 0 [⟨S1, idxA v⟩, ⟨S1, idxA 0#32⟩] concatenates_S1_S1_S2_d0

section Stages
variable {α : Type}

/-! The first scatter: a `[128, 16]` block at row 0. -/

/-- Where update `(a, b)` of the `[128, 16]` block lands: row `a`, column `b`. -/
abbrev t1 (j : S128x16.Idx) : S176x16.Idx := ix2 (n0 := 176) (n1 := 16) ⟨(j 0).val, by have := idx2_lt0 j; omega⟩ (j 1)

theorem ht1 (j : S128x16.Idx) : scatter_S176x16_S1_S128x16_01_n_0_0.resultIdx? j (idxA 0#32) = some (t1 j) := by
  refine resultIdx?_eq_some _ _ _ _ (fun a => ?_)
  fin_cases a
  · show (0#32).toInt + ((j 0).val : ℤ) = ((j 0).val : ℤ)
    rw [show (0#32).toInt = 0 from by decide, zero_add]
  · show (0 : ℤ) + ((j 1).val : ℤ) = ((j 1).val : ℤ)
    rw [zero_add]

theorem hinj1 : Function.Injective t1 := fun a b h => by
  have h0 : (a 0).val = (b 0).val := by have := congrArg Fin.val (congrFun h 0); exact this
  have h1 : (a 1).val = (b 1).val := by have := congrArg Fin.val (congrFun h 1); exact this
  funext d; fin_cases d
  · exact Fin.ext h0
  · exact Fin.ext h1

/-- Rows 0 … 127 hold the block. -/
theorem hit1 (x : S176x16.Idx → α) (upd : S128x16.Idx → α) (j : Fin 128) (k : Fin 16) :
    Host.scatter scatter_S176x16_S1_S128x16_01_n_0_0 (fun _ b => b) x (idxA 0#32) upd (ix2 ⟨j.val, by omega⟩ k) = upd (ix2 j k) :=
  (scatter_set_read _ x _ upd t1 ht1 hinj1).1 (ix2 j k)

/-! The second scatter: a row of 16 at row 128. -/

/-- Where update `a` of the row of 16 lands: row 128, column `a`. -/
abbrev t2 (j : S16.Idx) : S176x16.Idx := ix2 (n0 := 176) (n1 := 16) ⟨128, by decide⟩ (j 0)

theorem ht2 (j : S16.Idx) : scatter_S176x16_S1_S16_0_0_0_0.resultIdx? j (idxA 128#32) = some (t2 j) := by
  refine resultIdx?_eq_some _ _ _ _ (fun a => ?_)
  fin_cases a
  · show (128#32).toInt + ((0 : ℕ) : ℤ) = ((128 : ℕ) : ℤ)
    rw [show (128#32).toInt = 128 from by decide]; rfl
  · show (0 : ℤ) + ((j 0).val : ℤ) = ((j 0).val : ℤ)
    rw [zero_add]

theorem hinj2 : Function.Injective t2 := fun a b h => by
  have h1 : (a 0).val = (b 0).val := by have := congrArg Fin.val (congrFun h 1); exact this
  funext d; fin_cases d
  exact Fin.ext h1

/-- Row 128 holds the row of 16. -/
theorem hit2 (x : S176x16.Idx → α) (upd : S16.Idx → α) (k : Fin 16) :
    Host.scatter scatter_S176x16_S1_S16_0_0_0_0 (fun _ b => b) x (idxA 128#32) upd (ix2 ⟨128, by decide⟩ k) = upd (ix1 k) :=
  (scatter_set_read _ x _ upd t2 ht2 hinj2).1 (ix1 k)

/-- The rows above 128 are as they were. -/
theorem miss2 (x : S176x16.Idx → α) (upd : S16.Idx → α) (i : S176x16.Idx) (h : (i 0).val < 128) :
    Host.scatter scatter_S176x16_S1_S16_0_0_0_0 (fun _ b => b) x (idxA 128#32) upd i = x i :=
  (scatter_set_read _ x _ upd t2 ht2 hinj2).2 i (fun j e => by
    have h0 : (128 : ℕ) = (i 0).val := by have := congrArg Fin.val (congrFun e 0); exact this
    omega)

/-! The third scatter: a `[16, 7]` block at `(136, 0)`. -/

/-- Where update `(a, b)` of the `[16, 7]` block lands: row `136 + a`, column `b`. -/
abbrev t3 (j : S16x7.Idx) : S176x16.Idx :=
  ix2 (n0 := 176) (n1 := 16) ⟨136 + (j 0).val, by have := idx2_lt0 j; omega⟩ ⟨(j 1).val, by have := idx2_lt1 j; omega⟩

theorem ht3 (j : S16x7.Idx) : scatter_S176x16_S2_S16x7_01_n_01_0.resultIdx? j (idxB 136#32) = some (t3 j) := by
  refine resultIdx?_eq_some _ _ _ _ (fun a => ?_)
  fin_cases a
  · show (136#32).toInt + ((j 0).val : ℤ) = ((136 + (j 0).val : ℕ) : ℤ)
    rw [show (136#32).toInt = 136 from by decide]; push_cast; rfl
  · show (0#32).toInt + ((j 1).val : ℤ) = ((j 1).val : ℤ)
    rw [show (0#32).toInt = 0 from by decide, zero_add]

theorem hinj3 : Function.Injective t3 := fun a b h => by
  have h0 : 136 + (a 0).val = 136 + (b 0).val := by have := congrArg Fin.val (congrFun h 0); exact this
  have h0' : (a 0).val = (b 0).val := by omega
  have h1 : (a 1).val = (b 1).val := by have := congrArg Fin.val (congrFun h 1); exact this
  funext d; fin_cases d
  · exact Fin.ext h0'
  · exact Fin.ext h1

/-- Rows 136 … 151, columns 0 … 6, hold the block. -/
theorem hit3 (x : S176x16.Idx → α) (upd : S16x7.Idx → α) (j : Fin 16) (k : Fin 7) :
    Host.scatter scatter_S176x16_S2_S16x7_01_n_01_0 (fun _ b => b) x (idxB 136#32) upd (ix2 ⟨136 + j.val, by omega⟩ ⟨k.val, by omega⟩) = upd (ix2 j k) :=
  (scatter_set_read _ x _ upd t3 ht3 hinj3).1 (ix2 j k)

/-- The rows above 136 are as they were. -/
theorem miss3 (x : S176x16.Idx → α) (upd : S16x7.Idx → α) (i : S176x16.Idx) (h : (i 0).val < 136) :
    Host.scatter scatter_S176x16_S2_S16x7_01_n_01_0 (fun _ b => b) x (idxB 136#32) upd i = x i :=
  (scatter_set_read _ x _ upd t3 ht3 hinj3).2 i (fun j e => by
    have h0 : 136 + (j 0).val = (i 0).val := by have := congrArg Fin.val (congrFun e 0); exact this
    omega)

/-! The fourth and sixth scatters: a row of 7 at `(r, 0)`. -/

/-- Where update `a` of the row of 7 lands: row `r`, column `a`. -/
abbrev t4 (r : Fin 176) (j : S7.Idx) : S176x16.Idx :=
  ix2 (n0 := 176) (n1 := 16) r ⟨(j 0).val, by have : (j 0).val < 7 := (j 0).isLt; omega⟩

theorem ht4 (v : BitVec 32) (r : Fin 176) (hv : v.toInt = (r.val : ℤ)) (j : S7.Idx) :
    scatter_S176x16_S2_S7_0_0_01_0.resultIdx? j (idxB v) = some (t4 r j) := by
  refine resultIdx?_eq_some _ _ _ _ (fun a => ?_)
  fin_cases a
  · show v.toInt + ((0 : ℕ) : ℤ) = (r.val : ℤ)
    rw [hv]; simp
  · show (0#32).toInt + ((j 0).val : ℤ) = ((j 0).val : ℤ)
    rw [show (0#32).toInt = 0 from by decide, zero_add]

theorem hinj4 (r : Fin 176) : Function.Injective (t4 r) := fun a b h => by
  have h1 : (a 0).val = (b 0).val := by have := congrArg Fin.val (congrFun h 1); exact this
  funext d; fin_cases d
  exact Fin.ext h1

/-- Row `r`, columns 0 … 6, holds the row of 7. -/
theorem hit4 (v : BitVec 32) (r : Fin 176) (hv : v.toInt = (r.val : ℤ)) (x : S176x16.Idx → α) (upd : S7.Idx → α) (k : Fin 7) :
    Host.scatter scatter_S176x16_S2_S7_0_0_01_0 (fun _ b => b) x (idxB v) upd (ix2 r ⟨k.val, by omega⟩) = upd (ix1 k) :=
  (scatter_set_read _ x _ upd (t4 r) (ht4 v r hv) (hinj4 r)).1 (ix1 k)

/-- The rows above `r` are as they were. -/
theorem miss4 (v : BitVec 32) (r : Fin 176) (hv : v.toInt = (r.val : ℤ)) (x : S176x16.Idx → α) (upd : S7.Idx → α) (i : S176x16.Idx)
    (h : (i 0).val < r.val) : Host.scatter scatter_S176x16_S2_S7_0_0_01_0 (fun _ b => b) x (idxB v) upd i = x i :=
  (scatter_set_read _ x _ upd (t4 r) (ht4 v r hv) (hinj4 r)).2 i (fun j e => by
    have h0 : r.val = (i 0).val := by have := congrArg Fin.val (congrFun e 0); exact this
    omega)

/-! The fifth scatter: a `[7, 7]` block at `(160, 0)`. -/

/-- Where update `(a, b)` of the `[7, 7]` block lands: row `160 + a`, column `b`. -/
abbrev t5 (j : S7x7.Idx) : S176x16.Idx :=
  ix2 (n0 := 176) (n1 := 16) ⟨160 + (j 0).val, by have := idx2_lt0 j; omega⟩ ⟨(j 1).val, by have := idx2_lt1 j; omega⟩

theorem ht5 (j : S7x7.Idx) : scatter_S176x16_S2_S7x7_01_n_01_0.resultIdx? j (idxB 160#32) = some (t5 j) := by
  refine resultIdx?_eq_some _ _ _ _ (fun a => ?_)
  fin_cases a
  · show (160#32).toInt + ((j 0).val : ℤ) = ((160 + (j 0).val : ℕ) : ℤ)
    rw [show (160#32).toInt = 160 from by decide]; push_cast; rfl
  · show (0#32).toInt + ((j 1).val : ℤ) = ((j 1).val : ℤ)
    rw [show (0#32).toInt = 0 from by decide, zero_add]

theorem hinj5 : Function.Injective t5 := fun a b h => by
  have h0 : 160 + (a 0).val = 160 + (b 0).val := by have := congrArg Fin.val (congrFun h 0); exact this
  have h0' : (a 0).val = (b 0).val := by omega
  have h1 : (a 1).val = (b 1).val := by have := congrArg Fin.val (congrFun h 1); exact this
  funext d; fin_cases d
  · exact Fin.ext h0'
  · exact Fin.ext h1

/-- Rows 160 … 166, columns 0 … 6, hold the block. -/
theorem hit5 (x : S176x16.Idx → α) (upd : S7x7.Idx → α) (j : Fin 7) (k : Fin 7) :
    Host.scatter scatter_S176x16_S2_S7x7_01_n_01_0 (fun _ b => b) x (idxB 160#32) upd (ix2 ⟨160 + j.val, by omega⟩ ⟨k.val, by omega⟩) = upd (ix2 j k) :=
  (scatter_set_read _ x _ upd t5 ht5 hinj5).1 (ix2 j k)

/-- The rows above 160 are as they were. -/
theorem miss5 (x : S176x16.Idx → α) (upd : S7x7.Idx → α) (i : S176x16.Idx) (h : (i 0).val < 160) :
    Host.scatter scatter_S176x16_S2_S7x7_01_n_01_0 (fun _ b => b) x (idxB 160#32) upd i = x i :=
  (scatter_set_read _ x _ upd t5 ht5 hinj5).2 i (fun j e => by
    have h0 : 160 + (j 0).val = (i 0).val := by have := congrArg Fin.val (congrFun e 0); exact this
    omega)

end Stages

/-! ## The host chain -/

/-- The packed array as the host builds it from the six arguments: zeros, then the six overwriting scatters in order. -/
abbrev packedOf (a2 : Vec F S128x16 .f32) (a3 : Vec F S16 .f32) (a4 : Vec F S16x7 .f32) (a5 : Vec F S7 .f32)
    (a6 : Vec F S7x7 .f32) (a7 : Vec F S7 .f32) : Vec F S176x16 .f32 :=
  Host.scatter scatter_S176x16_S2_S7_0_0_01_0 (fun _ b => b)
    (Host.scatter scatter_S176x16_S2_S7x7_01_n_01_0 (fun _ b => b)
      (Host.scatter scatter_S176x16_S2_S7_0_0_01_0 (fun _ b => b)
        (Host.scatter scatter_S176x16_S2_S16x7_01_n_01_0 (fun _ b => b)
          (Host.scatter scatter_S176x16_S1_S16_0_0_0_0 (fun _ b => b)
            (Host.scatter scatter_S176x16_S1_S128x16_01_n_0_0 (fun _ b => b)
              (broadcastInDim S176x16 ![] bcast_S_S176x16 (constant (F := F) S_ .f32 0x00000000#32))
              (idxA 0#32) a2)
            (idxA 128#32) a3)
          (idxB 136#32) a4)
        (idxB 152#32) a5)
      (idxB 160#32) a6)
    (idxB 168#32) a7

set_option maxHeartbeats 4000000 in
/-- What the region finds in the packed array: the host chain's term over the arguments as launched. -/
theorem V20_eq (c : Dev nD) :
    (V m c main_v20 : Vec F S176x16 .f32) = packedOf (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  dsimp only [V, hostOps0]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem pk_W1 (c : Dev nD) (j : Fin 128) (k : Fin 16) :
    (V m c main_v20 : Vec F S176x16 .f32) (ix2 ⟨j.val, by omega⟩ k) = (m ((c : Thread nD τ).loc main_arg2) : Vec F S128x16 .f32) (ix2 j k) := by
  have hj := j.isLt
  refine (congrFun (V20_eq m c) _).trans ?_
  refine (miss4 168#32 ⟨168, by decide⟩ (by decide) _ _ _ (by show j.val < 168; omega)).trans ?_
  refine (miss5 _ _ _ (by show j.val < 160; omega)).trans ?_
  refine (miss4 152#32 ⟨152, by decide⟩ (by decide) _ _ _ (by show j.val < 152; omega)).trans ?_
  refine (miss3 _ _ _ (by show j.val < 136; omega)).trans ?_
  refine (miss2 _ _ _ (by show j.val < 128; omega)).trans ?_
  exact hit1 _ _ j k

theorem pk_b1 (c : Dev nD) (k : Fin 16) :
    (V m c main_v20 : Vec F S176x16 .f32) (ix2 ⟨128, by decide⟩ k) = (m ((c : Thread nD τ).loc main_arg3) : Vec F S16 .f32) (ix1 k) := by
  refine (congrFun (V20_eq m c) _).trans ?_
  refine (miss4 168#32 ⟨168, by decide⟩ (by decide) _ _ _ (by show 128 < 168; omega)).trans ?_
  refine (miss5 _ _ _ (by show 128 < 160; omega)).trans ?_
  refine (miss4 152#32 ⟨152, by decide⟩ (by decide) _ _ _ (by show 128 < 152; omega)).trans ?_
  refine (miss3 _ _ _ (by show 128 < 136; omega)).trans ?_
  exact hit2 _ _ k

theorem pk_W2 (c : Dev nD) (j : Fin 16) (k : Fin 7) :
    (V m c main_v20 : Vec F S176x16 .f32) (ix2 ⟨136 + j.val, by omega⟩ ⟨k.val, by omega⟩) = (m ((c : Thread nD τ).loc main_arg4) : Vec F S16x7 .f32) (ix2 j k) := by
  have hj := j.isLt
  refine (congrFun (V20_eq m c) _).trans ?_
  refine (miss4 168#32 ⟨168, by decide⟩ (by decide) _ _ _ (by show 136 + j.val < 168; omega)).trans ?_
  refine (miss5 _ _ _ (by show 136 + j.val < 160; omega)).trans ?_
  refine (miss4 152#32 ⟨152, by decide⟩ (by decide) _ _ _ (by show 136 + j.val < 152; omega)).trans ?_
  exact hit3 _ _ j k

theorem pk_b2 (c : Dev nD) (k : Fin 7) :
    (V m c main_v20 : Vec F S176x16 .f32) (ix2 ⟨152, by decide⟩ ⟨k.val, by omega⟩) = (m ((c : Thread nD τ).loc main_arg5) : Vec F S7 .f32) (ix1 k) := by
  refine (congrFun (V20_eq m c) _).trans ?_
  refine (miss4 168#32 ⟨168, by decide⟩ (by decide) _ _ _ (by show 152 < 168; omega)).trans ?_
  refine (miss5 _ _ _ (by show 152 < 160; omega)).trans ?_
  exact hit4 152#32 ⟨152, by decide⟩ (by decide) _ _ k

theorem pk_WL (c : Dev nD) (j : Fin 7) (k : Fin 7) :
    (V m c main_v20 : Vec F S176x16 .f32) (ix2 ⟨160 + j.val, by omega⟩ ⟨k.val, by omega⟩) = (m ((c : Thread nD τ).loc main_arg6) : Vec F S7x7 .f32) (ix2 j k) := by
  have hj := j.isLt
  refine (congrFun (V20_eq m c) _).trans ?_
  refine (miss4 168#32 ⟨168, by decide⟩ (by decide) _ _ _ (by show 160 + j.val < 168; omega)).trans ?_
  exact hit5 _ _ j k

theorem pk_bL (c : Dev nD) (k : Fin 7) :
    (V m c main_v20 : Vec F S176x16 .f32) (ix2 ⟨168, by decide⟩ ⟨k.val, by omega⟩) = (m ((c : Thread nD τ).loc main_arg7) : Vec F S7 .f32) (ix1 k) := by
  refine (congrFun (V20_eq m c) _).trans ?_
  exact hit4 168#32 ⟨168, by decide⟩ (by decide) _ _ k

end Cert.KernelIdeal.Gen

end
-- ==== Proof.Spec.lean ====
/-
  The two-layer graph convolution with a final linear layer and a row-wise log-softmax, on the extended reals, index by index.

  With `x : [10000, 128]`, `adj : [2, 10000, 10000]`, `W1 : [128, 16]`, `b1 : [16]`, `W2 : [16, 7]`, `b2 : [7]`, `WL : [7, 7]`,
  `bL : [7]`:
      s1 = x · W1,   h = max (adj[0] · s1 + b1) 0,   s2 = h · W2,   l = adj[1] · s2 + b2,   o = l · WL + bL,
      out[r, k] = (o[r, k] − max_k' o[r, k']) − log Σ_k' exp (o[r, k'] − max_k' o[r, k']).
  Every product is the plain sum over its one contracted axis; the row maximum is the fold of `max` from the value of the
  `−∞` word. Both programs compute exactly these sums in exactly this grouping, so no law of the extended reals beyond the
  definitions is needed to compare them.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- Arrays of extended reals of rank 1, 2, 3 over literal extents. -/
abbrev A1 (n : Nat) : Type := (⟨1, ![n]⟩ : Shape).Idx → EReal
abbrev A2 (n0 n1 : Nat) : Type := (⟨2, ![n0, n1]⟩ : Shape).Idx → EReal
abbrev A3 (n0 n1 n2 : Nat) : Type := (⟨3, ![n0, n1, n2]⟩ : Shape).Idx → EReal

/-- The value of the zero word and of the `−∞` word, kept as the programs spell them. -/
abbrev zeroW : EReal := Ideal.ofBits .f32 0x00000000#32
abbrev negInfW : EReal := Ideal.ofBits .f32 0xFF800000#32

variable (x : A2 10000 128) (adj : A3 2 10000 10000) (W1 : A2 128 16) (b1 : A1 16) (W2 : A2 16 7) (b2 : A1 7)
  (WL : A2 7 7) (bL : A1 7)

/-- The first support `x · W1`. -/
def sup1 (r : Fin 10000) (k : Fin 16) : EReal := ∑ j : Fin 128, x (ix2 r j) * W1 (ix2 j k)

/-- The hidden layer `max (adj[0] · s1 + b1) 0`. -/
def hid (r : Fin 10000) (k : Fin 16) : EReal :=
  max (∑ j : Fin 10000, adj (ix3 (0 : Fin 2) r j) * sup1 x W1 j k + b1 (ix1 k)) zeroW

/-- The second support `h · W2`. -/
def sup2 (r : Fin 10000) (k : Fin 7) : EReal := ∑ j : Fin 16, hid x adj W1 b1 r j * W2 (ix2 j k)

/-- The second layer `adj[1] · s2 + b2`. -/
def lin2 (r : Fin 10000) (k : Fin 7) : EReal :=
  ∑ j : Fin 10000, adj (ix3 (1 : Fin 2) r j) * sup2 x adj W1 b1 W2 j k + b2 (ix1 k)

/-- The logits `l · WL + bL`. -/
def logit (r : Fin 10000) (k : Fin 7) : EReal :=
  ∑ j : Fin 7, lin2 x adj W1 b1 W2 b2 r j * WL (ix2 j k) + bL (ix1 k)

/-- A row's maximum, folded from the value of the `−∞` word. -/
def rowMax (r : Fin 10000) : EReal :=
  (Finset.univ : Finset (Fin 7)).fold max negInfW (fun k => logit x adj W1 b1 W2 b2 WL bL r k)

/-- The logits shifted by their row's maximum. -/
def shifted (r : Fin 10000) (k : Fin 7) : EReal := logit x adj W1 b1 W2 b2 WL bL r k - rowMax x adj W1 b1 W2 b2 WL bL r

/-- The log-softmax of the logits at row `r`, class `k`. -/
def out (r : Fin 10000) (k : Fin 7) : EReal :=
  shifted x adj W1 b1 W2 b2 WL bL r k - Ideal.log (∑ k' : Fin 7, Ideal.exp (shifted x adj W1 b1 W2 b2 WL bL r k'))

/-- The result array. -/
def G : A2 10000 7 := fun y => out x adj W1 b1 W2 b2 WL bL ⟨(y 0).val, idx2_lt0 y⟩ ⟨(y 1).val, idx2_lt1 y⟩

theorem G_ix2 (r : Fin 10000) (k : Fin 7) : G x adj W1 b1 W2 b2 WL bL (ix2 r k) = out x adj W1 b1 W2 b2 WL bL r k := rfl

end Cert.GcnSpec

end
-- ==== Proof.Ideal.KVal.lean ====
/-
  The kernel's output array at the ideal instance is the specification `G`: row by row, the 400-row blocks the grid points
  compute are the rows of the whole-array formulas.
-/
import proofs.«145415_g2834678415609_cont_sun_c4_672_24_alg».proof.Proof.Ideal.Vals
import proofs.«145415_g2834678415609_cont_sun_c4_672_24_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Idealize.ShloMosaic Idealize.ShloMosaic.TcCoe Idealize.ShloMosaic.ValueIdx
open Cert.KernelIdeal Cert.KernelIdeal.Gen

/-! ## The five products, read at a row and a column -/

/-- The left operand's row coordinate of the 10000 × 128 by 128 × 16 product is the output's row. -/
theorem lhs_a_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
/-- Its column coordinate is the contracted one. -/
theorem lhs_a_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
/-- The right operand's row coordinate is the contracted one. -/
theorem rhs_a_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
/-- Its column coordinate is the output's column. -/
theorem rhs_a_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl
/-- The 10000 × 128 by 128 × 16 product into a zero accumulator, at row `r` and column `k`: the sum over the contracted
    coordinate of the products. -/
theorem mm_a_apply (A : FVec Ideal S10000x128 .f32) (B : FVec Ideal S128x16 .f32) (r : Fin 10000) (k : Fin 16) :
    matmul dot_S10000x128_S128x16_S10000x16_1_0_0_1_n_n none A B (constant (F := Ideal) S10000x16 .f32 0x00000000#32) (ix2 r k)
      = ∑ j : Fin 128, A (ix2 r j) * B (ix2 j k) := by
  refine (Ideal.matmul_constant_zero_apply dot_S10000x128_S128x16_S10000x16_1_0_0_1_n_n none A B (ix2 r k)).trans ?_
  rw [← Equiv.sum_comp (contrEquiv1 dot_S10000x128_S128x16_S10000x16_1_0_0_1_n_n 128 rfl rfl).symm]
  refine Finset.sum_congr rfl fun j _ => ?_
  have hk := contrEquiv1_symm_val dot_S10000x128_S128x16_S10000x16_1_0_0_1_n_n 128 rfl rfl j
  have el : dot_S10000x128_S128x16_S10000x16_1_0_0_1_n_n.lhsIdx (ix2 r k) ((contrEquiv1 dot_S10000x128_S128x16_S10000x16_1_0_0_1_n_n 128 rfl rfl).symm j) = ix2 r j := funext fun a => Fin.ext (by
    match a with
    | ⟨0, _⟩ => exact lhs_a_0 _ _
    | ⟨1, _⟩ => exact (lhs_a_1 _ _).trans hk)
  have er : dot_S10000x128_S128x16_S10000x16_1_0_0_1_n_n.rhsIdx (ix2 r k) ((contrEquiv1 dot_S10000x128_S128x16_S10000x16_1_0_0_1_n_n 128 rfl rfl).symm j) = ix2 j k := funext fun a => Fin.ext (by
    match a with
    | ⟨0, _⟩ => exact (rhs_a_0 _ _).trans hk
    | ⟨1, _⟩ => exact rhs_a_1 _ _)
  rw [el, er]

/-- The left operand's row coordinate of the 400 × 10000 by 10000 × 16 product is the output's row. -/
theorem lhs_b_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
/-- Its column coordinate is the contracted one. -/
theorem lhs_b_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
/-- The right operand's row coordinate is the contracted one. -/
theorem rhs_b_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
/-- Its column coordinate is the output's column. -/
theorem rhs_b_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl
/-- The 400 × 10000 by 10000 × 16 product into a zero accumulator, at row `r` and column `k`: the sum over the contracted
    coordinate of the products. -/
theorem mm_b_apply (A : FVec Ideal S400x10000 .f32) (B : FVec Ideal S10000x16 .f32) (r : Fin 400) (k : Fin 16) :
    matmul dot_S400x10000_S10000x16_S400x16_1_0_0_1_n_n none A B (constant (F := Ideal) S400x16 .f32 0x00000000#32) (ix2 r k)
      = ∑ j : Fin 10000, A (ix2 r j) * B (ix2 j k) := by
  refine (Ideal.matmul_constant_zero_apply dot_S400x10000_S10000x16_S400x16_1_0_0_1_n_n none A B (ix2 r k)).trans ?_
  rw [← Equiv.sum_comp (contrEquiv1 dot_S400x10000_S10000x16_S400x16_1_0_0_1_n_n 10000 rfl rfl).symm]
  refine Finset.sum_congr rfl fun j _ => ?_
  have hk := contrEquiv1_symm_val dot_S400x10000_S10000x16_S400x16_1_0_0_1_n_n 10000 rfl rfl j
  have el : dot_S400x10000_S10000x16_S400x16_1_0_0_1_n_n.lhsIdx (ix2 r k) ((contrEquiv1 dot_S400x10000_S10000x16_S400x16_1_0_0_1_n_n 10000 rfl rfl).symm j) = ix2 r j := funext fun a => Fin.ext (by
    match a with
    | ⟨0, _⟩ => exact lhs_b_0 _ _
    | ⟨1, _⟩ => exact (lhs_b_1 _ _).trans hk)
  have er : dot_S400x10000_S10000x16_S400x16_1_0_0_1_n_n.rhsIdx (ix2 r k) ((contrEquiv1 dot_S400x10000_S10000x16_S400x16_1_0_0_1_n_n 10000 rfl rfl).symm j) = ix2 j k := funext fun a => Fin.ext (by
    match a with
    | ⟨0, _⟩ => exact (rhs_b_0 _ _).trans hk
    | ⟨1, _⟩ => exact rhs_b_1 _ _)
  rw [el, er]

/-- The left operand's row coordinate of the 400 × 16 by 16 × 7 product is the output's row. -/
theorem lhs_c_0 (i : S400x7.Idx) (q : dot_S400x16_S16x7_S400x7_1_0_0_1_n_n.contr.Idx) :
    (dot_S400x16_S16x7_S400x7_1_0_0_1_n_n.lhsIdx i q 0).val = (i 0).val := by
  unfold DotDims.lhsIdx
  rw [dif_neg (show ¬(0 : Fin S400x16.rank) ∈ dot_S400x16_S16x7_S400x7_1_0_0_1_n_n.lhsBatch by decide), dif_pos (show (0 : Fin S400x16.rank) ∈ dot_S400x16_S16x7_S400x7_1_0_0_1_n_n.lhsNonContracting by decide)]
  rfl
/-- Its column coordinate is the contracted one. -/
theorem lhs_c_1 (i : S400x7.Idx) (q : dot_S400x16_S16x7_S400x7_1_0_0_1_n_n.contr.Idx) :
    (dot_S400x16_S16x7_S400x7_1_0_0_1_n_n.lhsIdx i q 1).val = (q ⟨0, by decide⟩).val :=
  dot_S400x16_S16x7_S400x7_1_0_0_1_n_n.lhsIdx_val_of_single rfl i q
/-- The right operand's row coordinate is the contracted one. -/
theorem rhs_c_0 (i : S400x7.Idx) (q : dot_S400x16_S16x7_S400x7_1_0_0_1_n_n.contr.Idx) :
    (dot_S400x16_S16x7_S400x7_1_0_0_1_n_n.rhsIdx i q 0).val = (q ⟨0, by decide⟩).val :=
  dot_S400x16_S16x7_S400x7_1_0_0_1_n_n.rhsIdx_val_of_single rfl i q
/-- Its column coordinate is the output's column. -/
theorem rhs_c_1 (i : S400x7.Idx) (q : dot_S400x16_S16x7_S400x7_1_0_0_1_n_n.contr.Idx) :
    (dot_S400x16_S16x7_S400x7_1_0_0_1_n_n.rhsIdx i q 1).val = (i 1).val := by
  unfold DotDims.rhsIdx
  rw [dif_neg (show ¬(1 : Fin S16x7.rank) ∈ dot_S400x16_S16x7_S400x7_1_0_0_1_n_n.rhsBatch by decide), dif_pos (show (1 : Fin S16x7.rank) ∈ dot_S400x16_S16x7_S400x7_1_0_0_1_n_n.rhsNonContracting by decide)]
  rfl
/-- The 400 × 16 by 16 × 7 product into a zero accumulator, at row `r` and column `k`: the sum over the contracted
    coordinate of the products. -/
theorem mm_c_apply (A : FVec Ideal S400x16 .f32) (B : FVec Ideal S16x7 .f32) (r : Fin 400) (k : Fin 7) :
    matmul dot_S400x16_S16x7_S400x7_1_0_0_1_n_n none A B (constant (F := Ideal) S400x7 .f32 0x00000000#32) (ix2 r k)
      = ∑ j : Fin 16, A (ix2 r j) * B (ix2 j k) := by
  refine (Ideal.matmul_constant_zero_apply dot_S400x16_S16x7_S400x7_1_0_0_1_n_n none A B (ix2 r k)).trans ?_
  rw [← Equiv.sum_comp (contrEquiv1 dot_S400x16_S16x7_S400x7_1_0_0_1_n_n 16 rfl rfl).symm]
  refine Finset.sum_congr rfl fun j _ => ?_
  have hk := contrEquiv1_symm_val dot_S400x16_S16x7_S400x7_1_0_0_1_n_n 16 rfl rfl j
  have el : dot_S400x16_S16x7_S400x7_1_0_0_1_n_n.lhsIdx (ix2 r k) ((contrEquiv1 dot_S400x16_S16x7_S400x7_1_0_0_1_n_n 16 rfl rfl).symm j) = ix2 r j := funext fun a => Fin.ext (by
    match a with
    | ⟨0, _⟩ => exact lhs_c_0 _ _
    | ⟨1, _⟩ => exact (lhs_c_1 _ _).trans hk)
  have er : dot_S400x16_S16x7_S400x7_1_0_0_1_n_n.rhsIdx (ix2 r k) ((contrEquiv1 dot_S400x16_S16x7_S400x7_1_0_0_1_n_n 16 rfl rfl).symm j) = ix2 j k := funext fun a => Fin.ext (by
    match a with
    | ⟨0, _⟩ => exact (rhs_c_0 _ _).trans hk
    | ⟨1, _⟩ => exact rhs_c_1 _ _)
  rw [el, er]

/-- The left operand's row coordinate of the 400 × 10000 by 10000 × 7 product is the output's row. -/
theorem lhs_d_0 (i : S400x7.Idx) (q : dot_S400x10000_S10000x7_S400x7_1_0_0_1_n_n.contr.Idx) :
    (dot_S400x10000_S10000x7_S400x7_1_0_0_1_n_n.lhsIdx i q 0).val = (i 0).val := by
  unfold DotDims.lhsIdx
  rw [dif_neg (show ¬(0 : Fin S400x10000.rank) ∈ dot_S400x10000_S10000x7_S400x7_1_0_0_1_n_n.lhsBatch by decide), dif_pos (show (0 : Fin S400x10000.rank) ∈ dot_S400x10000_S10000x7_S400x7_1_0_0_1_n_n.lhsNonContracting by decide)]
  rfl
/-- Its column coordinate is the contracted one. -/
theorem lhs_d_1 (i : S400x7.Idx) (q : dot_S400x10000_S10000x7_S400x7_1_0_0_1_n_n.contr.Idx) :
    (dot_S400x10000_S10000x7_S400x7_1_0_0_1_n_n.lhsIdx i q 1).val = (q ⟨0, by decide⟩).val :=
  dot_S400x10000_S10000x7_S400x7_1_0_0_1_n_n.lhsIdx_val_of_single rfl i q
/-- The right operand's row coordinate is the contracted one. -/
theorem rhs_d_0 (i : S400x7.Idx) (q : dot_S400x10000_S10000x7_S400x7_1_0_0_1_n_n.contr.Idx) :
    (dot_S400x10000_S10000x7_S400x7_1_0_0_1_n_n.rhsIdx i q 0).val = (q ⟨0, by decide⟩).val :=
  dot_S400x10000_S10000x7_S400x7_1_0_0_1_n_n.rhsIdx_val_of_single rfl i q
/-- Its column coordinate is the output's column. -/
theorem rhs_d_1 (i : S400x7.Idx) (q : dot_S400x10000_S10000x7_S400x7_1_0_0_1_n_n.contr.Idx) :
    (dot_S400x10000_S10000x7_S400x7_1_0_0_1_n_n.rhsIdx i q 1).val = (i 1).val := by
  unfold DotDims.rhsIdx
  rw [dif_neg (show ¬(1 : Fin S10000x7.rank) ∈ dot_S400x10000_S10000x7_S400x7_1_0_0_1_n_n.rhsBatch by decide), dif_pos (show (1 : Fin S10000x7.rank) ∈ dot_S400x10000_S10000x7_S400x7_1_0_0_1_n_n.rhsNonContracting by decide)]
  rfl
/-- The 400 × 10000 by 10000 × 7 product into a zero accumulator, at row `r` and column `k`: the sum over the contracted
    coordinate of the products. -/
theorem mm_d_apply (A : FVec Ideal S400x10000 .f32) (B : FVec Ideal S10000x7 .f32) (r : Fin 400) (k : Fin 7) :
    matmul dot_S400x10000_S10000x7_S400x7_1_0_0_1_n_n none A B (constant (F := Ideal) S400x7 .f32 0x00000000#32) (ix2 r k)
      = ∑ j : Fin 10000, A (ix2 r j) * B (ix2 j k) := by
  refine (Ideal.matmul_constant_zero_apply dot_S400x10000_S10000x7_S400x7_1_0_0_1_n_n none A B (ix2 r k)).trans ?_
  rw [← Equiv.sum_comp (contrEquiv1 dot_S400x10000_S10000x7_S400x7_1_0_0_1_n_n 10000 rfl rfl).symm]
  refine Finset.sum_congr rfl fun j _ => ?_
  have hk := contrEquiv1_symm_val dot_S400x10000_S10000x7_S400x7_1_0_0_1_n_n 10000 rfl rfl j
  have el : dot_S400x10000_S10000x7_S400x7_1_0_0_1_n_n.lhsIdx (ix2 r k) ((contrEquiv1 dot_S400x10000_S10000x7_S400x7_1_0_0_1_n_n 10000 rfl rfl).symm j) = ix2 r j := funext fun a => Fin.ext (by
    match a with
    | ⟨0, _⟩ => exact lhs_d_0 _ _
    | ⟨1, _⟩ => exact (lhs_d_1 _ _).trans hk)
  have er : dot_S400x10000_S10000x7_S400x7_1_0_0_1_n_n.rhsIdx (ix2 r k) ((contrEquiv1 dot_S400x10000_S10000x7_S400x7_1_0_0_1_n_n 10000 rfl rfl).symm j) = ix2 j k := funext fun a => Fin.ext (by
    match a with
    | ⟨0, _⟩ => exact (rhs_d_0 _ _).trans hk
    | ⟨1, _⟩ => exact rhs_d_1 _ _)
  rw [el, er]

/-- The left operand's row coordinate of the 400 × 7 by 7 × 7 product is the output's row. -/
theorem lhs_e_0 (i : S400x7.Idx) (q : dot_S400x7_S7x7_S400x7_1_0_0_1_n_n.contr.Idx) :
    (dot_S400x7_S7x7_S400x7_1_0_0_1_n_n.lhsIdx i q 0).val = (i 0).val := by
  unfold DotDims.lhsIdx
  rw [dif_neg (show ¬(0 : Fin S400x7.rank) ∈ dot_S400x7_S7x7_S400x7_1_0_0_1_n_n.lhsBatch by decide), dif_pos (show (0 : Fin S400x7.rank) ∈ dot_S400x7_S7x7_S400x7_1_0_0_1_n_n.lhsNonContracting by decide)]
  rfl
/-- Its column coordinate is the contracted one. -/
theorem lhs_e_1 (i : S400x7.Idx) (q : dot_S400x7_S7x7_S400x7_1_0_0_1_n_n.contr.Idx) :
    (dot_S400x7_S7x7_S400x7_1_0_0_1_n_n.lhsIdx i q 1).val = (q ⟨0, by decide⟩).val :=
  dot_S400x7_S7x7_S400x7_1_0_0_1_n_n.lhsIdx_val_of_single rfl i q
/-- The right operand's row coordinate is the contracted one. -/
theorem rhs_e_0 (i : S400x7.Idx) (q : dot_S400x7_S7x7_S400x7_1_0_0_1_n_n.contr.Idx) :
    (dot_S400x7_S7x7_S400x7_1_0_0_1_n_n.rhsIdx i q 0).val = (q ⟨0, by decide⟩).val :=
  dot_S400x7_S7x7_S400x7_1_0_0_1_n_n.rhsIdx_val_of_single rfl i q
/-- Its column coordinate is the output's column. -/
theorem rhs_e_1 (i : S400x7.Idx) (q : dot_S400x7_S7x7_S400x7_1_0_0_1_n_n.contr.Idx) :
    (dot_S400x7_S7x7_S400x7_1_0_0_1_n_n.rhsIdx i q 1).val = (i 1).val := by
  unfold DotDims.rhsIdx
  rw [dif_neg (show ¬(1 : Fin S7x7.rank) ∈ dot_S400x7_S7x7_S400x7_1_0_0_1_n_n.rhsBatch by decide), dif_pos (show (1 : Fin S7x7.rank) ∈ dot_S400x7_S7x7_S400x7_1_0_0_1_n_n.rhsNonContracting by decide)]
  rfl
/-- The 400 × 7 by 7 × 7 product into a zero accumulator, at row `r` and column `k`: the sum over the contracted
    coordinate of the products. -/
theorem mm_e_apply (A : FVec Ideal S400x7 .f32) (B : FVec Ideal S7x7 .f32) (r : Fin 400) (k : Fin 7) :
    matmul dot_S400x7_S7x7_S400x7_1_0_0_1_n_n none A B (constant (F := Ideal) S400x7 .f32 0x00000000#32) (ix2 r k)
      = ∑ j : Fin 7, A (ix2 r j) * B (ix2 j k) := by
  refine (Ideal.matmul_constant_zero_apply dot_S400x7_S7x7_S400x7_1_0_0_1_n_n none A B (ix2 r k)).trans ?_
  rw [← Equiv.sum_comp (contrEquiv1 dot_S400x7_S7x7_S400x7_1_0_0_1_n_n 7 rfl rfl).symm]
  refine Finset.sum_congr rfl fun j _ => ?_
  have hk := contrEquiv1_symm_val dot_S400x7_S7x7_S400x7_1_0_0_1_n_n 7 rfl rfl j
  have el : dot_S400x7_S7x7_S400x7_1_0_0_1_n_n.lhsIdx (ix2 r k) ((contrEquiv1 dot_S400x7_S7x7_S400x7_1_0_0_1_n_n 7 rfl rfl).symm j) = ix2 r j := funext fun a => Fin.ext (by
    match a with
    | ⟨0, _⟩ => exact lhs_e_0 _ _
    | ⟨1, _⟩ => exact (lhs_e_1 _ _).trans hk)
  have er : dot_S400x7_S7x7_S400x7_1_0_0_1_n_n.rhsIdx (ix2 r k) ((contrEquiv1 dot_S400x7_S7x7_S400x7_1_0_0_1_n_n 7 rfl rfl).symm j) = ix2 j k := funext fun a => Fin.ext (by
    match a with
    | ⟨0, _⟩ => exact (rhs_e_0 _ _).trans hk
    | ⟨1, _⟩ => exact rhs_e_1 _ _)
  rw [el, er]

/-! ## The three payloads, read at a row and a column -/

/-- The first support: `x · W` at row `r`, column `k`. -/
theorem pay1_apply (x : Vec Ideal S10000x128 .f32) (W : Vec Ideal S128x16 .f32) (r : Fin 10000) (k : Fin 16) :
    k0_pay1 x W (ix2 r k) = ∑ j : Fin 128, x (ix2 r j) * W (ix2 j k) := by
  unfold k0_pay1
  simp only [shapeCast_self]
  exact mm_a_apply x W r k

/-- 400 rows of the second support: `max (a · s1 + b) 0 · W` at row `p`, column `k`. -/
theorem pay2_apply (a : Vec Ideal S1x400x10000 .f32) (s1 : Vec Ideal S10000x16 .f32) (b : Vec Ideal S1x16 .f32)
    (W : Vec Ideal S16x7 .f32) (p : Fin 400) (k : Fin 7) :
    k0_pay2 a s1 b W (ix2 p k)
      = ∑ j : Fin 16, max (∑ i : Fin 10000, a (ix3 (0 : Fin 1) p i) * s1 (ix2 i j) + b (ix2 (0 : Fin 1) j))
          (Ideal.ofBits .f32 0x00000000#32) * W (ix2 j k) := by
  unfold k0_pay2
  simp only [shapeCast_self]
  refine (mm_c_apply _ _ p k).trans ?_
  refine Finset.sum_congr rfl fun j _ => ?_
  refine congrArg (· * W (ix2 j k)) ?_
  refine (maximumf_apply _ _ _).trans ?_
  refine congrArg₂ max ?_ rfl
  refine (addf_apply _ _ _).trans ?_
  refine congrArg₂ (· + ·) ?_ ?_
  · refine (mm_b_apply _ _ p j).trans ?_
    refine Finset.sum_congr rfl fun i _ => ?_
    exact congrArg (· * s1 (ix2 i j)) (shapeCast_1ab_ab_apply a _ p i)
  · exact broadcastTo_1b_ab_apply b _ p j

/-! ## A column of 400 values: the cast of a vector to one column, that column broadcast over seven, and a row's index
    inside the 400 × 7 array -/

/-- A `[400]` vector cast to `[400, 1]` reads, at `(p, u)`, the vector at `p`. -/
theorem cast_col_apply {α : Type} (v : S400.Idx → α) (p : Fin 400) (u : Fin 1) :
    shapeCast S400x1 v shapeCasts_S400_S400x1 (ix2 p u) = v (ix1 p) :=
  shapeCast_apply v shapeCasts_S400_S400x1 _ _ (by
    have hu : u.val = 0 := by omega
    rw [Shape.rowMajor_val_two, Shape.rowMajor_val_one]
    show p.val = p.val * 1 + u.val
    rw [hu, Nat.mul_one, Nat.add_zero])

/-- A `[400, 1]` column broadcast to `[400, 7]` reads, at `(p, k)`, the column at `p`. -/
theorem bcast_col_apply {α : Type} (v : S400x1.Idx → α) (p : Fin 400) (k : Fin 7) :
    broadcastTo S400x7 v broadcasts_S400x1_S400x7 (ix2 p k) = v (ix2 p (0 : Fin 1)) := by
  refine broadcastTo_apply v broadcasts_S400x1_S400x7 (ix2 p k) (ix2 p (0 : Fin 1)) fun ax => ?_
  match ax with
  | ⟨0, _⟩ => rfl
  | ⟨1, _⟩ => rfl

/-- The index of a row's `k'`-th entry, as the reduction over the columns names it. -/
theorem lift_row (p : Fin 400) (k' : Fin 7) : reduces_S400x7_S400.lift (ix1 p) k' = ix2 p k' :=
  funext fun a => Fin.ext (match a with | ⟨0, _⟩ => rfl | ⟨1, _⟩ => rfl)

/-- The maximum over the seven columns, from the value of the `−∞` word, at row `p`. -/
theorem rowmax_apply (O : FVec Ideal S400x7 .f32) (p : Fin 400) :
    multiReduction .maximumf [1] S400 O 0xFF800000#32 reduces_S400x7_S400 (.inl rfl) rfl (ix1 p)
      = (Finset.univ : Finset (Fin 7)).fold max (Ideal.ofBits .f32 0xFF800000#32) (fun k' => O (ix2 p k')) := by
  refine (Ideal.multiReduction_maximumf_single O 0xFF800000#32 reduces_S400x7_S400 (.inl rfl) rfl (ix1 p)).trans ?_
  exact congrArg (Finset.univ.fold max (Ideal.ofBits .f32 0xFF800000#32)) (funext fun k' => congrArg O (lift_row p k'))

/-- The sum over the seven columns at row `p`. -/
theorem rowsum_apply (E : FVec Ideal S400x7 .f32) (p : Fin 400) :
    multiReduction .add [1] S400 E 0x00000000#32 reduces_S400x7_S400 (.inl rfl) rfl (ix1 p) = ∑ k' : Fin 7, E (ix2 p k') := by
  refine (Ideal.multiReduction_add_single E 0x00000000#32 reduces_S400x7_S400 (.inl rfl) rfl (ix1 p)).trans ?_
  exact Finset.sum_congr rfl fun k' _ => congrArg E (lift_row p k')

/-- A row-wise log-softmax as the kernel spells it — the row maximum kept as a column and broadcast back, the shifted
    entries, the logarithm of the row sum of their exponentials kept as a column and broadcast back — at row `p`,
    column `k`. -/
theorem lsm_apply (O : FVec Ideal S400x7 .f32) (p : Fin 400) (k : Fin 7) :
    subf (subf O (broadcastTo S400x7 (shapeCast S400x1
            (multiReduction .maximumf [1] S400 O 0xFF800000#32 reduces_S400x7_S400 (.inl rfl) rfl) shapeCasts_S400_S400x1)
            broadcasts_S400x1_S400x7))
        (broadcastTo S400x7 (log (shapeCast S400x1
            (multiReduction .add [1] S400 (exp (subf O (broadcastTo S400x7 (shapeCast S400x1
                (multiReduction .maximumf [1] S400 O 0xFF800000#32 reduces_S400x7_S400 (.inl rfl) rfl) shapeCasts_S400_S400x1)
                broadcasts_S400x1_S400x7))) 0x00000000#32 reduces_S400x7_S400 (.inl rfl) rfl) shapeCasts_S400_S400x1))
            broadcasts_S400x1_S400x7) (ix2 p k)
      = (O (ix2 p k) - (Finset.univ : Finset (Fin 7)).fold max (Ideal.ofBits .f32 0xFF800000#32) (fun k' => O (ix2 p k')))
          - Ideal.log (∑ k' : Fin 7, Ideal.exp (O (ix2 p k')
              - (Finset.univ : Finset (Fin 7)).fold max (Ideal.ofBits .f32 0xFF800000#32) (fun k' => O (ix2 p k')))) := by
  have hsh : ∀ k' : Fin 7, subf O (broadcastTo S400x7 (shapeCast S400x1
            (multiReduction .maximumf [1] S400 O 0xFF800000#32 reduces_S400x7_S400 (.inl rfl) rfl) shapeCasts_S400_S400x1)
            broadcasts_S400x1_S400x7) (ix2 p k')
      = O (ix2 p k') - (Finset.univ : Finset (Fin 7)).fold max (Ideal.ofBits .f32 0xFF800000#32) (fun k' => O (ix2 p k')) := fun k' => by
    refine (subf_apply _ _ _).trans ?_
    refine congrArg (O (ix2 p k') - ·) ?_
    refine (bcast_col_apply _ p k').trans ?_
    refine (cast_col_apply _ p 0).trans ?_
    exact rowmax_apply O p
  refine (subf_apply _ _ _).trans ?_
  refine congrArg₂ (· - ·) (hsh k) ?_
  refine (bcast_col_apply _ p k).trans ?_
  show Ideal.log (shapeCast S400x1 _ shapeCasts_S400_S400x1 (ix2 p (0 : Fin 1))) = _
  refine congrArg Ideal.log ?_
  refine (cast_col_apply _ p 0).trans ?_
  refine (rowsum_apply _ p).trans ?_
  refine Finset.sum_congr rfl fun k' _ => ?_
  show Ideal.exp (subf O _ (ix2 p k')) = _
  exact congrArg Ideal.exp (hsh k')

/-- A 400 × 10000 by 10000 × 7 product plus one row broadcast over the 400, at row `q`, column `j`. -/
theorem affine_d_apply (A : FVec Ideal S400x10000 .f32) (B : FVec Ideal S10000x7 .f32) (c : FVec Ideal S1x7 .f32)
    (q : Fin 400) (j : Fin 7) :
    addf (matmul dot_S400x10000_S10000x7_S400x7_1_0_0_1_n_n none A B (constant (F := Ideal) S400x7 .f32 0x00000000#32))
        (broadcastTo S400x7 c broadcasts_S1x7_S400x7) (ix2 q j)
      = ∑ i : Fin 10000, A (ix2 q i) * B (ix2 i j) + c (ix2 (0 : Fin 1) j) := by
  refine (addf_apply _ _ _).trans ?_
  exact congrArg₂ (· + ·) (mm_d_apply A B q j) (broadcastTo_1b_ab_apply c _ q j)

/-- A 400 × 7 by 7 × 7 product plus one row broadcast over the 400, at row `q`, column `k`. -/
theorem affine_e_apply (A : FVec Ideal S400x7 .f32) (B : FVec Ideal S7x7 .f32) (c : FVec Ideal S1x7 .f32)
    (q : Fin 400) (k : Fin 7) :
    addf (matmul dot_S400x7_S7x7_S400x7_1_0_0_1_n_n none A B (constant (F := Ideal) S400x7 .f32 0x00000000#32))
        (broadcastTo S400x7 c broadcasts_S1x7_S400x7) (ix2 q k)
      = ∑ j : Fin 7, A (ix2 q j) * B (ix2 j k) + c (ix2 (0 : Fin 1) k) := by
  refine (addf_apply _ _ _).trans ?_
  exact congrArg₂ (· + ·) (mm_e_apply A B q k) (broadcastTo_1b_ab_apply c _ q k)

/-- The second layer of one block, `a · s2 + b2`, at row `q`, column `j`. -/
def linB (a : Vec Ideal S1x400x10000 .f32) (s2 : Vec Ideal S10000x7 .f32) (b2 : Vec Ideal S1x7 .f32) (q : Fin 400) (j : Fin 7) : EReal :=
  ∑ i : Fin 10000, a (ix3 (0 : Fin 1) q i) * s2 (ix2 i j) + b2 (ix2 (0 : Fin 1) j)

/-- The logits of one block, `(a · s2 + b2) · WL + bL`, at row `q`, column `k`. -/
def logitB (a : Vec Ideal S1x400x10000 .f32) (s2 : Vec Ideal S10000x7 .f32) (b2 : Vec Ideal S1x7 .f32) (WL : Vec Ideal S7x7 .f32)
    (bL : Vec Ideal S1x7 .f32) (q : Fin 400) (k : Fin 7) : EReal :=
  ∑ j : Fin 7, linB a s2 b2 q j * WL (ix2 j k) + bL (ix2 (0 : Fin 1) k)

/-- 400 rows of the output: the row-wise log-softmax of the block's logits, at row `p`, column `k`. -/
theorem pay3_apply (a : Vec Ideal S1x400x10000 .f32) (s2 : Vec Ideal S10000x7 .f32) (b2 : Vec Ideal S1x7 .f32)
    (WL : Vec Ideal S7x7 .f32) (bL : Vec Ideal S1x7 .f32) (p : Fin 400) (k : Fin 7) :
    k0_pay3 a s2 b2 WL bL (ix2 p k)
      = (logitB a s2 b2 WL bL p k
            - (Finset.univ : Finset (Fin 7)).fold max (Ideal.ofBits .f32 0xFF800000#32) (fun k' => logitB a s2 b2 WL bL p k'))
          - Ideal.log (∑ k' : Fin 7, Ideal.exp (logitB a s2 b2 WL bL p k'
              - (Finset.univ : Finset (Fin 7)).fold max (Ideal.ofBits .f32 0xFF800000#32) (fun k' => logitB a s2 b2 WL bL p k'))) := by
  have ho : ∀ (q : Fin 400) (k' : Fin 7),
      addf (matmul dot_S400x7_S7x7_S400x7_1_0_0_1_n_n none
          (addf (matmul dot_S400x10000_S10000x7_S400x7_1_0_0_1_n_n none (shapeCast S400x10000 a shapeCasts_S1x400x10000_S400x10000) s2
              (constant (F := Ideal) S400x7 .f32 0x00000000#32)) (broadcastTo S400x7 b2 broadcasts_S1x7_S400x7))
          WL (constant (F := Ideal) S400x7 .f32 0x00000000#32)) (broadcastTo S400x7 bL broadcasts_S1x7_S400x7) (ix2 q k')
        = logitB a s2 b2 WL bL q k' := fun q k' => by
    refine (affine_e_apply _ WL bL q k').trans ?_
    unfold logitB
    refine congrArg (· + bL (ix2 (0 : Fin 1) k')) ?_
    refine Finset.sum_congr rfl fun j _ => ?_
    refine congrArg (· * WL (ix2 j k')) ?_
    refine (affine_d_apply _ s2 b2 q j).trans ?_
    unfold linB
    refine congrArg (· + b2 (ix2 (0 : Fin 1) j)) ?_
    refine Finset.sum_congr rfl fun i _ => ?_
    exact congrArg (· * s2 (ix2 i j)) (shapeCast_1ab_ab_apply a _ q i)
  unfold k0_pay3
  simp only [shapeCast_self]
  refine (lsm_apply _ p k).trans ?_
  simp only [ho]

/-! ## The rows of the packed array -/

/-- Rows 0 … 127: entry `(j, k)` of the first slab is the packed array's at `(j, k)`. -/
theorem pkW1_apply (pk : Vec Ideal S176x16 .f32) (j : Fin 128) (k : Fin 16) :
    pkW1 pk (ix2 j k) = pk (ix2 ⟨j.val, by omega⟩ k) :=
  congrArg pk (funext fun a => Fin.ext (match a with
    | ⟨0, _⟩ => (show 0 + 1 * j.val = j.val by omega)
    | ⟨1, _⟩ => (show 0 + 1 * k.val = k.val by omega)))

/-- Row 128. -/
theorem pkB1_apply (pk : Vec Ideal S176x16 .f32) (k : Fin 16) :
    pkB1 pk (ix2 (0 : Fin 1) k) = pk (ix2 ⟨128, by decide⟩ k) :=
  congrArg pk (funext fun a => Fin.ext (match a with
    | ⟨0, _⟩ => (show 128 + 1 * 0 = 128 by omega)
    | ⟨1, _⟩ => (show 0 + 1 * k.val = k.val by omega)))

/-- Rows 136 … 151, columns 0 … 6. -/
theorem pkW2_apply (pk : Vec Ideal S176x16 .f32) (j : Fin 16) (k : Fin 7) :
    pkW2 pk (ix2 j k) = pk (ix2 ⟨136 + j.val, by omega⟩ ⟨k.val, by omega⟩) :=
  congrArg pk (funext fun a => Fin.ext (match a with
    | ⟨0, _⟩ => (show 136 + 1 * j.val = 136 + j.val by omega)
    | ⟨1, _⟩ => (show 0 + 1 * k.val = k.val by omega)))

/-- Row 152, columns 0 … 6. -/
theorem pkB2_apply (pk : Vec Ideal S176x16 .f32) (k : Fin 7) :
    pkB2 pk (ix2 (0 : Fin 1) k) = pk (ix2 ⟨152, by decide⟩ ⟨k.val, by omega⟩) :=
  congrArg pk (funext fun a => Fin.ext (match a with
    | ⟨0, _⟩ => (show 152 + 1 * 0 = 152 by omega)
    | ⟨1, _⟩ => (show 0 + 1 * k.val = k.val by omega)))

/-- Rows 160 … 166, columns 0 … 6. -/
theorem pkWL_apply (pk : Vec Ideal S176x16 .f32) (j : Fin 7) (k : Fin 7) :
    pkWL pk (ix2 j k) = pk (ix2 ⟨160 + j.val, by omega⟩ ⟨k.val, by omega⟩) :=
  congrArg pk (funext fun a => Fin.ext (match a with
    | ⟨0, _⟩ => (show 160 + 1 * j.val = 160 + j.val by omega)
    | ⟨1, _⟩ => (show 0 + 1 * k.val = k.val by omega)))

/-- Row 168, columns 0 … 6. -/
theorem pkBL_apply (pk : Vec Ideal S176x16 .f32) (k : Fin 7) :
    pkBL pk (ix2 (0 : Fin 1) k) = pk (ix2 ⟨168, by decide⟩ ⟨k.val, by omega⟩) :=
  congrArg pk (funext fun a => Fin.ext (match a with
    | ⟨0, _⟩ => (show 168 + 1 * 0 = 168 by omega)
    | ⟨1, _⟩ => (show 0 + 1 * k.val = k.val by omega)))

/-! ## The blocks are the rows of the whole arrays -/

section Rows

variable (ablk : Fin 50 → Vec Ideal S1x400x10000 .f32) (x : Vec Ideal S10000x128 .f32) (pk : Vec Ideal S176x16 .f32)
    (adj : Vec Ideal S2x10000x10000 .f32) (W1 : Vec Ideal S128x16 .f32) (b1 : Vec Ideal S16 .f32) (W2 : Vec Ideal S16x7 .f32)
    (b2 : Vec Ideal S7 .f32) (WL : Vec Ideal S7x7 .f32) (bL : Vec Ideal S7 .f32)
    (hadj : ∀ (t : Fin 50) (y : S1x400x10000.Idx), ablk t y
        = adj (ix3 ⟨t.val / 25, by have := t.isLt; omega⟩
            ⟨(t.val % 25) * 400 + (y 1).val, by have h : (y 1).val < 400 := (y 1).isLt; omega⟩ ⟨(y 2).val, (y 2).isLt⟩))
    (hW1 : ∀ (j : Fin 128) (k : Fin 16), pk (ix2 ⟨j.val, by omega⟩ k) = W1 (ix2 j k))
    (hb1 : ∀ k : Fin 16, pk (ix2 ⟨128, by decide⟩ k) = b1 (ix1 k))
    (hW2 : ∀ (j : Fin 16) (k : Fin 7), pk (ix2 ⟨136 + j.val, by omega⟩ ⟨k.val, by omega⟩) = W2 (ix2 j k))
    (hb2 : ∀ k : Fin 7, pk (ix2 ⟨152, by decide⟩ ⟨k.val, by omega⟩) = b2 (ix1 k))
    (hWL : ∀ (j : Fin 7) (k : Fin 7), pk (ix2 ⟨160 + j.val, by omega⟩ ⟨k.val, by omega⟩) = WL (ix2 j k))
    (hbL : ∀ k : Fin 7, pk (ix2 ⟨168, by decide⟩ ⟨k.val, by omega⟩) = bL (ix1 k))

include hadj in
/-- Row `p` of the block of point `t`, `t` below 25 and `i = 400 t + p`, is row `i` of the first adjacency plane. -/
theorem ablk_row0 (i i' : Fin 10000) (t : Fin 50) (p : Fin 400) (ht : t.val = i.val / 400) (hp : p.val = i.val % 400) :
    ablk t (ix3 (0 : Fin 1) p i') = adj (ix3 (0 : Fin 2) i i') :=
  (hadj t _).trans (congrArg adj (funext fun a => Fin.ext (match a with
    | ⟨0, _⟩ => (show t.val / 25 = 0 by omega)
    | ⟨1, _⟩ => (show (t.val % 25) * 400 + p.val = i.val by omega)
    | ⟨2, _⟩ => rfl)))

include hadj in
/-- Row `p` of the block of point `t = 25 + i / 400`, `p = i mod 400`, is row `i` of the second adjacency plane. -/
theorem ablk_row1 (i i' : Fin 10000) (t : Fin 50) (p : Fin 400) (ht : t.val = 25 + i.val / 400) (hp : p.val = i.val % 400) :
    ablk t (ix3 (0 : Fin 1) p i') = adj (ix3 (1 : Fin 2) i i') :=
  (hadj t _).trans (congrArg adj (funext fun a => Fin.ext (match a with
    | ⟨0, _⟩ => (show t.val / 25 = 1 by omega)
    | ⟨1, _⟩ => (show (t.val % 25) * 400 + p.val = i.val by omega)
    | ⟨2, _⟩ => rfl)))

include hW1 in
/-- The kernel's first support is the specification's. -/
theorem sup1_apply (i : Fin 10000) (j : Fin 16) : sup1 x pk (ix2 i j) = Cert.GcnSpec.sup1 x W1 i j := by
  unfold sup1 Cert.GcnSpec.sup1
  refine (pay1_apply x (pkW1 pk) i j).trans ?_
  exact Finset.sum_congr rfl fun j' _ => congrArg (x (ix2 i j') * ·) ((pkW1_apply pk j' j).trans (hW1 j' j))

include hadj hW1 hb1 hW2 in
/-- The kernel's second support, block by block, is the specification's. -/
theorem sup2Of_apply (i : Fin 10000) (k : Fin 7) :
    sup2Of ablk x pk (ix2 i k) = Cert.GcnSpec.sup2 x adj W1 b1 W2 i k := by
  unfold sup2Of sup2blk Cert.GcnSpec.sup2
  refine (pay2_apply _ _ _ _ ⟨i.val % 400, Nat.mod_lt _ (by decide)⟩ k).trans ?_
  refine Finset.sum_congr rfl fun j _ => ?_
  refine congrArg₂ (· * ·) ?_ ((pkW2_apply pk j k).trans (hW2 j k))
  unfold Cert.GcnSpec.hid
  refine congrArg₂ max (congrArg₂ (· + ·) (Finset.sum_congr rfl fun i' _ => congrArg₂ (· * ·) ?_ (sup1_apply x pk W1 hW1 i' j))
    ((pkB1_apply pk j).trans (hb1 j))) rfl
  exact ablk_row0 ablk adj hadj i i' _ _ rfl rfl

include hadj hW1 hb1 hW2 hb2 hWL hbL in
/-- The logits of the block of point `t = 25 + r / 400` at its row `r mod 400` are the specification's at row `r`. -/
theorem logitB_eq (r : Fin 10000) (t : Fin 50) (ht : t.val = 25 + r.val / 400) (k' : Fin 7) :
    logitB (ablk t) (sup2Of ablk x pk) (pkB2 pk) (pkWL pk) (pkBL pk) ⟨r.val % 400, Nat.mod_lt _ (by decide)⟩ k'
      = Cert.GcnSpec.logit x adj W1 b1 W2 b2 WL bL r k' := by
  unfold logitB Cert.GcnSpec.logit
  refine congrArg₂ (· + ·) (Finset.sum_congr rfl fun j _ => congrArg₂ (· * ·) ?_ ((pkWL_apply pk j k').trans (hWL j k')))
    ((pkBL_apply pk k').trans (hbL k'))
  unfold linB Cert.GcnSpec.lin2
  exact congrArg₂ (· + ·) (Finset.sum_congr rfl fun i' _ => congrArg₂ (· * ·) (ablk_row1 ablk adj hadj r i' t _ ht rfl)
    (sup2Of_apply ablk x pk adj W1 b1 W2 hadj hW1 hb1 hW2 i' j)) ((pkB2_apply pk j).trans (hb2 j))

end Rows

/-- With the adjacency blocks, the packed rows and the arrays related as the program relates them, the kernel's output at
    `Ideal` is `G` of the argument arrays. -/
theorem outOf_eq_G (ablk : Fin 50 → Vec Ideal S1x400x10000 .f32) (x : Vec Ideal S10000x128 .f32) (pk : Vec Ideal S176x16 .f32)
    (adj : Vec Ideal S2x10000x10000 .f32) (W1 : Vec Ideal S128x16 .f32) (b1 : Vec Ideal S16 .f32) (W2 : Vec Ideal S16x7 .f32)
    (b2 : Vec Ideal S7 .f32) (WL : Vec Ideal S7x7 .f32) (bL : Vec Ideal S7 .f32)
    (hadj : ∀ (t : Fin 50) (y : S1x400x10000.Idx), ablk t y
        = adj (ix3 ⟨t.val / 25, by have := t.isLt; omega⟩
            ⟨(t.val % 25) * 400 + (y 1).val, by have h : (y 1).val < 400 := (y 1).isLt; omega⟩ ⟨(y 2).val, (y 2).isLt⟩))
    (hW1 : ∀ (j : Fin 128) (k : Fin 16), pk (ix2 ⟨j.val, by omega⟩ k) = W1 (ix2 j k))
    (hb1 : ∀ k : Fin 16, pk (ix2 ⟨128, by decide⟩ k) = b1 (ix1 k))
    (hW2 : ∀ (j : Fin 16) (k : Fin 7), pk (ix2 ⟨136 + j.val, by omega⟩ ⟨k.val, by omega⟩) = W2 (ix2 j k))
    (hb2 : ∀ k : Fin 7, pk (ix2 ⟨152, by decide⟩ ⟨k.val, by omega⟩) = b2 (ix1 k))
    (hWL : ∀ (j : Fin 7) (k : Fin 7), pk (ix2 ⟨160 + j.val, by omega⟩ ⟨k.val, by omega⟩) = WL (ix2 j k))
    (hbL : ∀ k : Fin 7, pk (ix2 ⟨168, by decide⟩ ⟨k.val, by omega⟩) = bL (ix1 k)) :
    outOf (F := Ideal) ablk x pk = Cert.GcnSpec.G x adj W1 b1 W2 b2 WL bL := by
  funext y
  obtain ⟨r, k, rfl⟩ : ∃ (r : Fin 10000) (k : Fin 7), y = ix2 r k := ⟨y 0, y 1, eq_ix2 y⟩
  refine Eq.trans ?_ (Cert.GcnSpec.G_ix2 x adj W1 b1 W2 b2 WL bL r k).symm
  unfold outOf outblk
  refine (pay3_apply _ _ _ _ _ ⟨r.val % 400, Nat.mod_lt _ (by decide)⟩ k).trans ?_
  have hl : ∀ k' : Fin 7, logitB (ablk (blkOf' (ix2 r k))) (sup2Of ablk x pk) (pkB2 pk) (pkWL pk) (pkBL pk)
      ⟨r.val % 400, Nat.mod_lt _ (by decide)⟩ k' = Cert.GcnSpec.logit x adj W1 b1 W2 b2 WL bL r k' :=
    fun k' => logitB_eq ablk x pk adj W1 b1 W2 b2 WL bL hadj hW1 hb1 hW2 hb2 hWL hbL r _ rfl k'
  simp only [hl]
  rfl

end Cert.KernelIdeal.KVal

end
-- ==== Proof.KernelValue.lean ====
/-
  The idealized kernel's run with its output named by the specification: at the ideal instance the output array ends at `G`
  of the argument arrays.

  The launch gives the output as the whole-array value `OUT` assembled from the grid points' blocks; the points' adjacency
  blocks are rows of `adj`, the rows of the packed weights array are the weight arguments, and the node features' array is the
  argument itself; with these the kernel's value at `Ideal` is `G`.
-/
import proofs.«145415_g2834678415609_cont_sun_c4_672_24_alg».proof.Proof.Ideal.Launch
import proofs.«145415_g2834678415609_cont_sun_c4_672_24_alg».proof.Proof.Ideal.Packed
import proofs.«145415_g2834678415609_cont_sun_c4_672_24_alg».proof.Proof.Ideal.KVal

set_option maxRecDepth 16384

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The kernel's whole output at `Ideal` is `G` of the arrays as launched. -/
theorem OUT_eq_G (c : Dev nD) :
    OUT (F := Ideal) m c = Cert.GcnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  have h := outOf_eq_G (ablkOf m c) (xarr m c) (pkarr m c) (V m c main_arg1)
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (fun t y => iblk0_apply m c (Fin.cast N_0.symm t) y) (pk_W1 m c) (pk_b1 m c) (pk_W2 m c) (pk_b2 m c) (pk_WL m c) (pk_bL m c)
  rw [show xarr m c = m ((c.tc : Thread nD τ).loc main_arg0) from V_main_arg0 m c,
    show (V m c main_arg1 : Vec Ideal S2x10000x10000 .f32) = m ((c.tc : Thread nD τ).loc main_arg1) from V_main_arg1 m c] at h
  exact h

/-- Every weakly fair execution of the idealized kernel's program terminates with the output array at `G` of the argument
    arrays and the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v21)
        = Cert.GcnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (OUT_eq_G m c), (h c).2⟩) (run_out (F := Ideal) m ρ)

end Cert.KernelIdeal.KVal

end
-- ==== Proof.RefValue.lean ====
/-
  The reference program's result, read at an index: the specification `G`.

  The reference's stages are compared with the layers of `G` one at a time, each at one symbolic index (r, k):
  a product is the plain sum over its contracted axis on both sides, the slice and reshape of `adj` read
  `adj (c, r, j)`, a bias broadcast down the rows reads `b k`. Three spellings differ, each by an identity of the
  extended reals: the row maximum is taken once more with the value of the `−∞` word it was folded from (the fold
  is already above it), and the float sum starts from the value of the zero word, which is `0`.
-/
import proofs.«145415_g2834678415609_cont_sun_c4_672_24_alg».proof.Defs
import proofs.«145415_g2834678415609_cont_sun_c4_672_24_alg».proof.Proof.Gen.ReferenceIdeal
import proofs.«145415_g2834678415609_cont_sun_c4_672_24_alg».proof.Proof.RefRun
import proofs.«145415_g2834678415609_cont_sun_c4_672_24_alg».proof.Proof.RefRead
import proofs.«145415_g2834678415609_cont_sun_c4_672_24_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open Cert.ReferenceIdeal.ReadP Cert.GcnSpec

variable (x : (⟨S10000x128, .f32⟩ : BufTy).Contents (Elt Ideal)) (adj : (⟨S2x10000x10000, .f32⟩ : BufTy).Contents (Elt Ideal))
  (W1 : (⟨S128x16, .f32⟩ : BufTy).Contents (Elt Ideal)) (b1 : (⟨S16, .f32⟩ : BufTy).Contents (Elt Ideal))
  (W2 : (⟨S16x7, .f32⟩ : BufTy).Contents (Elt Ideal)) (b2 : (⟨S7, .f32⟩ : BufTy).Contents (Elt Ideal))
  (WL : (⟨S7x7, .f32⟩ : BufTy).Contents (Elt Ideal)) (bL : (⟨S7, .f32⟩ : BufTy).Contents (Elt Ideal))

/-- The first product at (r, k): the sum over the 128 features. -/
theorem s1_eq (r : Fin 10000) (k : Fin 16) : val_main_v2 (F := Ideal) x W1 (ix2 r k) = sup1 x W1 r k := by
  rw [val_main_v2_apply]
  unfold sup1
  refine Finset.sum_congr rfl fun j _ => ?_
  have el : lidx_main_v2 (ix2 r k) j = ix2 r j := funext fun a => Fin.ext (by match a with | ⟨0, _⟩ => rfl | ⟨1, _⟩ => rfl)
  have er : ridx_main_v2 (ix2 r k) j = ix2 j k := funext fun a => Fin.ext (by match a with | ⟨0, _⟩ => rfl | ⟨1, _⟩ => rfl)
  rw [el, er]

/-- The first slice of `adj`, reshaped to a matrix, at (r, j): the row-major position r · 10000 + j of the one-member
    stack splits back into (r, j). -/
theorem adj0_eq (r j : Fin 10000) : val_main_v1 (F := Ideal) adj (ix2 r j) = adj (ix3 (0 : Fin 2) r j) := by
  rw [val_main_v1_apply, val_main_v0_apply]
  refine congrArg adj (funext fun a => Fin.ext ?_)
  have hr := r.isLt
  have hj := j.isLt
  match a with
  | ⟨0, _⟩ => rfl
  | ⟨1, _⟩ => show (r.val * 10000 + j.val) / 10000 % 10000 = r.val; omega
  | ⟨2, _⟩ => show (r.val * 10000 + j.val) % 10000 = j.val; omega

/-- The second slice of `adj` likewise. -/
theorem adj1_eq (r j : Fin 10000) : val_main_v9 (F := Ideal) adj (ix2 r j) = adj (ix3 (1 : Fin 2) r j) := by
  rw [val_main_v9_apply, val_main_v8_apply]
  refine congrArg adj (funext fun a => Fin.ext ?_)
  have hr := r.isLt
  have hj := j.isLt
  match a with
  | ⟨0, _⟩ => rfl
  | ⟨1, _⟩ => show (r.val * 10000 + j.val) / 10000 % 10000 = r.val; omega
  | ⟨2, _⟩ => show (r.val * 10000 + j.val) % 10000 = j.val; omega

/-- The hidden layer at (r, k): the first slice of `adj` times the first product, plus the bias at k, against the
    value of the zero word. -/
theorem hid_eq (r : Fin 10000) (k : Fin 16) : val_main_v7 (F := Ideal) x adj W1 b1 (ix2 r k) = hid x adj W1 b1 r k := by
  rw [val_main_v7_apply, val_main_v6_apply, val_main_v3_apply, val_main_v5_apply, val_main_v4_apply,
    val_main_call0_v0_apply, val_main_call0_cst_apply]
  unfold hid
  have eb : idx_main_v4 (idx_main_v5 (ix2 r k)) = ix1 k := funext fun a => Fin.ext (by match a with | ⟨0, _⟩ => rfl)
  have es : ∀ j : Fin 10000, val_main_v1 (F := Ideal) adj (lidx_main_v3 (ix2 r k) j) * val_main_v2 (F := Ideal) x W1 (ridx_main_v3 (ix2 r k) j)
      = adj (ix3 (0 : Fin 2) r j) * sup1 x W1 j k := fun j => by
    have el : lidx_main_v3 (ix2 r k) j = ix2 r j := funext fun a => Fin.ext (by match a with | ⟨0, _⟩ => rfl | ⟨1, _⟩ => rfl)
    have er : ridx_main_v3 (ix2 r k) j = ix2 j k := funext fun a => Fin.ext (by match a with | ⟨0, _⟩ => rfl | ⟨1, _⟩ => rfl)
    rw [el, er, adj0_eq, s1_eq]
  rw [eb, Finset.sum_congr rfl fun j _ => es j]
  rfl

/-- The second product at (r, k): the sum over the 16 hidden units. -/
theorem s2_eq (r : Fin 10000) (k : Fin 7) : val_main_v10 (F := Ideal) x adj W1 b1 W2 (ix2 r k) = sup2 x adj W1 b1 W2 r k := by
  rw [val_main_v10_apply]
  unfold sup2
  refine Finset.sum_congr rfl fun j _ => ?_
  have el : lidx_main_v10 (ix2 r k) j = ix2 r j := funext fun a => Fin.ext (by match a with | ⟨0, _⟩ => rfl | ⟨1, _⟩ => rfl)
  have er : ridx_main_v10 (ix2 r k) j = ix2 j k := funext fun a => Fin.ext (by match a with | ⟨0, _⟩ => rfl | ⟨1, _⟩ => rfl)
  rw [el, er, hid_eq]

/-- The second layer at (r, k): the second slice of `adj` times the second product, plus the bias at k. -/
theorem lin2_eq (r : Fin 10000) (k : Fin 7) : val_main_v14 (F := Ideal) x adj W1 b1 W2 b2 (ix2 r k) = lin2 x adj W1 b1 W2 b2 r k := by
  rw [val_main_v14_apply, val_main_v11_apply, val_main_v13_apply, val_main_v12_apply]
  unfold lin2
  have eb : idx_main_v12 (idx_main_v13 (ix2 r k)) = ix1 k := funext fun a => Fin.ext (by match a with | ⟨0, _⟩ => rfl)
  have es : ∀ j : Fin 10000, val_main_v9 (F := Ideal) adj (lidx_main_v11 (ix2 r k) j) * val_main_v10 (F := Ideal) x adj W1 b1 W2 (ridx_main_v11 (ix2 r k) j)
      = adj (ix3 (1 : Fin 2) r j) * sup2 x adj W1 b1 W2 j k := fun j => by
    have el : lidx_main_v11 (ix2 r k) j = ix2 r j := funext fun a => Fin.ext (by match a with | ⟨0, _⟩ => rfl | ⟨1, _⟩ => rfl)
    have er : ridx_main_v11 (ix2 r k) j = ix2 j k := funext fun a => Fin.ext (by match a with | ⟨0, _⟩ => rfl | ⟨1, _⟩ => rfl)
    rw [el, er, adj1_eq, s2_eq]
  rw [eb, Finset.sum_congr rfl fun j _ => es j]
  rfl

/-- The logits at (r, k): the second layer times `WL`, plus the bias at k. -/
theorem logit_eq (r : Fin 10000) (k : Fin 7) :
    val_main_v18 (F := Ideal) x adj W1 b1 W2 b2 WL bL (ix2 r k) = logit x adj W1 b1 W2 b2 WL bL r k := by
  rw [val_main_v18_apply, val_main_v15_apply, val_main_v17_apply, val_main_v16_apply]
  unfold logit
  have eb : idx_main_v16 (idx_main_v17 (ix2 r k)) = ix1 k := funext fun a => Fin.ext (by match a with | ⟨0, _⟩ => rfl)
  have es : ∀ j : Fin 7, val_main_v14 (F := Ideal) x adj W1 b1 W2 b2 (lidx_main_v15 (ix2 r k) j) * WL (ridx_main_v15 (ix2 r k) j)
      = lin2 x adj W1 b1 W2 b2 r j * WL (ix2 j k) := fun j => by
    have el : lidx_main_v15 (ix2 r k) j = ix2 r j := funext fun a => Fin.ext (by match a with | ⟨0, _⟩ => rfl | ⟨1, _⟩ => rfl)
    have er : ridx_main_v15 (ix2 r k) j = ix2 j k := funext fun a => Fin.ext (by match a with | ⟨0, _⟩ => rfl | ⟨1, _⟩ => rfl)
    rw [el, er, lin2_eq]
  rw [eb, Finset.sum_congr rfl fun j _ => es j]
  rfl

/-- Dropping axis 1 of a [10000, 7] array leaves [10000]. -/
theorem red7 : S10000x7.Reduces [1] S10000 := by decide

/-- A row's maximum at r: the reference folds `max` over the 7 classes from the value of the `−∞` word, then takes
    the maximum with that value once more; the fold is already above its starting value. -/
theorem rowMax_eq (r : Fin 10000) :
    val_main_call1_v2 (F := Ideal) x adj W1 b1 W2 b2 WL bL (ix1 r) = rowMax x adj W1 b1 W2 b2 WL bL r := by
  rw [val_main_call1_v2_apply, val_main_call1_v1_apply, val_main_call1_cst_0_apply]
  unfold val_main_call1_v0
  rw [Host.reduce_eq_fold_single FloatOps.maximumf _ _ reducesTo_S10000x7_S10000_d1 red7 h_S_ (ix1 r)]
  have ef : (val_main_v18 (F := Ideal) x adj W1 b1 W2 b2 WL bL ∘ red7.lift (ix1 r))
      = fun k : Fin (S10000x7.size 1) => logit x adj W1 b1 W2 b2 WL bL r k := by
    refine funext fun (k : Fin 7) => ?_
    have e : red7.lift (ix1 r) k = ix2 r k := funext fun a => Fin.ext (by match a with | ⟨0, _⟩ => rfl | ⟨1, _⟩ => rfl)
    show val_main_v18 (F := Ideal) x adj W1 b1 W2 b2 WL bL (red7.lift (ix1 r) k) = _
    rw [e, logit_eq]
  rw [ef]
  exact max_eq_right ((Finset.le_fold_max _).2 (Or.inl le_rfl))

/-- The shifted logits at (r, k): the row's maximum, broadcast along the row, subtracted. -/
theorem shifted_eq (r : Fin 10000) (k : Fin 7) :
    val_main_call1_v5 (F := Ideal) x adj W1 b1 W2 b2 WL bL (ix2 r k) = shifted x adj W1 b1 W2 b2 WL bL r k := by
  rw [val_main_call1_v5_apply, val_main_call1_v4_apply, val_main_call1_v3_apply]
  have e : idx_main_call1_v3 (idx_main_call1_v4 (ix2 r k)) = ix1 r := funext fun a => Fin.ext (by match a with | ⟨0, _⟩ => rfl)
  rw [e, logit_eq, rowMax_eq]
  rfl

/-- The result at (r, k): the shifted logit minus the logarithm of the row's sum of exponentials, the sum started from
    the value of the zero word, which is 0. -/
theorem out_eq (r : Fin 10000) (k : Fin 7) :
    val_main_v19 (F := Ideal) x adj W1 b1 W2 b2 WL bL (ix2 r k) = out x adj W1 b1 W2 b2 WL bL r k := by
  rw [val_main_v19_apply, val_main_call1_v10_apply, val_main_call1_v9_apply, val_main_call1_v8_apply,
    val_main_call1_v7_apply, val_main_call1_cst_1_apply, shifted_eq]
  have es : ∀ k' : Fin 7, val_main_call1_v6 (F := Ideal) x adj W1 b1 W2 b2 WL bL
        (idx_main_call1_v7 (idx_main_call1_v8 (idx_main_call1_v10 (ix2 r k))) k')
      = Ideal.exp (shifted x adj W1 b1 W2 b2 WL bL r k') := fun k' => by
    have e : idx_main_call1_v7 (idx_main_call1_v8 (idx_main_call1_v10 (ix2 r k))) k' = ix2 r k' :=
      funext fun a => Fin.ext (by match a with | ⟨0, _⟩ => rfl | ⟨1, _⟩ => rfl)
    rw [e, val_main_call1_v6_apply, shifted_eq]
    rfl
  rw [Finset.sum_congr rfl fun k' _ => es k']
  unfold out
  simp only [Ideal.subf_def, Ideal.hostUnary_log_def, Ideal.ofBits_def, Ideal.ofBits_zero_f32, zero_add]

/-- The reference's result array is `G` of its arguments: index by index, by the layers above. -/
theorem res_eq_G : val_main_v19 (F := Ideal) x adj W1 b1 W2 b2 WL bL = G x adj W1 b1 W2 b2 WL bL := by
  funext i
  obtain ⟨r, k, rfl⟩ : ∃ (r : Fin 10000) (k : Fin 7), i = ix2 r k := ⟨i 0, i 1, eq_ix2 i⟩
  rw [G_ix2]
  exact out_eq x adj W1 b1 W2 b2 WL bL r k

/-- The reference's run: every weakly fair execution ends with the result array at `G` of the argument arrays and the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
        = Cert.GcnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun _ h c => ⟨(h c).1.trans ?_, (h c).2⟩)
    (Cert.ReferenceIdeal.ValueP.run (F := Ideal) m ρ)
  rw [val_main_v19_eq]
  exact res_eq_G _ _ _ _ _ _ _ _

end Cert.ReferenceIdeal.RefValue

end
-- ==== Proof.lean ====
/-
  The certificate of a two-layer graph convolution with a final linear layer and a row-wise log-softmax:
      out = log_softmax ((adj[1] · (relu (adj[0] · (x · W1) + b1) · W2) + b2) · WL + bL)
  computed by one pipelined kernel over a grid of 50 points against the plain array program.

  The kernel packs the six weight arrays into one `[176, 16]` array on the host, computes `x · W1` once into a scratch buffer at
  the first point, then walks `adj[0]` in 25 blocks of 400 rows (each giving 400 rows of the second support `relu (…) · W2`, kept
  in a second scratch buffer) and `adj[1]` in 25 blocks of 400 rows (each giving 400 rows of the output). Every product contracts
  its whole axis inside one block, so row by row the kernel forms exactly the sums the reference forms, in the same grouping:
  the two results are equal on the extended reals by the definitions alone — no distributive or cancelling law, and the
  finiteness of the inputs is not used. The reference's extra `maximum (−∞) rowmax` is the identity because the row maximum is
  itself a fold of `max` from the value of the `−∞` word.

  Frames: both kernel programs run under relational proof data — the inputs' staging buffers hold their blocks, the first
  scratch holds `x · W1` after the first point, the second scratch agrees with the second support on the rows written so far,
  and each point of the second half overwrites its own 400 rows of the output's staging buffer, which is written back once
  after the last point. The reference's frame is its run with the result dropped.
-/
import proofs.«145415_g2834678415609_cont_sun_c4_672_24_alg».proof.Defs
import proofs.«145415_g2834678415609_cont_sun_c4_672_24_alg».proof.Proof.Gen.Kernel
import proofs.«145415_g2834678415609_cont_sun_c4_672_24_alg».proof.Proof.Gen.KernelIdeal
import proofs.«145415_g2834678415609_cont_sun_c4_672_24_alg».proof.Proof.Gen.ReferenceIdeal
import proofs.«145415_g2834678415609_cont_sun_c4_672_24_alg».proof.Proof.Gen.Pre_finite_inputs
import proofs.«145415_g2834678415609_cont_sun_c4_672_24_alg».proof.Proof.Bits.Launch
import proofs.«145415_g2834678415609_cont_sun_c4_672_24_alg».proof.Proof.KernelValue
import proofs.«145415_g2834678415609_cont_sun_c4_672_24_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The ideal pass rewrote nothing: there is nothing to preserve. -/
theorem preserves : Cert.preserves_Kernel_KernelIdeal := trivial

/-- Both idealized programs end at `G` of arguments that agree. -/
theorem algebraic : Cert.algebraic_KernelIdeal_ReferenceIdeal := by
  intro m ρ m' ρ' _ hagree
  refine ⟨_, Cert.KernelIdeal.KVal.kernel_run m ρ, ?_⟩
  refine (θ_run Cert.ReferenceIdeal.defs _ _).mono (fun _ h c => ⟨(h c).1.trans ?_, (h c).2⟩)
    (Cert.ReferenceIdeal.RefValue.ref_run m' ρ')
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
